-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_tau" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) (main_arg2 : IVec S4096 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S4096 : Shape := ⟨1, ![4096]⟩
abbrev S8192x1024 : Shape := ⟨2, ![8192, 1024]⟩
abbrev S512x1024 : Shape := ⟨2, ![512, 1024]⟩
abbrev S512 : Shape := ⟨1, ![512]⟩
abbrev S512x1 : Shape := ⟨2, ![512, 1]⟩
abbrev S8192x8192 : Shape := ⟨2, ![8192, 8192]⟩
abbrev S8192x1 : Shape := ⟨2, ![8192, 1]⟩
abbrev S512x512 : Shape := ⟨2, ![512, 512]⟩
abbrev S1024x512 : Shape := ⟨2, ![1024, 512]⟩
abbrev S1x512 : Shape := ⟨2, ![1, 512]⟩
abbrev S8192 : Shape := ⟨1, ![8192]⟩
abbrev S_ : Shape := ⟨0, ![]⟩

abbrev nBuf : Space → Nat
  | .hbm => 33
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S8192x1024, .f32⟩
  | .hbm, ⟨4, _⟩ => ⟨S8192x1024, .bf16⟩
  | .hbm, ⟨5, _⟩ => ⟨S8192x8192, .f32⟩
  | .hbm, ⟨6, _⟩ => ⟨S8192x1, .f32⟩
  | .hbm, ⟨7, _⟩ => ⟨S8192, .f32⟩
  | .hbm, ⟨8, _⟩ => ⟨S4096, .i32⟩
  | .hbm, ⟨9, _⟩ => ⟨S_, .i32⟩
  | .hbm, ⟨10, _⟩ => ⟨S4096, .i32⟩
  | .hbm, ⟨11, _⟩ => ⟨S4096, .i32⟩
  | .hbm, ⟨12, _⟩ => ⟨S8192, .i32⟩
  | .hbm, ⟨13, _⟩ => ⟨S8192, .i32⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192, .f32⟩
  | .hbm, ⟨27, _⟩ => ⟨S8192, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x512, .f32⟩
  | .local _ .vmem, ⟨9, _⟩ => ⟨S512x512, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v67 : BitVec 1 := Scalar.cmpi .eq arg1 c15_i32
  let v68 : BitVec 32 := Scalar.extui v67
  let c0_i32_30 : BitVec 32 := 0#32
  let v69 : BitVec 1 := Scalar.cmpi .ne v68 c0_i32_30
  v69

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S512x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S4096x1024_S4096x1024_S8192x1024_d0 : Shape.Concatenates [S4096x1024, S4096x1024] S8192x1024 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x1024_S512 : S512x1024.Reduces [1] S512
  shapeCasts_S512_S512x1 : S512.ShapeCasts S512x1
  broadcasts_S512x1_S512x1024 : S512x1.Broadcasts S512x1024
  bitsLt_bf16_f32 : FTy.bits .bf16 < FTy.bits .f32
  packedbf16_S512x1024_S512x1024_0_0 : (Rect.unit (s := S512x1024) ![0, 0] S512x1024.size inb_S512x1024_S512x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  transposes_S512x1024_p1_0_S1024x512 : S512x1024.Transposes [1, 0] S1024x512
  iota_S512x1_d0_w32 : S512x1.Iotas .tc 32 [0]
  iota_S1x512_d1_w32 : S1x512.Iotas .tc 32 [1]
  broadcasts_S512x1_S512x512 : S512x1.Broadcasts S512x512
  broadcasts_S1x512_S512x512 : S1x512.Broadcasts S512x512
  inb_S512x512_S512x512_0_0 : ∀ a, (![0, 0] : Fin 2 → Nat) a + S512x512.size a ≤ S512x512.size a
  h_S512x512 : 0 < S512x512.numel
  reduces_S512x512_S512 : S512x512.Reduces [1] S512
  shapeCasts_S8192x1_S8192 : S8192x1.ShapeCasts S8192
  bcast_S_S4096 : S_.BroadcastsInDim S4096 (![] : Fin 0 → Fin S4096.rank)
  concatenates_S4096_S4096_S8192_d0 : Shape.Concatenates [S4096, S4096] S8192 0
  bcast_S_S8192 : S_.BroadcastsInDim S8192 (![] : Fin 0 → Fin S8192.rank)
  bcast_S8192_S8192x1_0 : S8192.BroadcastsInDim S8192x1 (![0] : Fin 1 → Fin S8192x1.rank)
  reducesTo_S8192_S_d0 : S8192.ReducesTo [0] S_
  h_S_ : 0 < S_.numel
  dot_S512x1024_S1024x512_S512x512_1_0_0_1_n_n_wf : DotDims.WF S512x1024 S1024x512 S512x512 [1] [0] [0] [1] [] []
  gather_S8192_S8192x1_S8192_n_0_n_n_0_1_1_wf : GatherDims.WF S8192 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .bf16 = 32 ∨ (Rect.block (s := S8192x1024) S512x1024.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S8192x1024.size a
  hwx1_0 : ∀ i : grid1.Coords, EltTy.bits .bf16 = 32 ∨ (Rect.block (s := S8192x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S8192x1024.size a
  hwx1_1 : ∀ i : grid1.Coords, EltTy.bits .bf16 = 32 ∨ (Rect.block (s := S8192x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x512.size a ≤ S8192x8192.size a
  hwx1_2 : ∀ i : grid1.Coords, EltTy.bits .f32 = 32 ∨ (Rect.block (s := S8192x8192) S512x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S8192x1.size a
  hwx1_3 : ∀ i : grid1.Coords, EltTy.bits .f32 = 32 ∨ (Rect.block (s := S8192x1) S512x1.size (cc1_transform_3 i) (hinb1_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S512x512.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S512x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1024x8192 : Shape := ⟨2, ![1024, 8192]⟩
abbrev S8192x8192 : Shape := ⟨2, ![8192, 8192]⟩
abbrev S8192x1x1 : Shape := ⟨3, ![8192, 1, 1]⟩
abbrev S1 : Shape := ⟨1, ![1]⟩
abbrev S1x1x1 : Shape := ⟨3, ![1, 1, 1]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096, .i32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1024, .f32⟩
  | .hbm, ⟨13, _⟩ => ⟨S8192x1024, .f32⟩
  | .hbm, ⟨14, _⟩ => ⟨S1024x8192, .f32⟩
  | .hbm, ⟨15, _⟩ => ⟨S8192x8192, .f32⟩
  | .hbm, ⟨16, _⟩ => ⟨S8192x8192, .i32⟩
  | .hbm, ⟨17, _⟩ => ⟨S8192x8192, .i32⟩
  | .hbm, ⟨18, _⟩ => ⟨S_, .i32⟩
  | .hbm, ⟨19, _⟩ => ⟨S8192x8192, .i32⟩
  | .hbm, ⟨20, _⟩ => ⟨S8192x8192, .i32⟩
  | .hbm, ⟨21, _⟩ => ⟨S8192x8192, .i1⟩
  | .hbm, ⟨22, _⟩ => ⟨S8192x8192, .f32⟩
  | .hbm, ⟨23, _⟩ => ⟨S_, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S8192x8192, .f32⟩
  | .hbm, ⟨28, _⟩ => ⟨S8192x8192, .f32⟩
  | .hbm, ⟨29, _⟩ => ⟨S8192x8192, .f32⟩
  | .hbm, ⟨30, _⟩ => ⟨S4096, .i32⟩
  | .hbm, ⟨31, _⟩ => ⟨S_, .i32⟩
  | .hbm, ⟨32, _⟩ => ⟨S4096, .i32⟩
  | .hbm, ⟨33, _⟩ => ⟨S4096, .i32⟩
  | .hbm, ⟨34, _⟩ => ⟨S8192, .i32⟩
  | .hbm, ⟨35, _⟩ => ⟨S8192, .i32⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x8192, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x1, .f32⟩
  | .hbm, ⟨53, _⟩ => ⟨S8192x8192, .f32⟩
  | .hbm, ⟨54, _⟩ => ⟨S8192x8192, .f32⟩
  | .hbm, ⟨55, _⟩ => ⟨S8192x1, .i32⟩
  | .hbm, ⟨56, _⟩ => ⟨S_, .i32⟩
  | .hbm, ⟨57, _⟩ => ⟨S8192x1, .i32⟩
  | .hbm, ⟨58, _⟩ => ⟨S8192x1, .i1⟩
  | .hbm, ⟨59, _⟩ => ⟨S_, .i32⟩
  | .hbm, ⟨60, _⟩ => ⟨S8192x1, .i32⟩
  | .hbm, ⟨61, _⟩ => ⟨S8192x1, .i32⟩
  | .hbm, ⟨62, _⟩ => ⟨S8192x1, .i32⟩
  | .hbm, ⟨63, _⟩ => ⟨S8192x1x1, .i32⟩
  | .hbm, ⟨64, _⟩ => ⟨S1, .i32⟩
  | .hbm, ⟨65, _⟩ => ⟨S_, .i32⟩
  | .hbm, ⟨66, _⟩ => ⟨S8192x1x1, .i32⟩
  | .hbm, ⟨67, _⟩ => ⟨S8192x1x1, .i1⟩
  | .hbm, ⟨68, _⟩ => ⟨S1x1x1, .i32⟩
  | .hbm, ⟨69, _⟩ => ⟨S8192x1x1, .i32⟩
  | .hbm, ⟨70, _⟩ => ⟨S8192x1x1, .i1⟩
  | .hbm, ⟨71, _⟩ => ⟨S8192x1x1, .i1⟩
  | .hbm, ⟨72, _⟩ => ⟨S_, .i1⟩
  | .hbm, ⟨73, _⟩ => ⟨S8192x1, .i1⟩
  | .hbm, ⟨74, _⟩ => ⟨S8192x1, .f32⟩
  | .hbm, ⟨75, _⟩ => ⟨S_, .f32⟩
  | .hbm, ⟨76, _⟩ => ⟨S8192x1, .f32⟩
  | .hbm, ⟨77, _⟩ => ⟨S8192x1, .f32⟩
  | .hbm, ⟨78, _⟩ => ⟨S8192, .f32⟩
  | .hbm, ⟨79, _⟩ => ⟨S8192, .f32⟩
  | .hbm, ⟨80, _⟩ => ⟨S_, .i32⟩
  | .hbm, ⟨81, _⟩ => ⟨S8192, .i32⟩
  | .hbm, ⟨82, _⟩ => ⟨S8192, .i1⟩
  | .hbm, ⟨83, _⟩ => ⟨S_, .i32⟩
  | .hbm, ⟨84, _⟩ => ⟨S8192, .i32⟩
  | .hbm, ⟨85, _⟩ => ⟨S8192, .i32⟩
  | .hbm, ⟨86, _⟩ => ⟨S8192, .i32⟩
  | .hbm, ⟨87, _⟩ => ⟨S8192x1, .i32⟩
  | .hbm, ⟨88, _⟩ => ⟨S8192, .f32⟩
  | .hbm, ⟨89, _⟩ => ⟨S8192, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_call1_cst : Ref sig .tc := ⟨.hbm, 40, rfl⟩
abbrev main_call1_v0 : Ref sig .tc := ⟨.hbm, 41, rfl⟩
abbrev main_call1_cst_0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_cst_1 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_v27 : Ref sig .tc := ⟨.hbm, 54, rfl⟩
abbrev main_v28 : Ref sig .tc := ⟨.hbm, 55, rfl⟩
abbrev main_call2_c : Ref sig .tc := ⟨.hbm, 56, rfl⟩
abbrev main_call2_v0 : Ref sig .tc := ⟨.hbm, 57, rfl⟩
abbrev main_call2_v1 : Ref sig .tc := ⟨.hbm, 58, rfl⟩
abbrev main_call2_c_0 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_call2_v5 : Ref sig .tc := ⟨.hbm, 63, rfl⟩
abbrev main_call2_c_1 : Ref sig .tc := ⟨.hbm, 64, rfl⟩
abbrev main_call2_c_2 : Ref sig .tc := ⟨.hbm, 65, rfl⟩
abbrev main_call2_v6 : Ref sig .tc := ⟨.hbm, 66, rfl⟩
abbrev main_call2_v7 : Ref sig .tc := ⟨.hbm, 67, rfl⟩
abbrev main_call2_v8 : Ref sig .tc := ⟨.hbm, 68, rfl⟩
abbrev main_call2_v9 : Ref sig .tc := ⟨.hbm, 69, rfl⟩
abbrev main_call2_v10 : Ref sig .tc := ⟨.hbm, 70, rfl⟩
abbrev main_call2_v11 : Ref sig .tc := ⟨.hbm, 71, rfl⟩
abbrev main_call2_c_3 : Ref sig .tc := ⟨.hbm, 72, rfl⟩
abbrev main_call2_v12 : Ref sig .tc := ⟨.hbm, 73, rfl⟩
abbrev main_call2_v13 : Ref sig .tc := ⟨.hbm, 74, rfl⟩
abbrev main_call2_cst : Ref sig .tc := ⟨.hbm, 75, rfl⟩
abbrev main_call2_v14 : Ref sig .tc := ⟨.hbm, 76, rfl⟩
abbrev main_v29 : Ref sig .tc := ⟨.hbm, 77, rfl⟩
abbrev main_v30 : Ref sig .tc := ⟨.hbm, 78, rfl⟩
abbrev main_v31 : Ref sig .tc := ⟨.hbm, 79, rfl⟩
abbrev main_c_4 : Ref sig .tc := ⟨.hbm, 80, rfl⟩
abbrev main_v32 : Ref sig .tc := ⟨.hbm, 81, rfl⟩
abbrev main_v33 : Ref sig .tc := ⟨.hbm, 82, rfl⟩
abbrev main_c_5 : Ref sig .tc := ⟨.hbm, 83, rfl⟩
abbrev main_v34 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_cst_6 : Ref sig .tc := ⟨.hbm, 90, rfl⟩
abbrev main_v40 : Ref sig .tc := ⟨.hbm, 91, rfl⟩
abbrev main_cst_7 : Ref sig .tc := ⟨.hbm, 92, rfl⟩
abbrev main_v41 : Ref sig .tc := ⟨.hbm, 93, rfl⟩
abbrev main_v42 : Ref sig .tc := ⟨.hbm, 94, rfl⟩

abbrev nD : Nat := 1
abbrev τ : Topo := Topo.v7x

variable {F : FTy → Type} [FloatOps F]

class Facts₀ : Prop where
  concatenates_S4096x1024_S4096x1024_S8192x1024_d0 : Shape.Concatenates [S4096x1024, S4096x1024] S8192x1024 0
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  transposes_S8192x1024_S1024x8192_1_0 : S8192x1024.Transposes [1, 0] S1024x8192
  bcast_S_S8192x8192 : S_.BroadcastsInDim S8192x8192 (![] : Fin 0 → Fin S8192x8192.rank)
  bcast_S_S4096 : S_.BroadcastsInDim S4096 (![] : Fin 0 → Fin S4096.rank)
  concatenates_S4096_S4096_S8192_d0 : Shape.Concatenates [S4096, S4096] S8192 0
  bcast_S_S8192 : S_.BroadcastsInDim S8192 (![] : Fin 0 → Fin S8192.rank)
  reducesTo_S8192x8192_S8192_d1 : S8192x8192.ReducesTo [1] S8192
  bcast_S8192x1_S8192x8192_0_1 : S8192x1.BroadcastsInDim S8192x8192 (![0, 1] : Fin 2 → Fin S8192x8192.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  reducesTo_S8192_S_d0 : S8192.ReducesTo [0] S_
  dot_S8192x1024_S1024x8192_S8192x8192_1_0_0_1_n_n_wf : DotDims.WF S8192x1024 S1024x8192 S8192x8192 [1] [0] [0] [1] [] []
  gather_S8192x8192_S8192x1x1_S8192x1_n_1_0_0_1_2_11_wf : GatherDims.WF S8192x8192 S8192x1x1 S8192x1 [] [1] [0] [1] [0] 2 ![1, 1]
  gather_S8192_S8192x1_S8192_n_0_n_n_0_1_1_wf : GatherDims.WF S8192 S8192x1 S8192 [] [0] [] [0] [] 1 ![1]

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf
def gather_S8192x8192_S8192x1x1_S8192x1_n_1_0_0_1_2_11 : GatherDims S8192x8192 S8192x1x1 S8192x1 where
  offsetDims := []
  collapsedSliceDims := [1]
  operandBatchingDims := [0]
  startIndicesBatchingDims := [0]
  startIndexMap := [1]
  indexVectorDim := 2
  sliceSizes := ![1, 1]
  wf := gather_S8192x8192_S8192x1x1_S8192x1_n_1_0_0_1_2_11_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

class Facts : Prop extends Facts₀ where

variable [Facts]
-- ==== Proof.KRegion0.lean ====
/-
  Region 0 (the row normalisation, 16 grid points of 512 rows each) at the buffer contents `V` the region is
  entered from. Each point loads its 512×1024 block of the concatenated features, divides every row by
  max(√(Σ x²), 1e-8), and stores the quotient (narrowed to bf16) as the whole output block.
-/
import proofs.«117302_j53961969107141_1_alg».proof.Proof.Gen.Kernel.Launch
import proofs.«117302_j53961969107141_1_alg».proof.Proof.Gen.Kernel.Skeleton
import proofs.«117302_j53961969107141_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512×1024 rectangle: the one rectangle the body loads and stores through. -/
abbrev r0_0 : Rect S512x1024 := Rect.unit (s := S512x1024) ![0, 0] S512x1024.size inb_S512x1024_S512x1024_0_0

/-- What the body leaves in the output block: its one store, of the normalised rows of the input block. -/
def out0_1 (x0 : Vec F S512x1024 .f32) : Vec F S512x1024 .bf16 :=
  View.canon [⟨r0_0, k0_pay1 (View.ld x0 r0_0)⟩]

theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging memrefs: the input block is kept, the output block ends at `out0_1` of it. -/
theorem sound_kernel0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: arrays as found; the input block kept, the output block at the
    normalised rows; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1Runs.lean ====
/-
  Region 1's body (one 512×512 tile of the logits and one step of the streaming soft-max) on whole staging and
  scratch memrefs, in its three control cases: the first column tile of a row block (the running maximum, sum and
  target pick are reset first), an inner tile, and the last tile (the row block's loss column is stored).
  The running state is the triple (m, l, t) of 512×1 columns kept in the three scratch buffers.
-/
import proofs.«117302_j53961969107141_1_alg».proof.Proof.Gen.Kernel.Launch
import proofs.«117302_j53961969107141_1_alg».proof.Proof.Gen.Kernel.Skeleton
import proofs.«117302_j53961969107141_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first `scf.if`: the column coordinate is 0. -/
abbrev cond1_0 (i : grid1.Coords) : Prop := (Scalar.cmpi .ne (Scalar.extui (Scalar.cmpi .eq (BitVec.ofNat 32 (i 1).val) 0#32)) 0#32) = 1#1
/-- The body's second `scf.if`: the column coordinate is 15 (the last of 16). -/
abbrev cond1_1 (i : grid1.Coords) : Prop := k1_cond2 i = 1#1

/-- Over the 256 points in row-major order, the first holds at the points ≡ 0 and the second at the points ≡ 15 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- The running state: (maximum, sum of exponentials, target pick), one entry per row of the block. -/
abbrev St (F : FTy → Type) : Type := FVec F S512x1 .f32 × FVec F S512x1 .f32 × FVec F S512x1 .f32

/-- The state a row block starts from: (−∞, 0, 0). -/
def resetState : St F := (k1_pay6, k1_pay7, k1_pay8)

/-- The tile of logits the body computes from the row block `xr` and the column block `xc` of the unit rows. -/
def tile (i : grid1.Coords) (xr xc : Vec F S512x1024 .bf16) : FVec F S512x512 .f32 := k1_pay11 i xr xc

/-- One tile's update of the running state. -/
def stepState (i : grid1.Coords) (xr xc : Vec F S512x1024 .bf16) (s : St F) : St F :=
  (k1_pay3 (tile i xr xc) s.1, k1_pay2 (tile i xr xc) s.1 s.2.1 s.1, k1_pay4 (tile i xr xc) (k1_pay12 i) k1_pay13 s.2.2)

/-- The loss column from the final state: (m + log l) − t. -/
def lossOf (s : St F) : FVec F S512x1 .f32 := k1_pay5 s.1 s.2.1 s.2.2

/-! ## Whole-rectangle loads and stores

Every load and store of the body goes through the memref's whole rectangle at offsets zero. Such a store, made
last, replaces the contents by its payload whatever the view, the earlier contents and the earlier stores were;
such a load of a whole memref reads its contents. -/

/-- The offsets (0, 0) are the zero offsets. -/
theorem offsets_zero2 : (![0, 0] : Fin 2 → ℕ) = fun _ => 0 := by
  funext a; fin_cases a <;> rfl

section Whole

variable {sg : RefSig} {κ : Kind} {sp : Space} {S : Shape} {e : EltTy} {Val : EltTy → Type}

/-- After a last store of `w` through the whole rectangle the contents read `w`. -/
theorem read_writes_whole [∀ e, Nonempty (Val e)] (v : View sg κ sp S e) (f : v.ty.Contents Val)
    {off : Fin S.rank → ℕ} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A load through the whole rectangle of a whole memref whose contents read `X` reads `X`. -/
theorem readAt_whole {m : Memref sg κ sp S e} (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Whole

variable (c : Dev nD) (E : Set ℕ) (i : grid1.Coords) (arg2 : Memref sig .tc .vmem S512x1024 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
  (xr xc : Vec F S512x1024 .bf16) (K : PUnit → sProp (MT nD τ sig Unit (Elt F) ℕ (UR sig nD τ) ℕ))

set_option maxHeartbeats 1000000 in
/-- FIRST TILE (column coordinate 0, not 15): whatever the scratch buffers held, they end at one step from the
    reset state; the logits block ends at the tile; the loss block is left as found (`y3`). -/
theorem run1_A (hc0 : cond1_0 i) (hc1 : ¬cond1_1 i) (y3 : Vec F S512x1 .f32) :
    iprop(owns (c : Thread nD τ) arg2 fullShare xr ∗ owns (c : Thread nD τ) arg3 fullShare xc
        ∗ (∃ d, owns (c : Thread nD τ) arg4 fullShare d) ∗ owns (c : Thread nD τ) arg5 fullShare y3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xr ∗ owns (c : Thread nD τ) arg3 fullShare xc
            ∗ owns (c : Thread nD τ) arg4 fullShare (tile i xr xc) ∗ owns (c : Thread nD τ) arg5 fullShare y3
            ∗ owns (c : Thread nD τ) arg6 fullShare (stepState i xr xc resetState).1
            ∗ owns (c : Thread nD τ) arg7 fullShare (stepState i xr xc resetState).2.1
            ∗ owns (c : Thread nD τ) arg8 fullShare (stepState i xr xc resetState).2.2) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%d4, %f4, -, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_writes_whole _ _ offsets_zero2, readAt_whole harg2 offsets_zero2, readAt_whole harg3 offsets_zero2]
    rfl
  isplitl [H5]
  · iexists _; isplitr; · ipureintro; exact hf5
    iexact H5
  isplitl [H6]
  · iexists _; isplitr
    swap; · iexact H6
    ipureintro
    sl_unfold_words
    rw [read_writes_whole _ _ offsets_zero2, View.readCov_unit_zero arg6.view offsets_zero2,
      readAt_whole harg2 offsets_zero2, readAt_whole harg3 offsets_zero2]
    rfl
  isplitl [H7]
  · iexists _; isplitr
    swap; · iexact H7
    ipureintro
    sl_unfold_words
    rw [read_writes_whole _ _ offsets_zero2, View.readCov_unit_zero arg6.view offsets_zero2,
      View.readCov_unit_zero arg7.view offsets_zero2, readAt_whole harg2 offsets_zero2, readAt_whole harg3 offsets_zero2]
    rfl
  iexists _; isplitr
  swap; · iexact H8
  ipureintro
  sl_unfold_words
  rw [read_writes_whole _ _ offsets_zero2, View.readCov_unit_zero arg8.view offsets_zero2,
    readAt_whole harg2 offsets_zero2, readAt_whole harg3 offsets_zero2]
  rfl

set_option maxHeartbeats 1000000 in
/-- INNER TILE (column coordinate neither 0 nor 15): the scratch buffers go from `s` to one step from `s`. -/
theorem run1_B (hc0 : ¬cond1_0 i) (hc1 : ¬cond1_1 i) (y3 : Vec F S512x1 .f32) (s : St F) :
    iprop(owns (c : Thread nD τ) arg2 fullShare xr ∗ owns (c : Thread nD τ) arg3 fullShare xc
        ∗ (∃ d, owns (c : Thread nD τ) arg4 fullShare d) ∗ owns (c : Thread nD τ) arg5 fullShare y3
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xr ∗ owns (c : Thread nD τ) arg3 fullShare xc
            ∗ owns (c : Thread nD τ) arg4 fullShare (tile i xr xc) ∗ owns (c : Thread nD τ) arg5 fullShare y3
            ∗ owns (c : Thread nD τ) arg6 fullShare (stepState i xr xc s).1
            ∗ owns (c : Thread nD τ) arg7 fullShare (stepState i xr xc s).2.1
            ∗ owns (c : Thread nD τ) arg8 fullShare (stepState i xr xc s).2.2) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_writes_whole _ _ offsets_zero2, readAt_whole harg2 offsets_zero2, readAt_whole harg3 offsets_zero2]
    rfl
  isplitl [H5]
  · iexists _; isplitr; · ipureintro; exact hf5
    iexact H5
  isplitl [H6]
  · iexists _; isplitr
    swap; · iexact H6
    ipureintro
    sl_unfold_words
    rw [read_writes_whole _ _ offsets_zero2, readAt_whole harg2 offsets_zero2, readAt_whole harg3 offsets_zero2,
      readAt_whole harg6 offsets_zero2]
    rfl
  isplitl [H7]
  · iexists _; isplitr
    swap; · iexact H7
    ipureintro
    sl_unfold_words
    rw [read_writes_whole _ _ offsets_zero2, readAt_whole harg2 offsets_zero2, readAt_whole harg3 offsets_zero2,
      readAt_whole harg6 offsets_zero2, readAt_whole harg7 offsets_zero2]
    rfl
  iexists _; isplitr
  swap; · iexact H8
  ipureintro
  sl_unfold_words
  rw [read_writes_whole _ _ offsets_zero2, readAt_whole harg2 offsets_zero2, readAt_whole harg3 offsets_zero2,
    readAt_whole harg8 offsets_zero2]
  rfl

set_option maxHeartbeats 1000000 in
/-- LAST TILE (column coordinate 15, not 0): as an inner tile, and the loss block (whatever it held) ends at the
    loss column of the new state. -/
theorem run1_C (hc0 : ¬cond1_0 i) (hc1 : cond1_1 i) (s : St F) :
    iprop(owns (c : Thread nD τ) arg2 fullShare xr ∗ owns (c : Thread nD τ) arg3 fullShare xc
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xr ∗ owns (c : Thread nD τ) arg3 fullShare xc
            ∗ owns (c : Thread nD τ) arg4 fullShare (tile i xr xc) ∗ owns (c : Thread nD τ) arg5 fullShare (lossOf (stepState i xr xc s))
            ∗ owns (c : Thread nD τ) arg6 fullShare (stepState i xr xc s).1
            ∗ owns (c : Thread nD τ) arg7 fullShare (stepState i xr xc s).2.1
            ∗ owns (c : Thread nD τ) arg8 fullShare (stepState i xr xc s).2.2) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_writes_whole _ _ offsets_zero2, readAt_whole harg2 offsets_zero2, readAt_whole harg3 offsets_zero2]
    rfl
  isplitl [H5]
  · iexists _; isplitr
    swap; · iexact H5
    ipureintro
    sl_unfold_words
    rw [read_writes_whole _ _ offsets_zero2, View.readCov_unit_zero arg6.view offsets_zero2,
      View.readCov_unit_zero arg7.view offsets_zero2, View.readCov_unit_zero arg8.view offsets_zero2,
      readAt_whole harg2 offsets_zero2, readAt_whole harg3 offsets_zero2, readAt_whole harg6 offsets_zero2,
      readAt_whole harg7 offsets_zero2, readAt_whole harg8 offsets_zero2]
    rfl
  isplitl [H6]
  · iexists _; isplitr
    swap; · iexact H6
    ipureintro
    sl_unfold_words
    rw [read_writes_whole _ _ offsets_zero2, readAt_whole harg2 offsets_zero2, readAt_whole harg3 offsets_zero2,
      readAt_whole harg6 offsets_zero2]
    rfl
  isplitl [H7]
  · iexists _; isplitr
    swap; · iexact H7
    ipureintro
    sl_unfold_words
    rw [read_writes_whole _ _ offsets_zero2, readAt_whole harg2 offsets_zero2, readAt_whole harg3 offsets_zero2,
      readAt_whole harg6 offsets_zero2, readAt_whole harg7 offsets_zero2]
    rfl
  iexists _; isplitr
  swap; · iexact H8
  ipureintro
  sl_unfold_words
  rw [read_writes_whole _ _ offsets_zero2, readAt_whole harg2 offsets_zero2, readAt_whole harg3 offsets_zero2,
    readAt_whole harg8 offsets_zero2]
  rfl

end Cert.Kernel.Hand

end
-- ==== Proof.KRegion1.lean ====
/-
  Region 1 (the logits tiles and the streaming soft-max, 16 × 16 grid points, row blocks outermost) at the buffer
  contents `V` the region is entered from: what each window's staging buffer and the three scratch columns hold
  after every point, and the body's obligation at every point. Both input windows read the same array of unit
  rows (row block i₀ and column block i₁), each at half of the array's share.
-/
import proofs.«117302_j53961969107141_1_alg».proof.Proof.Gen.Kernel.Launch
import proofs.«117302_j53961969107141_1_alg».proof.Proof.Gen.Kernel.Skeleton
import proofs.«117302_j53961969107141_1_alg».proof.Proof.Gen.Kernel.Points
import proofs.«117302_j53961969107141_1_alg».proof.Proof.KRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The running state after the body at position `n`: one step from the reset state at the first column tile of a
    row block (n ≡ 0 mod 16), one step from what the point before left otherwise. -/
def scAt1 (c : Dev nD) : (n : ℕ) → n < cfg1.N → St F
  | 0, hn => stepState (grid1.coords ⟨0, hn⟩) (iblk1 V c 0 ⟨0, hn⟩) (iblk1 V c 1 ⟨0, hn⟩) resetState
  | n + 1, hn => stepState (grid1.coords ⟨n + 1, hn⟩) (iblk1 V c 0 ⟨n + 1, hn⟩) (iblk1 V c 1 ⟨n + 1, hn⟩)
      (if (n + 1) % 16 = 0 then resetState else scAt1 c n (Nat.lt_of_succ_lt hn))

theorem scAt1_reset (c : Dev nD) (t : Fin cfg1.N) (h0 : t.val % 16 = 0) :
    scAt1 V c t.val t.isLt = stepState (grid1.coords t) (iblk1 V c 0 t) (iblk1 V c 1 t) resetState := by
  obtain ⟨n, hn⟩ := t
  cases n with
  | zero => rfl
  | succ n => show stepState _ _ _ (if (n + 1) % 16 = 0 then _ else _) = _; rw [if_pos h0]

theorem scAt1_step (c : Dev nD) (t : Fin cfg1.N) (h0 : ¬t.val % 16 = 0) :
    scAt1 V c t.val t.isLt = stepState (grid1.coords t) (iblk1 V c 0 t) (iblk1 V c 1 t)
      (scAt1 V c (t.val - 1) (Nat.lt_of_le_of_lt (Nat.sub_le _ _) t.isLt)) := by
  obtain ⟨n, hn⟩ := t
  cases n with
  | zero => exact absurd (Nat.zero_mod _) h0
  | succ n => show stepState _ _ _ (if (n + 1) % 16 = 0 then _ else _) = _; rw [if_neg h0]; rfl

/-- The scratch operands: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The scoped buffers that are neither region 1's staging buffers nor its scratch: region 0's four staging buffers, at anything. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- Associativity of ∗, four factors deep: the first four factors of a right-nested product, grouped off its tail. -/
theorem sep_group4 (A0 A1 A2 A3 R : sProp 𝕄) :
    iprop(A0 ∗ A1 ∗ A2 ∗ A3 ∗ R) = iprop((A0 ∗ A1 ∗ A2 ∗ A3) ∗ R) := by
  have h₁ : iprop(A0 ∗ A1 ∗ A2 ∗ A3 ∗ R) ⊢ iprop((A0 ∗ A1 ∗ A2 ∗ A3) ∗ R) := by
    iintro ⟨H0, H1, H2, H3, HR⟩
    isplitl [H0 H1 H2 H3]
    · isplitl [H0]; · iexact H0
      isplitl [H1]; · iexact H1
      isplitl [H2]; · iexact H2
      iexact H3
    iexact HR
  have h₂ : iprop((A0 ∗ A1 ∗ A2 ∗ A3) ∗ R) ⊢ iprop(A0 ∗ A1 ∗ A2 ∗ A3 ∗ R) := by
    iintro ⟨⟨H0, H1, H2, H3⟩, HR⟩
    isplitl [H0]; · iexact H0
    isplitl [H1]; · iexact H1
    isplitl [H2]; · iexact H2
    isplitl [H3]; · iexact H3
    iexact HR
  exact BI.equiv_iff.mp ⟨h₁, h₂⟩

/-- The class invariant (the scoped rest and the generator register) with the scratch operands as owned memrefs. -/
theorem PhiA1_eq (c : Dev nD) :
    (Pipeline.ΦA spec1 c : sProp 𝕄)
      = iprop(iprop(otherScoped1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  -- The scoped rest is a right-nested product of seven whole buffers; the statement groups the first four.
  unfold Pipeline.ΦA; rw [scopedRest1_eq]; simp only [scM1_0, scM1_1, scM1_2, owns_whole]
  unfold otherScoped1
  rw [sep_group4]
  -- both sides now name the same seven buffers in the same grouping
  rfl

/-- The region invariant before position `n`: before the first point the class invariant (every scratch at
    anything); afterwards the three scratch columns at the running state the point before left. -/
def PhiS1 (c : Dev nD) : (n : ℕ) → n ≤ cfg1.N → sProp 𝕄
  | 0, _ => Pipeline.ΦA spec1 c
  | n + 1, hn => iprop(iprop(otherScoped1 c ∗ owns (c : Thread nD τ) scM1_0 fullShare (scAt1 V c n hn).1
      ∗ owns (c : Thread nD τ) scM1_1 fullShare (scAt1 V c n hn).2.1 ∗ owns (c : Thread nD τ) scM1_2 fullShare (scAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(otherScoped1 c ∗ owns (c : Thread nD τ) scM1_0 fullShare (scAt1 V c n hn).1
      ∗ owns (c : Thread nD τ) scM1_1 fullShare (scAt1 V c n hn).2.1 ∗ owns (c : Thread nD τ) scM1_2 fullShare (scAt1 V c n hn).2.2) ∗ (∃ r, prngReg c r)) := rfl
theorem PhiS1_pos (c : Dev nD) (n : ℕ) (h : n ≤ cfg1.N) (hz : n ≠ 0) :
    PhiS1 V c n h = iprop(iprop(otherScoped1 c ∗ owns (c : Thread nD τ) scM1_0 fullShare (scAt1 V c (n - 1) (by omega)).1
      ∗ owns (c : Thread nD τ) scM1_1 fullShare (scAt1 V c (n - 1) (by omega)).2.1 ∗ owns (c : Thread nD τ) scM1_2 fullShare (scAt1 V c (n - 1) (by omega)).2.2) ∗ (∃ r, prngReg c r)) := by
  cases n with
  | zero => exact absurd rfl hz
  | succ n => rfl

/-- The proof data of pipeline 1 on core `c`: arrays as found; the input blocks kept; the logits block at the
    tile; the loss block at the loss column of the running state; the invariant `PhiS1`; each input window at half
    of its array's share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => tile (grid1.coords t) (iblk1 V c 0 t) (iblk1 V c 1 t)
    | ⟨3, _⟩ => lossOf (scAt1 V c t.val t.isLt)
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = tile (grid1.coords t) (iblk1 V c 0 t) (iblk1 V c 1 t) := by dsimp only [dat1]
theorem after1_3 (c : Dev nD) (t : Fin cfg1.N) : (dat1 V c).after 3 t = lossOf (scAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Where the windows are idle: the inputs and the logits never; the loss window wherever the column coordinate is not 15, and there it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the three cases of the column coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- the input windows' buffers hold their blocks, fetched at this point or kept from the point before
  simp only [before1_0, before1_1]
  -- nothing is owed at any point; after the body the invariant names the scratch columns' new contents
  rw [show (dat1 V c).owesAt () t.succ = (dat1 V c).owesAt () t.castSucc from rfl]
  rw [show (dat1 V c).Φ t.succ = PhiS1 V c (t.val + 1) t.isLt from rfl, PhiS1_succ]
  -- the inputs and the logits window are live at every point: their buffers end at `after`
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · by_cases h1 : t.val % 16 = 15
    · exfalso; omega
    · -- FIRST TILE of a row block: the loss window is idle and handed back as found; the state restarts.
      rw [Dat.leavesExact_idle (dat1 V c) 3 t (idleAt1_3 t (fun h => h1 ((hcond1_1 t).mp h))) (noFlush1_3 t (fun h => h1 ((hcond1_1 t).mp h)))]
      rw [scAt1_reset V c t h0]
      by_cases hz : t.val = 0
      · -- the very first point: the invariant is the class invariant, every scratch column at anything
        rw [PhiS1_castSucc V c t, PhiS1_zero V c _ _ hz, PhiA1_eq]
        iintro ⟨⟨⟨Hoth, HS0, HS1, HS2⟩, Hg⟩, Ho, ⟨%d0, H0⟩, ⟨%d1, H1⟩, ⟨%d2, H2⟩, ⟨%d3, H3⟩⟩
        iapply (run1_A c Set.univ (grid1.coords t) _ _ _ _ _ _ _ _ _ _ _ _ _ _ (iblk1 V c 0 t) (iblk1 V c 1 t) _
          ((hcond1_0 t).mpr h0) (fun h => h1 ((hcond1_1 t).mp h)) ((dat1 V c).before 3 t d3))
        isplitl [H0]; · iexact H0
        isplitl [H1]; · iexact H1
        isplitl [H2]; · iexists _; iexact H2
        isplitl [H3]; · iexact H3
        isplitl [HS0]; · iexact HS0
        isplitl [HS1]; · iexact HS1
        isplitl [HS2]; · iexact HS2
        iintro ⟨H0, H1, H2, H3, HS0, HS1, HS2⟩
        isplitl [Hoth HS0 HS1 HS2 Hg]
        · isplitl [Hoth HS0 HS1 HS2]
          · isplitl [Hoth]; · iexact Hoth
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3
      · -- a later row block's first tile: the scratch columns hold the previous row block's final state, forgotten
        rw [PhiS1_castSucc V c t, PhiS1_pos V c _ _ hz]
        iintro ⟨⟨⟨Hoth, HS0, HS1, HS2⟩, Hg⟩, Ho, ⟨%d0, H0⟩, ⟨%d1, H1⟩, ⟨%d2, H2⟩, ⟨%d3, H3⟩⟩
        iapply (run1_A c Set.univ (grid1.coords t) _ _ _ _ _ _ _ _ _ _ _ _ _ _ (iblk1 V c 0 t) (iblk1 V c 1 t) _
          ((hcond1_0 t).mpr h0) (fun h => h1 ((hcond1_1 t).mp h)) ((dat1 V c).before 3 t d3))
        isplitl [H0]; · iexact H0
        isplitl [H1]; · iexact H1
        isplitl [H2]; · iexists _; iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [Hoth HS0 HS1 HS2 Hg]
        · isplitl [Hoth HS0 HS1 HS2]
          · isplitl [Hoth]; · iexact Hoth
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 16 = 15
    · -- LAST TILE: one more step from the state the point before left, and the loss window (live here) is stored.
      rw [show (dat1 V c).leavesExact 3 t = owns (c : Thread nD τ) (st1_3 t) fullShare ((dat1 V c).after 3 t) from by
        unfold Dat.leavesExact; rw [liveAt1_3 t ((hcond1_1 t).mpr h1)], after1_3]
      rw [scAt1_step V c t h0]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply (run1_C c Set.univ (grid1.coords t) _ _ _ _ _ _ _ _ _ _ _ _ _ _ (iblk1 V c 0 t) (iblk1 V c 1 t) _
        (fun h => h0 ((hcond1_0 t).mp h)) ((hcond1_1 t).mpr h1)
        (scAt1 V c (t.val - 1) (Nat.lt_of_le_of_lt (Nat.sub_le _ _) t.isLt)))
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · -- INNER TILE: one more step from the state the point before left; the loss window idle, handed back as found.
      rw [Dat.leavesExact_idle (dat1 V c) 3 t (idleAt1_3 t (fun h => h1 ((hcond1_1 t).mp h))) (noFlush1_3 t (fun h => h1 ((hcond1_1 t).mp h)))]
      rw [scAt1_step V c t h0]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply (run1_B c Set.univ (grid1.coords t) _ _ _ _ _ _ _ _ _ _ _ _ _ _ (iblk1 V c 0 t) (iblk1 V c 1 t) _
        (fun h => h0 ((hcond1_0 t).mp h)) (fun h => h1 ((hcond1_1 t).mp h)) ((dat1 V c).before 3 t d3)
        (scAt1 V c (t.val - 1) (Nat.lt_of_le_of_lt (Nat.sub_le _ _) t.isLt)))
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region's entry hands the invariant (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch columns' contents are forgotten. -/
theorem hout1 (c : Dev nD) : (dat1 V c).Φ (Fin.last cfg1.N) ⊢ Pipeline.ΦA spec1 c := by
  -- The grid has 256 ≠ 0 points, so after the last one the scratch columns are owned at named contents;
  -- the class invariant asks for them at anything.
  have hN : cfg1.N ≠ 0 := by have h : cfg1.N = 256 := N_1; omega
  rw [show (dat1 V c).Φ (Fin.last cfg1.N) = PhiS1 V c cfg1.N le_rfl from rfl, PhiS1_pos V c cfg1.N le_rfl hN, PhiA1_eq]
  iintro ⟨⟨Ho, S0, S1, S2⟩, Hg⟩
  isplitl [Ho S0 S1 S2]
  · isplitl [Ho]; · iexact Ho
    isplitl [S0]; · iexists _; iexact S0
    isplitl [S1]; · iexists _; iexact S1
    iexists _; iexact S2
  iexact Hg

end Cert.Kernel.Hand

end
-- ==== Proof.KShares.lean ====
/-
  Region 1's arrays out of, and back into, the core's unscoped buffers. Its two input windows read ONE array (the
  unit rows), so at entry that array's full share is split into the two halves the windows hold, and at exit the
  halves — still at the entry contents, inputs being never written — are joined again; the two output arrays go
  in at the full share and come back at what the write-backs left.
-/
import proofs.«117302_j53961969107141_1_alg».proof.Proof.Gen.Kernel.Launch
import proofs.«117302_j53961969107141_1_alg».proof.Proof.Gen.Kernel.Skeleton
import proofs.«117302_j53961969107141_1_alg».proof.Proof.Gen.Kernel.Points
import proofs.«117302_j53961969107141_1_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The distinct buffers behind region 1's four windows are three: the shared input array and the two outputs. -/
theorem arrBufs1_eq (c : Dev nD) (W : (b : Ref sig .tc) → Buf (Elt F) ((c : Thread nD τ).loc b)) :
    (Pipeline.arrBufs spec1 c W : sProp 𝕄)
      = iprop((((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_v1, main_v2_0, main_v2_1] (by decide) (by decide) _

/-- Region 1's arrays window by window: the two input windows hold the two halves of the shared array, the two
    output windows their arrays whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v2_0) ↦{fullShare} G 2) ∗ (((c : Thread nD τ).loc main_v2_1) ↦{fullShare} G 3)) := by
  unfold Dat.arrays
  -- windows 0 and 1 are views of one whole array, so the first fact rewrites the element set of both
  rw [bigSep_W1, (arr_whole1 0).set_eq_univ, (arr_whole1 2).set_eq_univ, (arr_whole1 3).set_eq_univ]
  rfl

/-- A core's unscoped buffers are the three buffers behind region 1's windows and the unscoped rest. -/
theorem unscopedBufs1_split (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the unscoped buffers at `V` are region 1's arrays at their entry contents (each input window at its half
    of the shared array) and the unscoped rest. -/
theorem entry1 (c : Dev nD) :
    (unscopedBufs c (V c) : sProp 𝕄) ⊢ iprop((dat1 V c).arrays ((dat1 V c).arrAt · 0) ∗ Pipeline.unscopedRest spec1 c (V c)) := by
  rw [unscopedBufs1_split]
  refine sep_mono ?_ .rfl
  rw [arrBufs1_eq, arrays1_eq]
  -- the entry contents are the arrays as found; the shared array's full share splits into the windows' halves
  iintro ⟨H1, H2, H3⟩
  ihave H1 := (pointsTo_share (PosShare.mem_left_op_right fullShare)).1 $$ H1
  icases H1 with ⟨Hl, Hr⟩
  isplitl [Hl]; · iexact Hl
  isplitl [Hr]; · iexact Hr
  isplitl [H2]; · iexact H2
  iexact H3

/-- EXIT: region 1's arrays at what the write-backs left and the unscoped rest at `V` are the unscoped buffers at any
    valuation `V'` that keeps the shared input array, has the two output arrays at their final contents, and agrees
    with `V` off the arrays. -/
theorem exit1 (c : Dev nD) (V' : (b : Ref sig .tc) → Buf (Elt F) ((c : Thread nD τ).loc b))
    (h1 : V' main_v1 = V c main_v1)
    (h2 : V' main_v2_0 = (dat1 V c).arrAt 2 cfg1.N)
    (h3 : V' main_v2_1 = (dat1 V c).arrAt 3 cfg1.N)
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  rw [unscopedBufs1_split]
  refine sep_mono ?_ (Entails.of_eq ?_)
  · -- an input array is never written, so both halves still hold the entry contents, which `V'` keeps
    rw [arrBufs1_eq, arrays1_eq, h1, h2, h3,
      Dat.arrAt_in (dat := dat1 V c) 0 rfl cfg1.N, Dat.arrAt_in (dat := dat1 V c) 1 rfl cfg1.N]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · -- off the arrays `V'` agrees with `V`
    unfold Pipeline.unscopedRest
    exact bigSep_congr fun b hb => by rw [hrest b (Finset.mem_sdiff.mp hb).2]

end Cert.Kernel.Hand

end
-- ==== Proof.KRunCond.lean ====
/-
  The run of the idealized kernel program given one segment record per kernel region, with EVERY unscoped buffer
  read back at the end (the results as well as the arguments): @main is the host concatenation, the two kernel
  regions, and the host tail; between two items the unscoped buffers are held at the valuation the item before left.
-/
import proofs.«117302_j53961969107141_1_alg».proof.Proof.Gen.Kernel.Regions

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- The run of @main given the regions' records, read at EVERY unscoped buffer: the same launch over the same segments as
    the conditional frame, its last thread state (every unscoped buffer at the last valuation) read back whole, so that
    the results as well as the arguments are named. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.Kernel.Gen

end
-- ==== Proof.KLaunch.lean ====
/-
  The whole program as segments: the host concatenation, region 0 (row normalisation), region 1 (logits tiles
  and streaming soft-max), the host tail. Between two items every unscoped buffer is held at a valuation:
  the launch memory, then after the concatenation, then with the unit rows' array at what region 0's write-backs
  left, then with the logits and loss arrays at what region 1's left, then after the host tail.
-/
import proofs.«117302_j53961969107141_1_alg».proof.Proof.Gen.Kernel.Launch
import proofs.«117302_j53961969107141_1_alg».proof.Proof.Gen.Kernel.Skeleton
import proofs.«117302_j53961969107141_1_alg».proof.Proof.Gen.Kernel.Points
import proofs.«117302_j53961969107141_1_alg».proof.Proof.KRegion0
import proofs.«117302_j53961969107141_1_alg».proof.Proof.KRegion1
import proofs.«117302_j53961969107141_1_alg».proof.Proof.KShares
import proofs.«117302_j53961969107141_1_alg».proof.Proof.Gen.Kernel.Regions
import proofs.«117302_j53961969107141_1_alg».proof.Proof.KRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations between the items -/

/-- Region 0's entry contents, read at the TensorCore's references. -/
abbrev VR1 : (c : Dev nD) → (b : Ref sig .tc) → Buf (Elt F) ((c : Thread nD τ).loc b) := fun c b => Gen.V1 m c b
/-- What region 0 leaves in the unit rows' array. -/
def arr1 (c : Dev nD) : Buf (Elt F) ((c : Thread nD τ).loc main_v1) := (dat0 (VR1 m) c).arrAt 1 cfg0.N
/-- After region 0: the unit rows' array at what it left, everything else as entered. -/
abbrev W2 (c : Dev nD) : Valuation τ sig (Elt F) := Function.update (Gen.V1 m c) main_v1 (arr1 m c)
abbrev VR2 : (c : Dev nD) → (b : Ref sig .tc) → Buf (Elt F) ((c : Thread nD τ).loc b) := fun c b => W2 m c b
/-- What region 1 leaves in the logits array and in the loss column. -/
def arr2 (c : Dev nD) : Buf (Elt F) ((c : Thread nD τ).loc main_v2_0) := (dat1 (VR2 m) c).arrAt 2 cfg1.N
def arr3 (c : Dev nD) : Buf (Elt F) ((c : Thread nD τ).loc main_v2_1) := (dat1 (VR2 m) c).arrAt 3 cfg1.N

/-- What the regions leave, as the table the generated valuations are written over. -/
def outs : Gen.Outs (F := F) := fun _ r c =>
  if h1 : r = main_v1 then h1 ▸ arr1 m c
  else if h2 : r = main_v2_0 then h2 ▸ arr2 m c
  else if h3 : r = main_v2_1 then h3 ▸ arr3 m c
  else m ((c : Thread nD τ).loc r)

theorem outs_v1 (J : ℕ) (c : Dev nD) : outs m J main_v1 c = arr1 m c := by
  unfold outs; rw [dif_pos rfl]
theorem outs_v2_0 (J : ℕ) (c : Dev nD) : outs m J main_v2_0 c = arr2 m c := by
  unfold outs; rw [dif_neg (by decide), dif_pos rfl]
theorem outs_v2_1 (J : ℕ) (c : Dev nD) : outs m J main_v2_1 c = arr3 m c := by
  unfold outs; rw [dif_neg (by decide), dif_neg (by decide), dif_pos rfl]

theorem V2_eq (c : Dev nD) : Gen.V2 m (outs m) c = W2 m c := by
  unfold Gen.V2 W2; rw [outs_v1]
/-- After region 1. -/
abbrev W3 (c : Dev nD) : Valuation τ sig (Elt F) := Function.update (Function.update (W2 m c) main_v2_0 (arr2 m c)) main_v2_1 (arr3 m c)
theorem V3_eq (c : Dev nD) : Gen.V3 m (outs m) c = W3 m c := by
  unfold Gen.V3 W3; rw [V2_eq, outs_v2_0, outs_v2_1]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At region 0's exit each of its arrays holds what the pipeline leaves, and every other buffer what it held at entry. -/
theorem hF0 (c : Dev nD) (w : Fin cfg0.W) : (pdats m 0 c).arrAt w cfg0.N = VR2 m c (Pipeline.arrRef spec0 w) := by
  match w with
  | ⟨0, _⟩ =>
    refine ((pdats m 0 c).arrAt_in 0 rfl _).trans ?_
    show Gen.V1 m c main_v0 = Function.update (Gen.V1 m c) main_v1 (arr1 m c) main_v0
    rw [Function.update_of_ne (StableHlo.devRef_ne_of_ne (by decide) : (Proc.devRef .tc main_v0 : DevRef τ sig) ≠ Proc.devRef .tc main_v1)]
  | ⟨1, _⟩ =>
    show arr1 m c = Function.update (Gen.V1 m c) main_v1 (arr1 m c) main_v1
    rw [Function.update_self]
theorem hrest0 (c : Dev nD) : ∀ b, b ∉ Finset.univ.image (Pipeline.arrRef spec0) → VR2 m c b = VR1 m c b := fun b hb => by
  have hne : b ≠ main_v1 := fun e => hb (Finset.mem_image.mpr ⟨1, Finset.mem_univ _, e.symm⟩)
  show Function.update (Gen.V1 m c) main_v1 (arr1 m c) b = Gen.V1 m c b
  rw [Function.update_of_ne (StableHlo.devRef_ne_of_ne hne : (Proc.devRef .tc b : DevRef τ sig) ≠ Proc.devRef .tc main_v1)]

set_option backward.isDefEq.respectTransparency.types false in
/-- REGION 0 over the thread state: entered from every unscoped buffer at the contents after the concatenation, left
    with the unit rows' array at what the write-backs left. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents region 0 left, left with the logits and loss arrays at
    what the write-backs left. Its two input windows share the unit rows' array (each at half its share). -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit : (unscopedBufs c (VR2 m c) : sProp 𝕄) ⊢ iprop((pdats m 1 c).arrays ((pdats m 1 c).arrAt · 0) ∗ Pipeline.unscopedRest spec1 c (VR2 m c)) := entry1 (VR2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VR2 m) c)
    unfold Pipeline.ΦA
    iintro ⟨Hp, -, Hr⟩
    isplitl [Hr]; · iexact Hr
    iexact Hp
  hout c := by
    rw [Pipeline.ownSems0_none]
    refine (hout1 (VR2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VR2 m c)) ⊢ (unscopedBufs c (fun b => W3 m c b) : sProp 𝕄) := exit1 (VR2 m) c (fun b => W3 m c b)
      (by
        show Function.update (Function.update (W2 m c) main_v2_0 (arr2 m c)) main_v2_1 (arr3 m c) main_v1 = W2 m c main_v1
        rw [Function.update_of_ne (StableHlo.devRef_ne_of_ne (by decide) : (Proc.devRef .tc main_v1 : DevRef τ sig) ≠ Proc.devRef .tc main_v2_1),
          Function.update_of_ne (StableHlo.devRef_ne_of_ne (by decide) : (Proc.devRef .tc main_v1 : DevRef τ sig) ≠ Proc.devRef .tc main_v2_0)])
      (by
        show Function.update (Function.update (W2 m c) main_v2_0 (arr2 m c)) main_v2_1 (arr3 m c) main_v2_0 = arr2 m c
        rw [Function.update_of_ne (StableHlo.devRef_ne_of_ne (by decide) : (Proc.devRef .tc main_v2_0 : DevRef τ sig) ≠ Proc.devRef .tc main_v2_1),
          Function.update_self])
      (by
        show Function.update (Function.update (W2 m c) main_v2_0 (arr2 m c)) main_v2_1 (arr3 m c) main_v2_1 = arr3 m c
        rw [Function.update_self])
      (fun b hb => by
        have h20 : b ≠ main_v2_0 := fun e => hb (Finset.mem_image.mpr ⟨2, Finset.mem_univ _, e.symm⟩)
        have h21 : b ≠ main_v2_1 := fun e => hb (Finset.mem_image.mpr ⟨3, Finset.mem_univ _, e.symm⟩)
        show Function.update (Function.update (W2 m c) main_v2_0 (arr2 m c)) main_v2_1 (arr3 m c) b = W2 m c b
        rw [Function.update_of_ne (StableHlo.devRef_ne_of_ne h21 : (Proc.devRef .tc b : DevRef τ sig) ≠ Proc.devRef .tc main_v2_1),
          Function.update_of_ne (StableHlo.devRef_ne_of_ne h20 : (Proc.devRef .tc b : DevRef τ sig) ≠ Proc.devRef .tc main_v2_0)])
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the first and last thread states -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

/-! ## The frame and the run -/

set_option backward.isDefEq.respectTransparency.types false in
/-- Every weakly fair execution of @main from memory `m` with zero counters terminates, nothing faulting, with each
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (fun c => by rw [V2_eq]; exact .rfl)
    (reg1 m) (fun c => by rw [V2_eq]; exact .rfl) (fun c => by rw [V3_eq]; exact .rfl)

set_option backward.isDefEq.respectTransparency.types false in
/-- The same run, with every unscoped buffer read back at the end: after the host tail over the contents region 1 left. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = StableHlo.after hostOps2 (W3 m c) b) := by
  have h := Gen.run_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (fun c => by rw [V2_eq]; exact .rfl)
    (reg1 m) (fun c => by rw [V2_eq]; exact .rfl) (fun c => by rw [V3_eq]; exact .rfl)
  refine (θ_run defs _ _).mono (fun r hr c b hb => ?_) h
  rw [hr c b hb]
  show StableHlo.after hostOps2 (Gen.V3 m (outs m) c) b = _
  rw [V3_eq]

end Cert.Kernel.Hand

end
-- ==== Proof.KIRegion0.lean ====
/-
  Region 0 (the row normalisation, 16 grid points of 512 rows each) at the buffer contents `V` the region is
  entered from. Each point loads its 512×1024 block of the concatenated features, divides every row by
  max(√(Σ x²), 1e-8), and stores the quotient (narrowed to bf16) as the whole output block.
-/
import proofs.«117302_j53961969107141_1_alg».proof.Proof.Gen.KernelIdeal.Launch
import proofs.«117302_j53961969107141_1_alg».proof.Proof.Gen.KernelIdeal.Skeleton
import proofs.«117302_j53961969107141_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds its block at every point (it is fetched at every point). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole 512×1024 rectangle: the one rectangle the body loads and stores through. -/
abbrev r0_0 : Rect S512x1024 := Rect.unit (s := S512x1024) ![0, 0] S512x1024.size inb_S512x1024_S512x1024_0_0

/-- What the body leaves in the output block: its one store, of the normalised rows of the input block. -/
def out0_1 (x0 : Vec F S512x1024 .f32) : Vec F S512x1024 .bf16 :=
  View.canon [⟨r0_0, k0_pay1 (View.ld x0 r0_0)⟩]

theorem cover0_1 (p0 : Vec F S512x1024 .bf16) (y : S512x1024.Idx) :
    ∃ pc ∈ ([⟨r0_0, p0⟩] : List (View.Piece (Elt F) S512x1024 .bf16)), y ∈ pc.1.set :=
  View.cover_of_tiled [⟨r0_0, p0⟩] S512x1024.size (by rfl) y

set_option maxHeartbeats 1000000 in
/-- The body on whole staging memrefs: the input block is kept, the output block ends at `out0_1` of it. -/
theorem sound_kernel0 (c : Dev nD) (E : Set ℕ) (i : grid0.Coords) (arg1 : Memref sig .tc .vmem S512x1024 .f32) (harg1 : arg1.IsWhole) (arg2 : Memref sig .tc .vmem S512x1024 .bf16) (harg2 : arg2.IsWhole)
    (x0 : Vec F S512x1024 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__normalize_kernel i arg1 harg1 arg2 harg2) K := by
  simp only [cc0__normalize_kernel_eq_skeleton]; unfold cc0__normalize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The proof data of pipeline 0 on core `c`: arrays as found; the input block kept, the output block at the
    normalised rows; the invariant the scoped rest and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1Runs.lean ====
/-
  Region 1's body (one 512×512 tile of the logits and one step of the streaming soft-max) on whole staging and
  scratch memrefs, in its three control cases: the first column tile of a row block (the running maximum, sum and
  target pick are reset first), an inner tile, and the last tile (the row block's loss column is stored).
  The running state is the triple (m, l, t) of 512×1 columns kept in the three scratch buffers.
-/
import proofs.«117302_j53961969107141_1_alg».proof.Proof.Gen.KernelIdeal.Launch
import proofs.«117302_j53961969107141_1_alg».proof.Proof.Gen.KernelIdeal.Skeleton
import proofs.«117302_j53961969107141_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-- The body's first `scf.if`: the column coordinate is 0. -/
abbrev cond1_0 (i : grid1.Coords) : Prop := (Scalar.cmpi .ne (Scalar.extui (Scalar.cmpi .eq (BitVec.ofNat 32 (i 1).val) 0#32)) 0#32) = 1#1
/-- The body's second `scf.if`: the column coordinate is 15 (the last of 16). -/
abbrev cond1_1 (i : grid1.Coords) : Prop := k1_cond2 i = 1#1

/-- Over the 256 points in row-major order, the first holds at the points ≡ 0 and the second at the points ≡ 15 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)
theorem hcond1_1 : ∀ t : Fin cfg1.N, cond1_1 (grid1.coords t) ↔ t.val % 16 = 15 :=
  (by decide +kernel : ∀ t : Fin grid1.N, cond1_1 (grid1.coords t) ↔ t.val % 16 = 15)

/-- The running state: (maximum, sum of exponentials, target pick), one entry per row of the block. -/
abbrev St (F : FTy → Type) : Type := FVec F S512x1 .f32 × FVec F S512x1 .f32 × FVec F S512x1 .f32

/-- The state a row block starts from: (−∞, 0, 0). -/
def resetState : St F := (k1_pay6, k1_pay7, k1_pay8)

/-- The tile of logits the body computes from the row block `xr` and the column block `xc` of the unit rows. -/
def tile (i : grid1.Coords) (xr xc : Vec F S512x1024 .bf16) : FVec F S512x512 .f32 := k1_pay11 i xr xc

/-- One tile's update of the running state. -/
def stepState (i : grid1.Coords) (xr xc : Vec F S512x1024 .bf16) (s : St F) : St F :=
  (k1_pay3 (tile i xr xc) s.1, k1_pay2 (tile i xr xc) s.1 s.2.1 s.1, k1_pay4 (tile i xr xc) (k1_pay12 i) k1_pay13 s.2.2)

/-- The loss column from the final state: (m + log l) − t. -/
def lossOf (s : St F) : FVec F S512x1 .f32 := k1_pay5 s.1 s.2.1 s.2.2

/-! ## Whole-rectangle loads and stores

Every load and store of the body goes through the memref's whole rectangle at offsets zero. Such a store, made
last, replaces the contents by its payload whatever the view, the earlier contents and the earlier stores were;
such a load of a whole memref reads its contents. -/

/-- The offsets (0, 0) are the zero offsets. -/
theorem offsets_zero2 : (![0, 0] : Fin 2 → ℕ) = fun _ => 0 := by
  funext a; fin_cases a <;> rfl

section Whole

variable {sg : RefSig} {κ : Kind} {sp : Space} {S : Shape} {e : EltTy} {Val : EltTy → Type}

/-- After a last store of `w` through the whole rectangle the contents read `w`. -/
theorem read_writes_whole [∀ e, Nonempty (Val e)] (v : View sg κ sp S e) (f : v.ty.Contents Val)
    {off : Fin S.rank → ℕ} (h : off = fun _ => 0) (inb : ∀ a, off a + S.size a ≤ S.size a)
    (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero h inb y⟩),
    View.canon_cons_unit_zero h inb]

/-- A load through the whole rectangle of a whole memref whose contents read `X` reads `X`. -/
theorem readAt_whole {m : Memref sg κ sp S e} (hm : m.IsWhole) {off : Fin S.rank → ℕ} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Whole

variable (c : Dev nD) (E : Set ℕ) (i : grid1.Coords) (arg2 : Memref sig .tc .vmem S512x1024 .bf16) (harg2 : arg2.IsWhole) (arg3 : Memref sig .tc .vmem S512x1024 .bf16) (harg3 : arg3.IsWhole) (arg4 : Memref sig .tc .vmem S512x512 .f32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole)
  (xr xc : Vec F S512x1024 .bf16) (K : PUnit → sProp (MT nD τ sig Unit (Elt F) ℕ (UR sig nD τ) ℕ))

set_option maxHeartbeats 1000000 in
/-- FIRST TILE (column coordinate 0, not 15): whatever the scratch buffers held, they end at one step from the
    reset state; the logits block ends at the tile; the loss block is left as found (`y3`). -/
theorem run1_A (hc0 : cond1_0 i) (hc1 : ¬cond1_1 i) (y3 : Vec F S512x1 .f32) :
    iprop(owns (c : Thread nD τ) arg2 fullShare xr ∗ owns (c : Thread nD τ) arg3 fullShare xc
        ∗ (∃ d, owns (c : Thread nD τ) arg4 fullShare d) ∗ owns (c : Thread nD τ) arg5 fullShare y3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare xr ∗ owns (c : Thread nD τ) arg3 fullShare xc
            ∗ owns (c : Thread nD τ) arg4 fullShare (tile i xr xc) ∗ owns (c : Thread nD τ) arg5 fullShare y3
            ∗ owns (c : Thread nD τ) arg6 fullShare (stepState i xr xc resetState).1
            ∗ owns (c : Thread nD τ) arg7 fullShare (stepState i xr xc resetState).2.1
            ∗ owns (c : Thread nD τ) arg8 fullShare (stepState i xr xc resetState).2.2) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%d4, %f4, -, H4⟩, ⟨%f5, %hf5, H5⟩, ⟨%d6, %f6, -, H6⟩, ⟨%d7, %f7, -, H7⟩, ⟨%d8, %f8, -, H8⟩, Hk⟩
  obtain rfl := harg2.eq_unread hf2; obtain rfl := harg3.eq_unread hf3; obtain rfl := harg5.eq_unread hf5
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_writes_whole _ _ offsets_zero2, readAt_whole harg2 offsets_zero2, readAt_whole harg3 offsets_zero2]
    rfl
  isplitl [H5]
  · iexists _; isplitr; · ipureintro; exact hf5
    iexact H5
  isplitl [H6]
  · iexists _; isplitr
    swap; · iexact H6
    ipureintro
    sl_unfold_words
    rw [read_writes_whole _ _ offsets_zero2, View.readCov_unit_zero arg6.view offsets_zero2,
      readAt_whole harg2 offsets_zero2, readAt_whole harg3 offsets_zero2]
    rfl
  isplitl [H7]
  · iexists _; isplitr
    swap; · iexact H7
    ipureintro
    sl_unfold_words
    rw [read_writes_whole _ _ offsets_zero2, View.readCov_unit_zero arg6.view offsets_zero2,
      View.readCov_unit_zero arg7.view offsets_zero2, readAt_whole harg2 offsets_zero2, readAt_whole harg3 offsets_zero2]
    rfl
  iexists _; isplitr
  swap; · iexact H8
  ipureintro
  sl_unfold_words
  rw [read_writes_whole _ _ offsets_zero2, View.readCov_unit_zero arg8.view offsets_zero2,
    readAt_whole harg2 offsets_zero2, readAt_whole harg3 offsets_zero2]
  rfl

set_option maxHeartbeats 1000000 in
/-- INNER TILE (column coordinate neither 0 nor 15): the scratch buffers go from `s` to one step from `s`. -/
theorem run1_B (hc0 : ¬cond1_0 i) (hc1 : ¬cond1_1 i) (y3 : Vec F S512x1 .f32) (s : St F) :
    iprop(owns (c : Thread nD τ) arg2 fullShare xr ∗ owns (c : Thread nD τ) arg3 fullShare xc
        ∗ (∃ d, owns (c : Thread nD τ) arg4 fullShare d) ∗ owns (c : Thread nD τ) arg5 fullShare y3
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xr ∗ owns (c : Thread nD τ) arg3 fullShare xc
            ∗ owns (c : Thread nD τ) arg4 fullShare (tile i xr xc) ∗ owns (c : Thread nD τ) arg5 fullShare y3
            ∗ owns (c : Thread nD τ) arg6 fullShare (stepState i xr xc s).1
            ∗ owns (c : Thread nD τ) arg7 fullShare (stepState i xr xc s).2.1
            ∗ owns (c : Thread nD τ) arg8 fullShare (stepState i xr xc s).2.2) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%d4, %f4, -, H4⟩, ⟨%f5, %hf5, H5⟩, ⟨%f6, %hf6, H6⟩, ⟨%f7, %hf7, H7⟩, ⟨%f8, %hf8, H8⟩, Hk⟩
  obtain rfl := harg2.eq_unread hf2; obtain rfl := harg3.eq_unread hf3; obtain rfl := harg5.eq_unread hf5
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_writes_whole _ _ offsets_zero2, readAt_whole harg2 offsets_zero2, readAt_whole harg3 offsets_zero2]
    rfl
  isplitl [H5]
  · iexists _; isplitr; · ipureintro; exact hf5
    iexact H5
  isplitl [H6]
  · iexists _; isplitr
    swap; · iexact H6
    ipureintro
    sl_unfold_words
    rw [read_writes_whole _ _ offsets_zero2, readAt_whole harg2 offsets_zero2, readAt_whole harg3 offsets_zero2,
      readAt_whole harg6 offsets_zero2]
    rfl
  isplitl [H7]
  · iexists _; isplitr
    swap; · iexact H7
    ipureintro
    sl_unfold_words
    rw [read_writes_whole _ _ offsets_zero2, readAt_whole harg2 offsets_zero2, readAt_whole harg3 offsets_zero2,
      readAt_whole harg6 offsets_zero2, readAt_whole harg7 offsets_zero2]
    rfl
  iexists _; isplitr
  swap; · iexact H8
  ipureintro
  sl_unfold_words
  rw [read_writes_whole _ _ offsets_zero2, readAt_whole harg2 offsets_zero2, readAt_whole harg3 offsets_zero2,
    readAt_whole harg8 offsets_zero2]
  rfl

set_option maxHeartbeats 1000000 in
/-- LAST TILE (column coordinate 15, not 0): as an inner tile, and the loss block (whatever it held) ends at the
    loss column of the new state. -/
theorem run1_C (hc0 : ¬cond1_0 i) (hc1 : cond1_1 i) (s : St F) :
    iprop(owns (c : Thread nD τ) arg2 fullShare xr ∗ owns (c : Thread nD τ) arg3 fullShare xc
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2.1 ∗ owns (c : Thread nD τ) arg8 fullShare s.2.2
        ∗ (iprop(owns (c : Thread nD τ) arg2 fullShare xr ∗ owns (c : Thread nD τ) arg3 fullShare xc
            ∗ owns (c : Thread nD τ) arg4 fullShare (tile i xr xc) ∗ owns (c : Thread nD τ) arg5 fullShare (lossOf (stepState i xr xc s))
            ∗ owns (c : Thread nD τ) arg6 fullShare (stepState i xr xc s).1
            ∗ owns (c : Thread nD τ) arg7 fullShare (stepState i xr xc s).2.1
            ∗ owns (c : Thread nD τ) arg8 fullShare (stepState i xr xc s).2.2) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, ⟨%f8, %hf8, H8⟩, Hk⟩
  obtain rfl := harg2.eq_unread hf2; obtain rfl := harg3.eq_unread hf3
  obtain rfl := harg6.eq_unread hf6; obtain rfl := harg7.eq_unread hf7; obtain rfl := harg8.eq_unread hf8
  sl_exec (disch := first | exact hc0 | exact hc1)
  sl_step
  iapply Hk
  isplitl [H2]
  · iexists _; isplitr; · ipureintro; exact hf2
    iexact H2
  isplitl [H3]
  · iexists _; isplitr; · ipureintro; exact hf3
    iexact H3
  isplitl [H4]
  · iexists _; isplitr
    swap; · iexact H4
    ipureintro
    rw [read_writes_whole _ _ offsets_zero2, readAt_whole harg2 offsets_zero2, readAt_whole harg3 offsets_zero2]
    rfl
  isplitl [H5]
  · iexists _; isplitr
    swap; · iexact H5
    ipureintro
    sl_unfold_words
    rw [read_writes_whole _ _ offsets_zero2, View.readCov_unit_zero arg6.view offsets_zero2,
      View.readCov_unit_zero arg7.view offsets_zero2, View.readCov_unit_zero arg8.view offsets_zero2,
      readAt_whole harg2 offsets_zero2, readAt_whole harg3 offsets_zero2, readAt_whole harg6 offsets_zero2,
      readAt_whole harg7 offsets_zero2, readAt_whole harg8 offsets_zero2]
    rfl
  isplitl [H6]
  · iexists _; isplitr
    swap; · iexact H6
    ipureintro
    sl_unfold_words
    rw [read_writes_whole _ _ offsets_zero2, readAt_whole harg2 offsets_zero2, readAt_whole harg3 offsets_zero2,
      readAt_whole harg6 offsets_zero2]
    rfl
  isplitl [H7]
  · iexists _; isplitr
    swap; · iexact H7
    ipureintro
    sl_unfold_words
    rw [read_writes_whole _ _ offsets_zero2, readAt_whole harg2 offsets_zero2, readAt_whole harg3 offsets_zero2,
      readAt_whole harg6 offsets_zero2, readAt_whole harg7 offsets_zero2]
    rfl
  iexists _; isplitr
  swap; · iexact H8
  ipureintro
  sl_unfold_words
  rw [read_writes_whole _ _ offsets_zero2, readAt_whole harg2 offsets_zero2, readAt_whole harg3 offsets_zero2,
    readAt_whole harg8 offsets_zero2]
  rfl

end Cert.KernelIdeal.Hand

end
-- ==== Proof.KIRegion1.lean ====
/-
  Region 1 (the logits tiles and the streaming soft-max, 16 × 16 grid points, row blocks outermost) at the buffer
  contents `V` the region is entered from: what each window's staging buffer and the three scratch columns hold
  after every point, and the body's obligation at every point. Both input windows read the same array of unit
  rows (row block i₀ and column block i₁), each at half of the array's share.
-/
import proofs.«117302_j53961969107141_1_alg».proof.Proof.Gen.KernelIdeal.Launch
import proofs.«117302_j53961969107141_1_alg».proof.Proof.Gen.KernelIdeal.Skeleton
import proofs.«117302_j53961969107141_1_alg».proof.Proof.Gen.KernelIdeal.Points
import proofs.«117302_j53961969107141_1_alg».proof.Proof.KIRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The running state after the body at position `n`: one step from the reset state at the first column tile of a
    row block (n ≡ 0 mod 16), one step from what the point before left otherwise. -/
def scAt1 (c : Dev nD) : (n : ℕ) → n < cfg1.N → St F
  | 0, hn => stepState (grid1.coords ⟨0, hn⟩) (iblk1 V c 0 ⟨0, hn⟩) (iblk1 V c 1 ⟨0, hn⟩) resetState
  | n + 1, hn => stepState (grid1.coords ⟨n + 1, hn⟩) (iblk1 V c 0 ⟨n + 1, hn⟩) (iblk1 V c 1 ⟨n + 1, hn⟩)
      (if (n + 1) % 16 = 0 then resetState else scAt1 c n (Nat.lt_of_succ_lt hn))

theorem scAt1_reset (c : Dev nD) (t : Fin cfg1.N) (h0 : t.val % 16 = 0) :
    scAt1 V c t.val t.isLt = stepState (grid1.coords t) (iblk1 V c 0 t) (iblk1 V c 1 t) resetState := by
  obtain ⟨n, hn⟩ := t
  cases n with
  | zero => rfl
  | succ n => show stepState _ _ _ (if (n + 1) % 16 = 0 then _ else _) = _; rw [if_pos h0]

theorem scAt1_step (c : Dev nD) (t : Fin cfg1.N) (h0 : ¬t.val % 16 = 0) :
    scAt1 V c t.val t.isLt = stepState (grid1.coords t) (iblk1 V c 0 t) (iblk1 V c 1 t)
      (scAt1 V c (t.val - 1) (Nat.lt_of_le_of_lt (Nat.sub_le _ _) t.isLt)) := by
  obtain ⟨n, hn⟩ := t
  cases n with
  | zero => exact absurd (Nat.zero_mod _) h0
  | succ n => show stepState _ _ _ (if (n + 1) % 16 = 0 then _ else _) = _; rw [if_neg h0]; rfl

/-- The scratch operands: whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1 .f32 := Memref.whole cc1_scratch2

/-- The scoped buffers that are neither region 1's staging buffers nor its scratch: region 0's four staging buffers, at anything. -/
def otherScoped1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- Associativity of ∗, four factors deep: the first four factors of a right-nested product, grouped off its tail. -/
theorem sep_group4 (A0 A1 A2 A3 R : sProp 𝕄) :
    iprop(A0 ∗ A1 ∗ A2 ∗ A3 ∗ R) = iprop((A0 ∗ A1 ∗ A2 ∗ A3) ∗ R) := by
  have h₁ : iprop(A0 ∗ A1 ∗ A2 ∗ A3 ∗ R) ⊢ iprop((A0 ∗ A1 ∗ A2 ∗ A3) ∗ R) := by
    iintro ⟨H0, H1, H2, H3, HR⟩
    isplitl [H0 H1 H2 H3]
    · isplitl [H0]; · iexact H0
      isplitl [H1]; · iexact H1
      isplitl [H2]; · iexact H2
      iexact H3
    iexact HR
  have h₂ : iprop((A0 ∗ A1 ∗ A2 ∗ A3) ∗ R) ⊢ iprop(A0 ∗ A1 ∗ A2 ∗ A3 ∗ R) := by
    iintro ⟨⟨H0, H1, H2, H3⟩, HR⟩
    isplitl [H0]; · iexact H0
    isplitl [H1]; · iexact H1
    isplitl [H2]; · iexact H2
    isplitl [H3]; · iexact H3
    iexact HR
  exact BI.equiv_iff.mp ⟨h₁, h₂⟩

/-- The class invariant (the scoped rest and the generator register) with the scratch operands as owned memrefs. -/
theorem PhiA1_eq (c : Dev nD) :
    (Pipeline.ΦA spec1 c : sProp 𝕄)
      = iprop(iprop(otherScoped1 c ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  -- The scoped rest is a right-nested product of seven whole buffers; the statement groups the first four.
  unfold Pipeline.ΦA; rw [scopedRest1_eq]; simp only [scM1_0, scM1_1, scM1_2, owns_whole]
  unfold otherScoped1
  rw [sep_group4]
  -- both sides now name the same seven buffers in the same grouping
  rfl

/-- The region invariant before position `n`: before the first point the class invariant (every scratch at
    anything); afterwards the three scratch columns at the running state the point before left. -/
def PhiS1 (c : Dev nD) : (n : ℕ) → n ≤ cfg1.N → sProp 𝕄
  | 0, _ => Pipeline.ΦA spec1 c
  | n + 1, hn => iprop(iprop(otherScoped1 c ∗ owns (c : Thread nD τ) scM1_0 fullShare (scAt1 V c n hn).1
      ∗ owns (c : Thread nD τ) scM1_1 fullShare (scAt1 V c n hn).2.1 ∗ owns (c : Thread nD τ) scM1_2 fullShare (scAt1 V c n hn).2.2) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(otherScoped1 c ∗ owns (c : Thread nD τ) scM1_0 fullShare (scAt1 V c n hn).1
      ∗ owns (c : Thread nD τ) scM1_1 fullShare (scAt1 V c n hn).2.1 ∗ owns (c : Thread nD τ) scM1_2 fullShare (scAt1 V c n hn).2.2) ∗ (∃ r, prngReg c r)) := rfl
theorem PhiS1_pos (c : Dev nD) (n : ℕ) (h : n ≤ cfg1.N) (hz : n ≠ 0) :
    PhiS1 V c n h = iprop(iprop(otherScoped1 c ∗ owns (c : Thread nD τ) scM1_0 fullShare (scAt1 V c (n - 1) (by omega)).1
      ∗ owns (c : Thread nD τ) scM1_1 fullShare (scAt1 V c (n - 1) (by omega)).2.1 ∗ owns (c : Thread nD τ) scM1_2 fullShare (scAt1 V c (n - 1) (by omega)).2.2) ∗ (∃ r, prngReg c r)) := by
  cases n with
  | zero => exact absurd rfl hz
  | succ n => rfl

/-- The proof data of pipeline 1 on core `c`: arrays as found; the input blocks kept; the logits block at the
    tile; the loss block at the loss column of the running state; the invariant `PhiS1`; each input window at half
    of its array's share; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => tile (grid1.coords t) (iblk1 V c 0 t) (iblk1 V c 1 t)
    | ⟨3, _⟩ => lossOf (scAt1 V c t.val t.isLt)
  Φ t := PhiS1 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq1 (c : Dev nD) (w : Fin cfg1.W) : (dat1 V c).A w = V c (Pipeline.arrRef spec1 w) := by dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = tile (grid1.coords t) (iblk1 V c 0 t) (iblk1 V c 1 t) := by dsimp only [dat1]
theorem after1_3 (c : Dev nD) (t : Fin cfg1.N) : (dat1 V c).after 3 t = lossOf (scAt1 V c t.val t.isLt) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- Where the windows are idle: the inputs and the logits never; the loss window wherever the column coordinate is not 15, and there it is not written back. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point, by the three cases of the column coordinate. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  -- the input windows' buffers hold their blocks, fetched at this point or kept from the point before
  simp only [before1_0, before1_1]
  -- nothing is owed at any point; after the body the invariant names the scratch columns' new contents
  rw [show (dat1 V c).owesAt () t.succ = (dat1 V c).owesAt () t.castSucc from rfl]
  rw [show (dat1 V c).Φ t.succ = PhiS1 V c (t.val + 1) t.isLt from rfl, PhiS1_succ]
  -- the inputs and the logits window are live at every point: their buffers end at `after`
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · by_cases h1 : t.val % 16 = 15
    · exfalso; omega
    · -- FIRST TILE of a row block: the loss window is idle and handed back as found; the state restarts.
      rw [Dat.leavesExact_idle (dat1 V c) 3 t (idleAt1_3 t (fun h => h1 ((hcond1_1 t).mp h))) (noFlush1_3 t (fun h => h1 ((hcond1_1 t).mp h)))]
      rw [scAt1_reset V c t h0]
      by_cases hz : t.val = 0
      · -- the very first point: the invariant is the class invariant, every scratch column at anything
        rw [PhiS1_castSucc V c t, PhiS1_zero V c _ _ hz, PhiA1_eq]
        iintro ⟨⟨⟨Hoth, HS0, HS1, HS2⟩, Hg⟩, Ho, ⟨%d0, H0⟩, ⟨%d1, H1⟩, ⟨%d2, H2⟩, ⟨%d3, H3⟩⟩
        iapply (run1_A c Set.univ (grid1.coords t) _ _ _ _ _ _ _ _ _ _ _ _ _ _ (iblk1 V c 0 t) (iblk1 V c 1 t) _
          ((hcond1_0 t).mpr h0) (fun h => h1 ((hcond1_1 t).mp h)) ((dat1 V c).before 3 t d3))
        isplitl [H0]; · iexact H0
        isplitl [H1]; · iexact H1
        isplitl [H2]; · iexists _; iexact H2
        isplitl [H3]; · iexact H3
        isplitl [HS0]; · iexact HS0
        isplitl [HS1]; · iexact HS1
        isplitl [HS2]; · iexact HS2
        iintro ⟨H0, H1, H2, H3, HS0, HS1, HS2⟩
        isplitl [Hoth HS0 HS1 HS2 Hg]
        · isplitl [Hoth HS0 HS1 HS2]
          · isplitl [Hoth]; · iexact Hoth
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3
      · -- a later row block's first tile: the scratch columns hold the previous row block's final state, forgotten
        rw [PhiS1_castSucc V c t, PhiS1_pos V c _ _ hz]
        iintro ⟨⟨⟨Hoth, HS0, HS1, HS2⟩, Hg⟩, Ho, ⟨%d0, H0⟩, ⟨%d1, H1⟩, ⟨%d2, H2⟩, ⟨%d3, H3⟩⟩
        iapply (run1_A c Set.univ (grid1.coords t) _ _ _ _ _ _ _ _ _ _ _ _ _ _ (iblk1 V c 0 t) (iblk1 V c 1 t) _
          ((hcond1_0 t).mpr h0) (fun h => h1 ((hcond1_1 t).mp h)) ((dat1 V c).before 3 t d3))
        isplitl [H0]; · iexact H0
        isplitl [H1]; · iexact H1
        isplitl [H2]; · iexists _; iexact H2
        isplitl [H3]; · iexact H3
        isplitl [HS0]; · iexists _; iexact HS0
        isplitl [HS1]; · iexists _; iexact HS1
        isplitl [HS2]; · iexists _; iexact HS2
        iintro ⟨H0, H1, H2, H3, HS0, HS1, HS2⟩
        isplitl [Hoth HS0 HS1 HS2 Hg]
        · isplitl [Hoth HS0 HS1 HS2]
          · isplitl [Hoth]; · iexact Hoth
            isplitl [HS0]; · iexact HS0
            isplitl [HS1]; · iexact HS1
            iexact HS2
          iexact Hg
        isplitl [Ho]; · iexact Ho
        isplitl [H0]; · iexact H0
        isplitl [H1]; · iexact H1
        isplitl [H2]; · iexact H2
        iexists _; iexact H3
  · have hz : t.val ≠ 0 := fun h => h0 (by rw [h])
    by_cases h1 : t.val % 16 = 15
    · -- LAST TILE: one more step from the state the point before left, and the loss window (live here) is stored.
      rw [show (dat1 V c).leavesExact 3 t = owns (c : Thread nD τ) (st1_3 t) fullShare ((dat1 V c).after 3 t) from by
        unfold Dat.leavesExact; rw [liveAt1_3 t ((hcond1_1 t).mpr h1)], after1_3]
      rw [scAt1_step V c t h0]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply (run1_C c Set.univ (grid1.coords t) _ _ _ _ _ _ _ _ _ _ _ _ _ _ (iblk1 V c 0 t) (iblk1 V c 1 t) _
        (fun h => h0 ((hcond1_0 t).mp h)) ((hcond1_1 t).mpr h1)
        (scAt1 V c (t.val - 1) (Nat.lt_of_le_of_lt (Nat.sub_le _ _) t.isLt)))
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexact H3
    · -- INNER TILE: one more step from the state the point before left; the loss window idle, handed back as found.
      rw [Dat.leavesExact_idle (dat1 V c) 3 t (idleAt1_3 t (fun h => h1 ((hcond1_1 t).mp h))) (noFlush1_3 t (fun h => h1 ((hcond1_1 t).mp h)))]
      rw [scAt1_step V c t h0]
      rw [PhiS1_castSucc V c t, PhiS1_pos V c _ _ hz]
      iintro ⟨⟨⟨Hoth, HS0, HS1, HS2⟩, Hg⟩, Ho, ⟨%d0, H0⟩, ⟨%d1, H1⟩, ⟨%d2, H2⟩, ⟨%d3, H3⟩⟩
      iapply (run1_B c Set.univ (grid1.coords t) _ _ _ _ _ _ _ _ _ _ _ _ _ _ (iblk1 V c 0 t) (iblk1 V c 1 t) _
        (fun h => h0 ((hcond1_0 t).mp h)) (fun h => h1 ((hcond1_1 t).mp h)) ((dat1 V c).before 3 t d3)
        (scAt1 V c (t.val - 1) (Nat.lt_of_le_of_lt (Nat.sub_le _ _) t.isLt)))
      isplitl [H0]; · iexact H0
      isplitl [H1]; · iexact H1
      isplitl [H2]; · iexists _; iexact H2
      isplitl [H3]; · iexact H3
      isplitl [HS0]; · iexact HS0
      isplitl [HS1]; · iexact HS1
      isplitl [HS2]; · iexact HS2
      iintro ⟨H0, H1, H2, H3, HS0, HS1, HS2⟩
      isplitl [Hoth HS0 HS1 HS2 Hg]
      · isplitl [Hoth HS0 HS1 HS2]
        · isplitl [Hoth]; · iexact Hoth
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region's entry hands the invariant (the class invariant) is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the class invariant back: the scratch columns' contents are forgotten. -/
theorem hout1 (c : Dev nD) : (dat1 V c).Φ (Fin.last cfg1.N) ⊢ Pipeline.ΦA spec1 c := by
  -- The grid has 256 ≠ 0 points, so after the last one the scratch columns are owned at named contents;
  -- the class invariant asks for them at anything.
  have hN : cfg1.N ≠ 0 := by have h : cfg1.N = 256 := N_1; omega
  rw [show (dat1 V c).Φ (Fin.last cfg1.N) = PhiS1 V c cfg1.N le_rfl from rfl, PhiS1_pos V c cfg1.N le_rfl hN, PhiA1_eq]
  iintro ⟨⟨Ho, S0, S1, S2⟩, Hg⟩
  isplitl [Ho S0 S1 S2]
  · isplitl [Ho]; · iexact Ho
    isplitl [S0]; · iexists _; iexact S0
    isplitl [S1]; · iexists _; iexact S1
    iexists _; iexact S2
  iexact Hg

end Cert.KernelIdeal.Hand

end
-- ==== Proof.KIShares.lean ====
/-
  Region 1's arrays out of, and back into, the core's unscoped buffers. Its two input windows read ONE array (the
  unit rows), so at entry that array's full share is split into the two halves the windows hold, and at exit the
  halves — still at the entry contents, inputs being never written — are joined again; the two output arrays go
  in at the full share and come back at what the write-backs left.
-/
import proofs.«117302_j53961969107141_1_alg».proof.Proof.Gen.KernelIdeal.Launch
import proofs.«117302_j53961969107141_1_alg».proof.Proof.Gen.KernelIdeal.Skeleton
import proofs.«117302_j53961969107141_1_alg».proof.Proof.Gen.KernelIdeal.Points
import proofs.«117302_j53961969107141_1_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- The distinct buffers behind region 1's four windows are three: the shared input array and the two outputs. -/
theorem arrBufs1_eq (c : Dev nD) (W : (b : Ref sig .tc) → Buf (Elt F) ((c : Thread nD τ).loc b)) :
    (Pipeline.arrBufs spec1 c W : sProp 𝕄)
      = iprop((((c : Thread nD τ).loc main_v1) ↦{fullShare} W main_v1) ∗ (((c : Thread nD τ).loc main_v2_0) ↦{fullShare} W main_v2_0)
          ∗ (((c : Thread nD τ).loc main_v2_1) ↦{fullShare} W main_v2_1)) := by
  unfold Pipeline.arrBufs
  exact bigSep_eq_bigSepL_of_eq [main_v1, main_v2_0, main_v2_1] (by decide) (by decide) _

/-- Region 1's arrays window by window: the two input windows hold the two halves of the shared array, the two
    output windows their arrays whole. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_v1) ↦{fullShare.left} G 0) ∗ (((c : Thread nD τ).loc main_v1) ↦{fullShare.right} G 1)
          ∗ (((c : Thread nD τ).loc main_v2_0) ↦{fullShare} G 2) ∗ (((c : Thread nD τ).loc main_v2_1) ↦{fullShare} G 3)) := by
  unfold Dat.arrays
  -- windows 0 and 1 are views of one whole array, so the first fact rewrites the element set of both
  rw [bigSep_W1, (arr_whole1 0).set_eq_univ, (arr_whole1 2).set_eq_univ, (arr_whole1 3).set_eq_univ]
  rfl

/-- A core's unscoped buffers are the three buffers behind region 1's windows and the unscoped rest. -/
theorem unscopedBufs1_split (c : Dev nD) (W : (b : Ref sig .tc) → Buf (Elt F) ((c : Thread nD τ).loc b)) :
    (unscopedBufs c W : sProp 𝕄) = iprop(Pipeline.arrBufs spec1 c W ∗ Pipeline.unscopedRest spec1 c W) :=
  Pipeline.unscopedBufs_split₀ cfgs 1 winFacts₀1.arr_unscoped c W

/-- ENTRY: the unscoped buffers at `V` are region 1's arrays at their entry contents (each input window at its half
    of the shared array) and the unscoped rest. -/
theorem entry1 (c : Dev nD) :
    (unscopedBufs c (V c) : sProp 𝕄) ⊢ iprop((dat1 V c).arrays ((dat1 V c).arrAt · 0) ∗ Pipeline.unscopedRest spec1 c (V c)) := by
  rw [unscopedBufs1_split]
  refine sep_mono ?_ .rfl
  rw [arrBufs1_eq, arrays1_eq]
  -- the entry contents are the arrays as found; the shared array's full share splits into the windows' halves
  iintro ⟨H1, H2, H3⟩
  ihave H1 := (pointsTo_share (PosShare.mem_left_op_right fullShare)).1 $$ H1
  icases H1 with ⟨Hl, Hr⟩
  isplitl [Hl]; · iexact Hl
  isplitl [Hr]; · iexact Hr
  isplitl [H2]; · iexact H2
  iexact H3

/-- EXIT: region 1's arrays at what the write-backs left and the unscoped rest at `V` are the unscoped buffers at any
    valuation `V'` that keeps the shared input array, has the two output arrays at their final contents, and agrees
    with `V` off the arrays. -/
theorem exit1 (c : Dev nD) (V' : (b : Ref sig .tc) → Buf (Elt F) ((c : Thread nD τ).loc b))
    (h1 : V' main_v1 = V c main_v1)
    (h2 : V' main_v2_0 = (dat1 V c).arrAt 2 cfg1.N)
    (h3 : V' main_v2_1 = (dat1 V c).arrAt 3 cfg1.N)
    (hrest : ∀ b, b ∉ Finset.univ.image (Pipeline.arrRef spec1) → V' b = V c b) :
    iprop((dat1 V c).arrays ((dat1 V c).arrAt · cfg1.N) ∗ Pipeline.unscopedRest spec1 c (V c)) ⊢ (unscopedBufs c V' : sProp 𝕄) := by
  rw [unscopedBufs1_split]
  refine sep_mono ?_ (Entails.of_eq ?_)
  · -- an input array is never written, so both halves still hold the entry contents, which `V'` keeps
    rw [arrBufs1_eq, arrays1_eq, h1, h2, h3,
      Dat.arrAt_in (dat := dat1 V c) 0 rfl cfg1.N, Dat.arrAt_in (dat := dat1 V c) 1 rfl cfg1.N]
    iintro ⟨Hl, Hr, H2, H3⟩
    isplitl [Hl Hr]
    · iapply (pointsTo_share (PosShare.mem_left_op_right fullShare)).2
      isplitl [Hl]; · iexact Hl
      iexact Hr
    isplitl [H2]; · iexact H2
    iexact H3
  · -- off the arrays `V'` agrees with `V`
    unfold Pipeline.unscopedRest
    exact bigSep_congr fun b hb => by rw [hrest b (Finset.mem_sdiff.mp hb).2]

end Cert.KernelIdeal.Hand

end
-- ==== Proof.KIRunCond.lean ====
/-
  The run of the idealized kernel program given one segment record per kernel region, with EVERY unscoped buffer
  read back at the end (the results as well as the arguments): @main is the host concatenation, the two kernel
  regions, and the host tail; between two items the unscoped buffers are held at the valuation the item before left.
-/
import proofs.«117302_j53961969107141_1_alg».proof.Proof.Gen.KernelIdeal.Regions

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

variable (m : (ℓ : Loc nD τ sig) → Buf (Elt F) ℓ)

set_option backward.isDefEq.respectTransparency.types false in
/-- The run of @main given the regions' records, read at EVERY unscoped buffer: the same launch over the same segments as
    the conditional frame, its last thread state (every unscoped buffer at the last valuation) read back whole, so that
    the results as well as the arguments are named. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c)) :
    θ_run defs (onTc (τ := τ) (main (F := F))) ⟨m, fun _ => 0, ρ⟩ (fun r => ∀ c : Dev nD,
      ∀ b ∈ Pipeline.ucRefs τ sig, r.2.mem (((c : Thread nD τ)).1, b) = V4 m outs c b) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V4 m outs c))
    (hch := fun c => ⟨.rfl, hpre0 c, (hpost0 c).trans (hpre1 c), hpost1 c, sep_mono .rfl (hE2 c)⟩)
    (hinit := ?_) (QY := fun c s => ∀ b ∈ Pipeline.ucRefs τ sig, s.mem (((c : Thread nD τ)).1, b) = V4 m outs c b)
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V4 m outs c) s') $$ [Hh HSI]
    · isplitl [Hh] <;> iassumption
    icases Hr with ⟨%h, HSI⟩
    imodintro
    isplitr
    · ipureintro
      exact h
    · iexact HSI

end Cert.KernelIdeal.Gen

end
-- ==== Proof.KILaunch.lean ====
/-
  The whole program as segments: the host concatenation, region 0 (row normalisation), region 1 (logits tiles
  and streaming soft-max), the host tail. Between two items every unscoped buffer is held at a valuation:
  the launch memory, then after the concatenation, then with the unit rows' array at what region 0's write-backs
  left, then with the logits and loss arrays at what region 1's left, then after the host tail.
-/
import proofs.«117302_j53961969107141_1_alg».proof.Proof.Gen.KernelIdeal.Launch
import proofs.«117302_j53961969107141_1_alg».proof.Proof.Gen.KernelIdeal.Skeleton
import proofs.«117302_j53961969107141_1_alg».proof.Proof.Gen.KernelIdeal.Points
import proofs.«117302_j53961969107141_1_alg».proof.Proof.KIRegion0
import proofs.«117302_j53961969107141_1_alg».proof.Proof.KIRegion1
import proofs.«117302_j53961969107141_1_alg».proof.Proof.KIShares
import proofs.«117302_j53961969107141_1_alg».proof.Proof.Gen.KernelIdeal.Regions
import proofs.«117302_j53961969107141_1_alg».proof.Proof.KIRunCond
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The valuations between the items -/

/-- Region 0's entry contents, read at the TensorCore's references. -/
abbrev VR1 : (c : Dev nD) → (b : Ref sig .tc) → Buf (Elt F) ((c : Thread nD τ).loc b) := fun c b => Gen.V1 m c b
/-- What region 0 leaves in the unit rows' array. -/
def arr1 (c : Dev nD) : Buf (Elt F) ((c : Thread nD τ).loc main_v1) := (dat0 (VR1 m) c).arrAt 1 cfg0.N
/-- After region 0: the unit rows' array at what it left, everything else as entered. -/
abbrev W2 (c : Dev nD) : Valuation τ sig (Elt F) := Function.update (Gen.V1 m c) main_v1 (arr1 m c)
abbrev VR2 : (c : Dev nD) → (b : Ref sig .tc) → Buf (Elt F) ((c : Thread nD τ).loc b) := fun c b => W2 m c b
/-- What region 1 leaves in the logits array and in the loss column. -/
def arr2 (c : Dev nD) : Buf (Elt F) ((c : Thread nD τ).loc main_v2_0) := (dat1 (VR2 m) c).arrAt 2 cfg1.N
def arr3 (c : Dev nD) : Buf (Elt F) ((c : Thread nD τ).loc main_v2_1) := (dat1 (VR2 m) c).arrAt 3 cfg1.N

/-- What the regions leave, as the table the generated valuations are written over. -/
def outs : Gen.Outs (F := F) := fun _ r c =>
  if h1 : r = main_v1 then h1 ▸ arr1 m c
  else if h2 : r = main_v2_0 then h2 ▸ arr2 m c
  else if h3 : r = main_v2_1 then h3 ▸ arr3 m c
  else m ((c : Thread nD τ).loc r)

theorem outs_v1 (J : ℕ) (c : Dev nD) : outs m J main_v1 c = arr1 m c := by
  unfold outs; rw [dif_pos rfl]
theorem outs_v2_0 (J : ℕ) (c : Dev nD) : outs m J main_v2_0 c = arr2 m c := by
  unfold outs; rw [dif_neg (by decide), dif_pos rfl]
theorem outs_v2_1 (J : ℕ) (c : Dev nD) : outs m J main_v2_1 c = arr3 m c := by
  unfold outs; rw [dif_neg (by decide), dif_neg (by decide), dif_pos rfl]

theorem V2_eq (c : Dev nD) : Gen.V2 m (outs m) c = W2 m c := by
  unfold Gen.V2 W2; rw [outs_v1]
/-- After region 1. -/
abbrev W3 (c : Dev nD) : Valuation τ sig (Elt F) := Function.update (Function.update (W2 m c) main_v2_0 (arr2 m c)) main_v2_1 (arr3 m c)
theorem V3_eq (c : Dev nD) : Gen.V3 m (outs m) c = W3 m c := by
  unfold Gen.V3 W3; rw [V2_eq, outs_v2_0, outs_v2_1]

/-! ## The proof data family and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (VR1 m) c
  | ⟨1, _⟩ => fun c => dat1 (VR2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- At region 0's exit each of its arrays holds what the pipeline leaves, and every other buffer what it held at entry. -/
theorem hF0 (c : Dev nD) (w : Fin cfg0.W) : (pdats m 0 c).arrAt w cfg0.N = VR2 m c (Pipeline.arrRef spec0 w) := by
  match w with
  | ⟨0, _⟩ =>
    refine ((pdats m 0 c).arrAt_in 0 rfl _).trans ?_
    show Gen.V1 m c main_v0 = Function.update (Gen.V1 m c) main_v1 (arr1 m c) main_v0
    rw [Function.update_of_ne (StableHlo.devRef_ne_of_ne (by decide) : (Proc.devRef .tc main_v0 : DevRef τ sig) ≠ Proc.devRef .tc main_v1)]
  | ⟨1, _⟩ =>
    show arr1 m c = Function.update (Gen.V1 m c) main_v1 (arr1 m c) main_v1
    rw [Function.update_self]
theorem hrest0 (c : Dev nD) : ∀ b, b ∉ Finset.univ.image (Pipeline.arrRef spec0) → VR2 m c b = VR1 m c b := fun b hb => by
  have hne : b ≠ main_v1 := fun e => hb (Finset.mem_image.mpr ⟨1, Finset.mem_univ _, e.symm⟩)
  show Function.update (Gen.V1 m c) main_v1 (arr1 m c) b = Gen.V1 m c b
  rw [Function.update_of_ne (StableHlo.devRef_ne_of_ne hne : (Proc.devRef .tc b : DevRef τ sig) ≠ Proc.devRef .tc main_v1)]

set_option backward.isDefEq.respectTransparency.types false in
/-- REGION 0 over the thread state: entered from every unscoped buffer at the contents after the concatenation, left
    with the unit rows' array at what the write-backs left. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VR1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (VR1 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (VR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (VR1 m c) (VR2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from the contents region 0 left, left with the logits and loss arrays at
    what the write-backs left. Its two input windows share the unit rows' array (each at half its share). -/
def reg1 : Pipeline.RegionSeg (pcfgs (F := F)) Gen.adm (pdats m) () defs₀ 𝒱₀ L lv 1 where
  win := winFacts₀1
  block_pos := block_pos1
  stage_whole := stage_whole1
  K := PEmpty
  osem k := k.elim
  ho := Pipeline.OwnSemFacts.none _
  hbody c := (body_obligation1 (VR2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (VR2 m c)
  hentry c := by
    rw [Pipeline.ownSems0_none]
    have hsplit : (unscopedBufs c (VR2 m c) : sProp 𝕄) ⊢ iprop((pdats m 1 c).arrays ((pdats m 1 c).arrAt · 0) ∗ Pipeline.unscopedRest spec1 c (VR2 m c)) := entry1 (VR2 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (VR2 m) c)
    unfold Pipeline.ΦA
    iintro ⟨Hp, -, Hr⟩
    isplitl [Hr]; · iexact Hr
    iexact Hp
  hout c := by
    rw [Pipeline.ownSems0_none]
    refine (hout1 (VR2 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (VR2 m c)) ⊢ (unscopedBufs c (fun b => W3 m c b) : sProp 𝕄) := exit1 (VR2 m) c (fun b => W3 m c b)
      (by
        show Function.update (Function.update (W2 m c) main_v2_0 (arr2 m c)) main_v2_1 (arr3 m c) main_v1 = W2 m c main_v1
        rw [Function.update_of_ne (StableHlo.devRef_ne_of_ne (by decide) : (Proc.devRef .tc main_v1 : DevRef τ sig) ≠ Proc.devRef .tc main_v2_1),
          Function.update_of_ne (StableHlo.devRef_ne_of_ne (by decide) : (Proc.devRef .tc main_v1 : DevRef τ sig) ≠ Proc.devRef .tc main_v2_0)])
      (by
        show Function.update (Function.update (W2 m c) main_v2_0 (arr2 m c)) main_v2_1 (arr3 m c) main_v2_0 = arr2 m c
        rw [Function.update_of_ne (StableHlo.devRef_ne_of_ne (by decide) : (Proc.devRef .tc main_v2_0 : DevRef τ sig) ≠ Proc.devRef .tc main_v2_1),
          Function.update_self])
      (by
        show Function.update (Function.update (W2 m c) main_v2_0 (arr2 m c)) main_v2_1 (arr3 m c) main_v2_1 = arr3 m c
        rw [Function.update_self])
      (fun b hb => by
        have h20 : b ≠ main_v2_0 := fun e => hb (Finset.mem_image.mpr ⟨2, Finset.mem_univ _, e.symm⟩)
        have h21 : b ≠ main_v2_1 := fun e => hb (Finset.mem_image.mpr ⟨3, Finset.mem_univ _, e.symm⟩)
        show Function.update (Function.update (W2 m c) main_v2_0 (arr2 m c)) main_v2_1 (arr3 m c) b = W2 m c b
        rw [Function.update_of_ne (StableHlo.devRef_ne_of_ne h21 : (Proc.devRef .tc b : DevRef τ sig) ≠ Proc.devRef .tc main_v2_1),
          Function.update_of_ne (StableHlo.devRef_ne_of_ne h20 : (Proc.devRef .tc b : DevRef τ sig) ≠ Proc.devRef .tc main_v2_0)])
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the first and last thread states -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

theorem hE2 (c : Dev nD) : E (F := F) 2 c ⊢ (iprop(∃ W, owes (c : Thread nD τ) (0 : CellTallies nD τ sig Unit) W) : sProp 𝕄) := by
  iintro ⟨-, HO⟩; iexact HO

/-! ## The frame and the run -/

set_option backward.isDefEq.respectTransparency.types false in
/-- Every weakly fair execution of @main from memory `m` with zero counters terminates, nothing faulting, with each
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (fun c => by rw [V2_eq]; exact .rfl)
    (reg1 m) (fun c => by rw [V2_eq]; exact .rfl) (fun c => by rw [V3_eq]; exact .rfl)

set_option backward.isDefEq.respectTransparency.types false in
/-- The same run, with every unscoped buffer read back at the end: after the host tail over the contents region 1 left. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = StableHlo.after hostOps2 (W3 m c) b) := by
  have h := Gen.run_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun _ => .rfl) (fun c => by rw [V2_eq]; exact .rfl)
    (reg1 m) (fun c => by rw [V2_eq]; exact .rfl) (fun c => by rw [V3_eq]; exact .rfl)
  refine (θ_run defs _ _).mono (fun r hr c b hb => ?_) h
  rw [hr c b hb]
  show StableHlo.after hostOps2 (Gen.V3 m (outs m) c) b = _
  rw [V3_eq]

end Cert.KernelIdeal.Hand

end
-- ==== Proof.KITail.lean ====
/-
  What the host tail leaves, read off the last valuation: the logits array is untouched; the partner indices are a
  pure iota term; the loss is the weighted mean Σ w·pe / Σ w of the loss column `pe` (reshaped to a vector) with the
  weights w = (1 − mask)[partner], a gather of the converted mask input.
-/
import proofs.«117302_j53961969107141_1_alg».proof.Proof.Gen.KernelIdeal.Launch
import proofs.«117302_j53961969107141_1_alg».proof.Proof.Gen.KernelIdeal.Skeleton
import proofs.«117302_j53961969107141_1_alg».proof.Proof.Gen.KernelIdeal.Points
import proofs.«117302_j53961969107141_1_alg».proof.Proof.KILaunch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ)

/-- The partner indices: (iota + 4096) then iota. -/
def partnersK : IVec S8192 32 :=
  concatenate S8192 0 [⟨S4096, addi (iotaInDim S4096 32 0) (broadcastInDim S4096 ![] bcast_S_S4096 (constantI S_ 32 4096#32))⟩, ⟨S4096, iotaInDim S4096 32 0⟩] concatenates_S4096_S4096_S8192_d0

/-- The weights: 1 − mask (the mask input twice over), converted, gathered at the partner indices (wrapped if negative). -/
def wtsK (x2 : IVec S4096 32) : FVec F S8192 .f32 :=
  Host.gather gather_S8192_S8192x1_S8192_n_0_n_n_0_1_1
    (sitofp .f32 (subi (broadcastInDim S8192 ![] bcast_S_S8192 (constantI S_ 32 1#32)) (concatenate S8192 0 [⟨S4096, x2⟩, ⟨S4096, x2⟩] concatenates_S4096_S4096_S8192_d0)))
    (broadcastInDim S8192x1 ![0] bcast_S8192_S8192x1_0
      (select (cmpi .slt partnersK (broadcastInDim S8192 ![] bcast_S_S8192 (constantI S_ 32 0#32)))
        (addi partnersK (broadcastInDim S8192 ![] bcast_S_S8192 (constantI S_ 32 8192#32))) partnersK))

/-- The weighted mean of the per-row losses. -/
def tailK (pe : FVec F S8192 .f32) (x2 : IVec S4096 32) : FVec F S_ .f32 :=
  Host.divf (Host.reduceAdd (mulf (wtsK (F := F) x2) pe) (constant S_ .f32 0x00000000#32) reducesTo_S8192_S_d0 h_S_)
    (Host.reduceAdd (wtsK (F := F) x2) (constant S_ .f32 0x00000000#32) reducesTo_S8192_S_d0 h_S_)

/-- The concatenated features: what the first host operation leaves for region 0. -/
theorem V1_main_v0 (c : Dev nD) :
    Gen.V1 m c main_v0 = concatenate S8192x1024 0 [⟨S4096x1024, m ((c : Thread nD τ).loc main_arg0)⟩, ⟨S4096x1024, m ((c : Thread nD τ).loc main_arg1)⟩] concatenates_S4096x1024_S4096x1024_S8192x1024_d0 := by
  dsimp only [Gen.V1, Gen.V0, Gen.hostOps0]; after_results

theorem W3_main_v2_0 (c : Dev nD) : W3 m c main_v2_0 = arr2 m c := by
  show Function.update (Function.update (W2 m c) main_v2_0 (arr2 m c)) main_v2_1 (arr3 m c) main_v2_0 = arr2 m c
  rw [Function.update_of_ne (StableHlo.devRef_ne_of_ne (by decide) : (Proc.devRef .tc main_v2_0 : DevRef τ sig) ≠ Proc.devRef .tc main_v2_1), Function.update_self]
theorem W3_main_v2_1 (c : Dev nD) : W3 m c main_v2_1 = arr3 m c := by
  show Function.update (Function.update (W2 m c) main_v2_0 (arr2 m c)) main_v2_1 (arr3 m c) main_v2_1 = arr3 m c
  rw [Function.update_self]
theorem W3_main_arg2 (c : Dev nD) : W3 m c main_arg2 = m ((c : Thread nD τ).loc main_arg2) := by
  rw [← V3_eq]
  exact (Gen.V3_of m (outs m) c main_arg2 (by decide)).trans <| (Gen.V2_of m (outs m) c main_arg2 (by decide)).trans <| (Gen.V1_of m c main_arg2 (by decide)).trans rfl

/-- The logits array is untouched by the tail. -/
theorem tail_v2_0 (c : Dev nD) : StableHlo.after hostOps2 (W3 m c) (Proc.devRef .tc main_v2_0) = arr2 m c :=
  (StableHlo.after_of_writes_sub hostOps2 _ Gen.hostOps2_writes (by decide)).trans (W3_main_v2_0 m c)

/-- The partner indices. -/
theorem tail_v7 (c : Dev nD) : StableHlo.after hostOps2 (W3 m c) (Proc.devRef .tc main_v7) = partnersK := by
  unfold partnersK
  dsimp only [Gen.hostOps2]; after_results

set_option maxHeartbeats 4000000 in
/-- The loss. -/
theorem tail_v22 (c : Dev nD) :
    StableHlo.after hostOps2 (W3 m c) (Proc.devRef .tc main_v22)
      = tailK (shapeCast S8192 (arr3 m c) shapeCasts_S8192x1_S8192) (m ((c : Thread nD τ).loc main_arg2)) := by
  rw [← W3_main_v2_1 m c, ← W3_main_arg2 m c]
  generalize W3 m c = W
  unfold tailK wtsK partnersK
  dsimp only [Gen.hostOps2]; after_results
  rfl

/-- The arguments end as launched. -/
theorem tail_arg0 (c : Dev nD) : StableHlo.after hostOps2 (W3 m c) (Proc.devRef .tc main_arg0) = m ((c : Thread nD τ).loc main_arg0) := by
  rw [← V3_eq]; exact Gen.V4_main_arg0 m (outs m) c
theorem tail_arg1 (c : Dev nD) : StableHlo.after hostOps2 (W3 m c) (Proc.devRef .tc main_arg1) = m ((c : Thread nD τ).loc main_arg1) := by
  rw [← V3_eq]; exact Gen.V4_main_arg1 m (outs m) c
theorem tail_arg2 (c : Dev nD) : StableHlo.after hostOps2 (W3 m c) (Proc.devRef .tc main_arg2) = m ((c : Thread nD τ).loc main_arg2) := by
  rw [← V3_eq]; exact Gen.V4_main_arg2 m (outs m) c

end Cert.KernelIdeal.Hand

end
-- ==== Proof.Spec.lean ====
/-
  What both programs compute, as functions of the concatenated feature array `X` (8192 rows of 1024), on the
  extended reals: each row divided by max(‖row‖₂, ε); the similarities of the unit rows; the logits
  sim · (1/τ) − B·[r = c] (the diagonal pushed down by B = 1e10); and per row r the negated log-soft-max of the
  logits at its partner column r ± 4096.
-/
import Idealize.ShloMosaic.PureOps.Ideal
import Idealize.ShloMosaic.Lib.ValueIdx

noncomputable section

namespace Cert.Spec

open Idealize.ShloMosaic Idealize.ShloMosaic.ValueIdx

/-- The norm clamp ε (the f32 word of 1e-8) and the diagonal penalty B (the f32 word of 1e10), as both programs carry them. -/
def eps : EReal := Ideal.ofBits .f32 0x322BCC77#32
def big : EReal := Ideal.ofBits .f32 0x501502F9#32
/-- 1/τ, exactly: the reciprocal of the rational 13421773/2^28 that the temperature's f32 word denotes. -/
def invTau : EReal := ((268435456 / 13421773 : ℝ) : EReal)

variable (X : (⟨2, ![8192, 1024]⟩ : Shape).Idx → EReal)

/-- max(√(Σₖ X[r,k]²), ε). -/
def rowNorm (r : Fin 8192) : EReal := max (Ideal.sqrt (∑ k : Fin 1024, X (ix2 r k) * X (ix2 r k))) eps
/-- The unit row: X[r,k] / rowNorm r. -/
def unit (r : Fin 8192) (k : Fin 1024) : EReal := Ideal.div (X (ix2 r k)) (rowNorm X r)
/-- Σₖ unit[r,k] · unit[c,k]. -/
def sim (r c : Fin 8192) : EReal := ∑ k : Fin 1024, unit X r k * unit X c k
/-- sim · (1/τ) − (B if r = c else 0). -/
def logit (r c : Fin 8192) : EReal := sim X r c * invTau - (if r = c then big else 0)
/-- Row r's positive pair: r + 4096 in the first half, r − 4096 in the second. -/
def partner (r : Fin 8192) : Fin 8192 :=
  if h : r.val < 4096 then ⟨r.val + 4096, by omega⟩ else ⟨r.val - 4096, by have := r.isLt; omega⟩
/-- The row maximum of the logits (from −∞). -/
def rowMax (r : Fin 8192) : EReal := max ⊥ ((Finset.univ : Finset (Fin 8192)).fold max ⊥ fun c => logit X r c)
/-- −((logit[r, partner r] − M) − log (0 + Σ_c exp (logit[r,c] − M))), M the row maximum. -/
def perExample (r : Fin 8192) : EReal :=
  -((logit X r (partner r) - rowMax X r) - Ideal.log (0 + ∑ c : Fin 8192, Ideal.exp (logit X r c - rowMax X r)))

end Cert.Spec

end
-- ==== Proof.LibColumn.lean ====
/-
  Column-shaped values read at an index given by coordinates, and a lane sum read as a finite sum.

  A row-wise reduction that keeps its axis (`sum(…, axis=1, keepdims=True)`) leaves an `[a, 1]` column. Three re-layings
  of such a column occur whenever it meets a full `[a, b]` tile: the cast of the `[a]` vector of sums to the column, the
  column broadcast along the rows of the tile, and (for the other operand's sums) the column transposed to a `[1, b]` row,
  which the library's `transpose_ix2_apply` and `broadcastTo_1b_ab_apply` already read. Each lemma states what the
  re-laid value holds at `(p, c)` in terms of the original vector, for indices built by `ix1` / `ix2`, so that it applies
  to a printed operation by unification. Generic in the extents and in the element type.
-/
import Idealize.ShloMosaic.Lib.ValueLayout
import Idealize.ShloMosaic.PureOps.Ideal.Laws

namespace Cert.Lib.Column

open Idealize.ShloMosaic Idealize.ShloMosaic.ValueIdx

variable {α : Type}

/-- An `[a]` vector cast to the column `[a, 1]` reads, at `(i, u)`, the vector's entry `i`, whatever the unit
    coordinate `u`: both positions are `i` in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`: every column of the
    result is the operand. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of an `[a, d]` block (a float `multi_reduction <add>` over axis 1 from the neutral
    accumulator), read on the extended reals at row `i`, is the finite sum of the row's `d` entries. -/
theorem rowSum_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin d, src (ix2 i k) :=
  (Ideal.multiReduction_add_single src acc h hφ hacc (ix1 i)).trans
    (Finset.sum_congr rfl fun k _ => congrArg src (funext fun c => Fin.ext (by
      match c with
      | ⟨0, _⟩ => rfl
      | ⟨1, _⟩ => rfl)))

end Cert.Lib.Column
-- ==== Proof.KIPayloadA.lean ====
/-
  The kernel bodies' arithmetic read at an index on the extended reals (1): the named scale; the normalised row
  entry of region 0; one entry of region 1's logits tile; where its target mask is set.
-/
import proofs.«117302_j53961969107141_1_alg».proof.Proof.Gen.KernelIdeal.Skeleton
import proofs.«117302_j53961969107141_1_alg».proof.Proof.Spec
import proofs.«117302_j53961969107141_1_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Payload

open Cert.KernelIdeal Cert.KernelIdeal.Gen
open Idealize.ShloMosaic Idealize.ShloMosaic.ValueIdx

/-- The kernel's named scale denotes 1/τ exactly. -/
theorem inv_tau : Named.named (F := Ideal) Cert.KernelIdeal.κ "inv_tau" (φ := .f32) 0x41A00000#32 = Cert.Spec.invTau := by
  unfold Cert.Spec.invTau
  exact IdealRules.named_const.ideal_named_scalar _ _ _ _ rfl

/-- Region 0: entry (p, k) of the stored block is the input entry over max(√(Σ row²), ε). -/
theorem k0_pay1_apply (x : Vec Ideal S512x1024 .f32) (p : Fin 512) (k : Fin 1024) :
    k0_pay1 (F := Ideal) x (ix2 p k)
      = Ideal.div (x (ix2 p k)) (max (Ideal.sqrt (∑ k' : Fin 1024, x (ix2 p k') * x (ix2 p k'))) Cert.Spec.eps) := by
  unfold k0_pay1
  rw [shapeCast_self x]
  refine (truncf_apply (φ := .f32) (ψ := .bf16) _ _ _).trans ?_
  refine (divf_apply (φ := .f32) _ _ _).trans ?_
  refine congrArg (Ideal.div (x (ix2 p k))) ?_
  refine (Cert.Lib.Column.broadcastTo_a1_ab_apply _ _ p k).trans ?_
  refine (maximumf_apply _ _ _).trans ?_
  refine congrArg₂ max ?_ rfl
  show Ideal.sqrt _ = Ideal.sqrt _
  refine congrArg Ideal.sqrt ?_
  refine (Cert.Lib.Column.shapeCast_a_a1_apply _ _ p 0).trans ?_
  refine (Cert.Lib.Column.rowSum_apply _ _ _ _ _ p).trans ?_
  rfl

/-! ## The index words

The row-index column of region 1 holds at row p the 32-bit word of 512·i₀ + p, the column-index row at column q the word
of 512·i₁ + q. Both numbers are below 8192, far from 2³², so the words determine them: equality of words is equality of
the numbers, the signed order against 4096 is the order of the numbers, and adding or subtracting 4096 does not wrap. -/

/-- The row-index column at (p, u): the block's first global row 512·i₀, plus p. -/
theorem pay9_apply (i : grid1.Coords) (p : Fin 512) (u : Fin 1) :
    k1_pay9 i (ix2 p u) = BitVec.ofNat 32 (i 0).val * 512#32 + BitVec.ofNat 32 p.val := by
  unfold k1_pay9
  show IntOp.addi (Scalar.muli _ _) (iota .tc S512x1 32 [0] _ (ix2 p u)) = _
  rw [iota_single_apply]
  rfl

/-- The column-index row at (u, q): the block's first global column 512·i₁, plus q. -/
theorem pay10_apply (i : grid1.Coords) (u : Fin 1) (q : Fin 512) :
    k1_pay10 i (ix2 u q) = BitVec.ofNat 32 (i 1).val * 512#32 + BitVec.ofNat 32 q.val := by
  unfold k1_pay10
  show IntOp.addi (Scalar.muli _ _) (iota .tc S1x512 32 [1] _ (ix2 u q)) = _
  rw [iota_single_apply]
  rfl

/-- No wrap-around: for a < 16 and p < 512 the word a·512 + p is the number 512·a + p < 8192 < 2³². -/
theorem word_toNat (a p : ℕ) (ha : a < 16) (hp : p < 512) :
    (BitVec.ofNat 32 a * 512#32 + BitVec.ofNat 32 p).toNat = 512 * a + p := by
  rw [BitVec.toNat_add, BitVec.toNat_mul, BitVec.toNat_ofNat, BitVec.toNat_ofNat, BitVec.toNat_ofNat]
  omega

/-- Both grid coordinates of region 1 are below 16. -/
theorem coord0_lt (i : grid1.Coords) : (i 0).val < 16 := (i 0).isLt
theorem coord1_lt (i : grid1.Coords) : (i 1).val < 16 := (i 1).isLt

/-- The equality comparison of two words answers 1 exactly when they are equal. -/
theorem cmpi_eq_one {w : ℕ} (x y : BitVec w) : IntOp.cmpi .eq x y = 1#1 ↔ x = y := by
  show BitVec.ofBool (x == y) = 1#1 ↔ x = y
  by_cases h : x = y
  · subst h
    rw [beq_self_eq_true]
    exact ⟨fun _ => rfl, fun _ => rfl⟩
  · rw [beq_eq_false_iff_ne.mpr h]
    exact ⟨fun h' => absurd h' (by decide), fun h' => absurd h' h⟩

/-- The signed comparison against 4096 of a word below 8192 (so non-negative as a signed number) is the comparison of
    the numbers. -/
theorem cmpi_slt_4096 (R : BitVec 32) (hR : R.toNat < 8192) : IntOp.cmpi .slt R 4096#32 = 1#1 ↔ R.toNat < 4096 := by
  show BitVec.ofBool (R.slt 4096#32) = 1#1 ↔ R.toNat < 4096
  have hRi : R.toInt = (R.toNat : ℤ) := BitVec.toInt_eq_toNat_of_lt (by omega)
  have h4 : (4096#32 : BitVec 32).toInt = 4096 := by decide
  rw [BitVec.slt_eq_decide, hRi, h4]
  by_cases h : R.toNat < 4096
  · have hz : (R.toNat : ℤ) < 4096 := by omega
    rw [decide_eq_true hz]
    exact ⟨fun _ => h, fun _ => rfl⟩
  · have hz : ¬ (R.toNat : ℤ) < 4096 := by omega
    rw [decide_eq_false hz]
    exact ⟨fun h' => absurd h' (by decide), fun h' => absurd h' h⟩

/-- A select on a bit that answers 1 exactly when `P` holds is the `if` on `P`. -/
theorem select_of_iff {α : Type} (b : BitVec 1) (P : Prop) [Decidable P] (h : b = 1#1 ↔ P) (A B : α) :
    Scalar.select b A B = if P then A else B := by
  unfold Scalar.select
  exact if_congr h rfl rfl

/-- The partner word: for a row word R of the number r < 8192, the select between R + 4096 (where R is below 4096 as a
    signed number) and R − 4096 is the word of the partner row r ± 4096, without wrap-around. -/
theorem partner_word (R : BitVec 32) (r : ℕ) (hr : r < 8192) (hR : R.toNat = r) :
    (Scalar.select (IntOp.cmpi .slt R 4096#32) (IntOp.addi R 4096#32) (IntOp.subi R 4096#32)).toNat
      = (Cert.Spec.partner ⟨r, hr⟩).val := by
  have hlt : IntOp.cmpi .slt R 4096#32 = 1#1 ↔ r < 4096 := by
    rw [← hR]; exact cmpi_slt_4096 R (by omega)
  rw [select_of_iff _ _ hlt]
  unfold Cert.Spec.partner
  by_cases h : r < 4096
  · rw [if_pos h, dif_pos (show (⟨r, hr⟩ : Fin 8192).val < 4096 from h)]
    show (R + 4096#32).toNat = r + 4096
    rw [BitVec.toNat_add, hR, BitVec.toNat_ofNat]
    omega
  · rw [if_neg h, dif_neg (show ¬ (⟨r, hr⟩ : Fin 8192).val < 4096 from h)]
    show (R - 4096#32).toNat = r - 4096
    rw [BitVec.toNat_sub, hR, BitVec.toNat_ofNat]
    omega

/-- The diagonal bit of the tile at (p, q): the row-index column and the column-index row, each spread over the tile,
    compare equal exactly where the global row 512·i₀ + p is the global column 512·i₁ + q. -/
theorem diag_bit (i : grid1.Coords) (h1 : S512x1.Broadcasts S512x512) (h2 : S1x512.Broadcasts S512x512) (p q : Fin 512) :
    cmpi .eq (broadcastTo S512x512 (k1_pay9 i) h1) (broadcastTo S512x512 (k1_pay10 i) h2) (ix2 p q) = 1#1
      ↔ 512 * (i 0).val + p.val = 512 * (i 1).val + q.val := by
  show IntOp.cmpi .eq (broadcastTo S512x512 (k1_pay9 i) h1 (ix2 p q)) (broadcastTo S512x512 (k1_pay10 i) h2 (ix2 p q)) = 1#1 ↔ _
  rw [Cert.Lib.Column.broadcastTo_a1_ab_apply, broadcastTo_1b_ab_apply, pay9_apply, pay10_apply, cmpi_eq_one,
    ← BitVec.toNat_inj, word_toNat _ _ (coord0_lt i) p.isLt, word_toNat _ _ (coord1_lt i) q.isLt]

/-! ## The product

The tile's matrix product contracts the one shared axis of length 1024: at (p, q) it is the sum over k of the left
operand at (p, k) times the right operand at (k, q). -/

/-- The left operand's index at output index j and contraction position c: row j₀ … -/
theorem lhs_dot_0 (j : S512x512.Idx) (c : dot_S512x1024_S1024x512_S512x512_1_0_0_1_n_n.contr.Idx) :
    (dot_S512x1024_S1024x512_S512x512_1_0_0_1_n_n.lhsIdx j c 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- … and column the contraction coordinate. -/
theorem lhs_dot_1 (j : S512x512.Idx) (c : dot_S512x1024_S1024x512_S512x512_1_0_0_1_n_n.contr.Idx) :
    (dot_S512x1024_S1024x512_S512x512_1_0_0_1_n_n.lhsIdx j c 1).val = (c ⟨0, by decide⟩).val :=
  dot_S512x1024_S1024x512_S512x512_1_0_0_1_n_n.lhsIdx_val_of_single rfl j c
/-- The right operand's index: row the contraction coordinate … -/
theorem rhs_dot_0 (j : S512x512.Idx) (c : dot_S512x1024_S1024x512_S512x512_1_0_0_1_n_n.contr.Idx) :
    (dot_S512x1024_S1024x512_S512x512_1_0_0_1_n_n.rhsIdx j c 0).val = (c ⟨0, by decide⟩).val :=
  dot_S512x1024_S1024x512_S512x512_1_0_0_1_n_n.rhsIdx_val_of_single rfl j c
/-- … and column j₁. -/
theorem rhs_dot_1 (j : S512x512.Idx) (c : dot_S512x1024_S1024x512_S512x512_1_0_0_1_n_n.contr.Idx) :
    (dot_S512x1024_S1024x512_S512x512_1_0_0_1_n_n.rhsIdx j c 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The product into the zero accumulator, read at (p, q): Σₖ lhs[p, k] · rhs[k, q]. -/
theorem matmul_read (a : FVec Ideal S512x1024 .bf16) (b : FVec Ideal S1024x512 .bf16) (p q : Fin 512) :
    matmul (F := Ideal) dot_S512x1024_S1024x512_S512x512_1_0_0_1_n_n none a b (constant (F := Ideal) S512x512 .f32 0x00000000#32) (ix2 p q)
      = ∑ k : Fin 1024, a (ix2 p k) * b (ix2 k q) := by
  show FloatOps.matmul dot_S512x1024_S1024x512_S512x512_1_0_0_1_n_n none a b (constant (F := Ideal) S512x512 .f32 0x00000000#32) (ix2 p q) = _
  rw [Ideal.matmul_constant_zero_apply, ← Equiv.sum_comp (contrEquiv1 dot_S512x1024_S1024x512_S512x512_1_0_0_1_n_n 1024 rfl rfl).symm]
  refine Finset.sum_congr rfl fun k _ => ?_
  have hk := contrEquiv1_symm_val dot_S512x1024_S1024x512_S512x512_1_0_0_1_n_n 1024 rfl rfl k
  have el : dot_S512x1024_S1024x512_S512x512_1_0_0_1_n_n.lhsIdx (ix2 p q) ((contrEquiv1 dot_S512x1024_S1024x512_S512x512_1_0_0_1_n_n 1024 rfl rfl).symm k) = ix2 p k := funext fun ax => Fin.ext (by
    match ax with
    | ⟨0, _⟩ => exact lhs_dot_0 _ _
    | ⟨1, _⟩ => exact (lhs_dot_1 _ _).trans hk)
  have er : dot_S512x1024_S1024x512_S512x512_1_0_0_1_n_n.rhsIdx (ix2 p q) ((contrEquiv1 dot_S512x1024_S1024x512_S512x512_1_0_0_1_n_n 1024 rfl rfl).symm k) = ix2 k q := funext fun ax => Fin.ext (by
    match ax with
    | ⟨0, _⟩ => exact (rhs_dot_0 _ _).trans hk
    | ⟨1, _⟩ => exact rhs_dot_1 _ _)
  rw [el, er]

/-- Region 1: entry (p, q) of the logits tile at grid point `i`: the row block's row p against the column block's
    row q, scaled by 1/τ, less B where the global row 512·i₀ + p is the global column 512·i₁ + q. -/
theorem tile_apply (i : grid1.Coords) (xr xc : Vec Ideal S512x1024 .bf16) (p q : Fin 512) :
    k1_pay11 (F := Ideal) i xr xc (ix2 p q)
      = (∑ k : Fin 1024, xr (ix2 p k) * xc (ix2 q k)) * Cert.Spec.invTau
        - (if 512 * (i 0).val + p.val = 512 * (i 1).val + q.val then Cert.Spec.big else 0) := by
  unfold k1_pay11
  rw [shapeCast_self xr, shapeCast_self xc]
  refine (subf_apply (φ := .f32) _ _ _).trans ?_
  refine congrArg₂ (· - ·) ?_ ?_
  · refine (mulf_apply (φ := .f32) _ _ _).trans ?_
    refine congrArg₂ (· * ·) ?_ ?_
    · refine (matmul_read xr _ p q).trans ?_
      refine Finset.sum_congr rfl fun k _ => ?_
      exact congrArg (xr (ix2 p k) * ·) (transpose_ix2_apply xc _ k q)
    · exact inv_tau
  · refine (select_apply _ _ _ _).trans ?_
    refine (select_of_iff _ _ (diag_bit i _ _ p q) _ _).trans ?_
    refine if_congr Iff.rfl rfl ?_
    exact Ideal.ofBits_zero_f32

/-- Region 1: the target mask is set at (p, q) exactly where the global column is the global row's partner. -/
theorem sel_apply (i : grid1.Coords) (p q : Fin 512) (hr : 512 * (i 0).val + p.val < 8192) :
    k1_pay12 i (ix2 p q) = 1#1 ↔ 512 * (i 1).val + q.val = (Cert.Spec.partner ⟨512 * (i 0).val + p.val, hr⟩).val := by
  unfold k1_pay12
  show IntOp.cmpi .eq (broadcastTo S512x512 (k1_pay10 i) _ (ix2 p q)) (broadcastTo S512x512 _ _ (ix2 p q)) = 1#1 ↔ _
  rw [broadcastTo_1b_ab_apply, Cert.Lib.Column.broadcastTo_a1_ab_apply, pay10_apply, cmpi_eq_one, ← BitVec.toNat_inj,
    word_toNat _ _ (coord1_lt i) q.isLt]
  have hw := partner_word (k1_pay9 i (ix2 p (0 : Fin 1))) (512 * (i 0).val + p.val) hr
    (by rw [pay9_apply]; exact word_toNat _ _ (coord0_lt i) p.isLt)
  exact ⟨fun h => h.trans hw, fun h => h.trans hw.symm⟩

end Cert.KernelIdeal.Payload

end
-- ==== Proof.KIValue0.lean ====
/-
  Region 0's output array after its 16 write-backs, on the extended reals: entry (r, k) is the unit row's entry
  X[r,k] / max(‖X[r,·]‖₂, ε), X the concatenated features the region finds in its input array.
-/
import proofs.«117302_j53961969107141_1_alg».proof.Proof.KIRegion0
import proofs.«117302_j53961969107141_1_alg».proof.Proof.KIPayloadA
import proofs.«117302_j53961969107141_1_alg».proof.Proof.Spec
import proofs.«117302_j53961969107141_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Payload

variable (V : (c : Dev nD) → (b : Ref sig .tc) → Buf (Elt Ideal) ((c : Thread nD τ).loc b))

/-- The offset of the one rectangle the body works through is zero on both axes. -/
theorem hz0 : (![0, 0] : Fin 2 → Nat) = fun _ => 0 :=
  funext fun a => by
    match a with
    | ⟨0, _⟩ => rfl
    | ⟨1, _⟩ => rfl

/-- The printed index maps, decided over the 16 points: point t's input block and output block are both block
    (t, 0) of their arrays. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The array the region leaves: at every index the unit-row entry of the array X. -/
def G0 (X : S8192x1024.Idx → EReal) : S8192x1024.Idx → EReal :=
  fun i => Cert.Spec.unit X ⟨(i 0).val, (i 0).isLt⟩ ⟨(i 1).val, (i 1).isLt⟩

/-- A 512-row block whose row p is row 512·T + p of X normalises to the unit rows 512·T + p of X: the sum of
    squares inside the norm runs over the same row on both sides. -/
theorem unit_of_block (X : S8192x1024.Idx → EReal) (x0 : Vec Ideal S512x1024 .f32) (T : ℕ) (hT : T < 16)
    (hx : ∀ (p : Fin 512) (k : Fin 1024), x0 (ix2 p k) = X (ix2 (⟨T * 512 + p.val, by omega⟩ : Fin 8192) k))
    (p : Fin 512) (k : Fin 1024) :
    k0_pay1 (F := Ideal) x0 (ix2 p k) = Cert.Spec.unit X ⟨T * 512 + p.val, by omega⟩ k := by
  rw [k0_pay1_apply]
  unfold Cert.Spec.unit Cert.Spec.rowNorm
  rw [hx p k]
  refine congrArg (Ideal.div _) ?_
  refine congrArg₂ max (congrArg Ideal.sqrt ?_) rfl
  exact Finset.sum_congr rfl fun k' _ => by rw [hx p k']

/-- The same at an array index whose coordinates are (512·T + p, q). -/
theorem point0 (X : S8192x1024.Idx → EReal) (x0 : Vec Ideal S512x1024 .f32) (T : ℕ) (hT : T < 16)
    (hx : ∀ (p : Fin 512) (k : Fin 1024), x0 (ix2 p k) = X (ix2 (⟨T * 512 + p.val, by omega⟩ : Fin 8192) k))
    (p : Fin 512) (q : Fin 1024) (i : S8192x1024.Idx) (h0 : (i 0).val = T * 512 + p.val) (h1 : (i 1).val = q.val) :
    k0_pay1 (F := Ideal) x0 (ix2 p q) = G0 X i := by
  have e0 : (⟨(i 0).val, (i 0).isLt⟩ : Fin 8192) = ⟨T * 512 + p.val, by omega⟩ := Fin.ext h0
  have e1 : (⟨(i 1).val, (i 1).isLt⟩ : Fin 1024) = q := Fin.ext h1
  unfold G0
  rw [e0, e1]
  exact unit_of_block X x0 T hT hx p q

/-- The input block of point t, read where its rectangle lies in the input array: entry (p, k) is the array's entry
    (512·t + p, k). -/
theorem iblk0_0_apply (c : Dev nD) (t : Fin cfg0.N) (ht : t.val < 16) (p : Fin 512) (k : Fin 1024) :
    iblk0 V c 0 t (ix2 p k) = V c main_v0 (ix2 (⟨t.val * 512 + p.val, by omega⟩ : Fin 8192) k) := by
  obtain ⟨e0, e1, e2, e3⟩ := idx_facts0 t
  show V c main_v0 (((cfg0.win 0).blk t).view.emb (ix2 p k)) = _
  refine congrArg (V c main_v0) ?_
  funext a; apply Fin.ext
  match a with
  | ⟨0, _⟩ => show win0_0.index t (0 : Fin 2) * 512 + 1 * p.val = t.val * 512 + p.val; omega
  | ⟨1, _⟩ => show win0_0.index t (1 : Fin 2) * 1024 + 1 * k.val = k.val; omega

/-- What point t writes back is block t of the array of unit rows: the stored block's entry (p, q) is the input
    block's row p normalised, the input block's row p is the array's row 512·t + p, and the output block lies over
    the same rows. -/
theorem flushed0_1_eq (c : Dev nD) (t : Fin cfg0.N) :
    (dat0 V c).flushed 1 t = ((cfg0.win 1).blk t).view.read (Elt Ideal) (G0 (V c main_v0)) := by
  show (cfg0.win 1).cut (grid0.coords t) ((dat0 V c).after 1 t) = _
  rw [after0_1]
  unfold out0_1
  rw [View.canon_unit_zero hz0]
  simp only [View.ld_unit_zero (S := S512x1024) hz0]
  obtain ⟨e0, e1, e2, e3⟩ := idx_facts0 t
  have ht : t.val < 16 := t.isLt
  funext y
  obtain ⟨p, q, rfl⟩ : ∃ (p : Fin 512) (q : Fin 1024), y = ix2 p q := ⟨y 0, y 1, eq_ix2 y⟩
  show k0_pay1 (F := Ideal) (iblk0 V c 0 t) (ix2 p q) = G0 (V c main_v0) (((cfg0.win 1).blk t).view.emb (ix2 p q))
  refine point0 (V c main_v0) (iblk0 V c 0 t) t.val ht (iblk0_0_apply V c t ht) p q _ ?_ ?_
  · show win0_1.index t (0 : Fin 2) * 512 + 1 * p.val = t.val * 512 + p.val; omega
  · show win0_1.index t (1 : Fin 2) * 1024 + 1 * q.val = q.val; omega

/-- An index of the output array is in point t's block iff each coordinate is in the block's range on its axis. -/
theorem mem_blk0_1 (t : Fin cfg0.N) (i : S8192x1024.Idx) :
    i ∈ ((cfg0.win 1).blk t).view.set ↔ ∀ a : Fin 2, win0_1.index t a * S512x1024.size a ≤ (i a).val ∧ (i a).val < win0_1.index t a * S512x1024.size a + S512x1024.size a := by
  show i ∈ ((View.whole main_v1).slice (win0_1.rect t)).set ↔ _
  rw [View.set_slice_whole, Rect.mem_set_unit]
  exact Iff.rfl

/-- Every index of the output array is written back by some point: row r lies in the block of point r / 512, whose 512
    rows are 512·(r/512) … 512·(r/512) + 511 and whose 1024 columns are all of them. -/
theorem covered0_1 (i : S8192x1024.Idx) :
    ∃ t : Fin cfg0.N, (cfg0.win 1).flush t = true ∧ i ∈ ((cfg0.win 1).blk t).view.set := by
  have hi0 : (i 0).val < 8192 := (i 0).isLt
  have hi1 : (i 1).val < 1024 := (i 1).isLt
  have hT : (i 0).val / 512 < 16 := by omega
  obtain ⟨e0, e1, e2, e3⟩ := idx_facts0 ⟨(i 0).val / 512, hT⟩
  have e2' : win0_1.index ⟨(i 0).val / 512, hT⟩ (0 : Fin 2) = (i 0).val / 512 := e2
  refine ⟨⟨(i 0).val / 512, hT⟩, flush0_1 _, ?_⟩
  rw [mem_blk0_1]
  intro a
  match a with
  | ⟨0, _⟩ =>
    show win0_1.index ⟨(i 0).val / 512, hT⟩ (0 : Fin 2) * 512 ≤ (i 0).val
      ∧ (i 0).val < win0_1.index ⟨(i 0).val / 512, hT⟩ (0 : Fin 2) * 512 + 512
    omega
  | ⟨1, _⟩ =>
    show win0_1.index ⟨(i 0).val / 512, hT⟩ (1 : Fin 2) * 1024 ≤ (i 1).val
      ∧ (i 1).val < win0_1.index ⟨(i 0).val / 512, hT⟩ (1 : Fin 2) * 1024 + 1024
    omega

/-- The output array after all 16 points is the array of unit rows. -/
theorem final0_1 (c : Dev nD) : (dat0 V c).arrAt 1 cfg0.N = G0 (V c main_v0) :=
  (dat0 V c).arrAt_eq_of_cover 1 (G0 (V c main_v0)) (fun t _ => flushed0_1_eq V c t) covered0_1

/-- After all 16 points, the output array holds the unit rows of the input array. -/
theorem arrAt0_1_apply (c : Dev nD) (r : Fin 8192) (k : Fin 1024) :
    (dat0 V c).arrAt 1 cfg0.N (ix2 r k) = Cert.Spec.unit (V c main_v0) r k := by
  rw [final0_1]
  rfl

end Cert.KernelIdeal.HandValue

end
-- ==== Proof.KIValue1a.lean ====
/-
  Region 1's logits array after its 256 write-backs, on the extended reals: entry (r, q) is the specification's
  logit, given that the region's input array holds the unit rows of X.
-/
import proofs.«117302_j53961969107141_1_alg».proof.Proof.KIRegion1
import proofs.«117302_j53961969107141_1_alg».proof.Proof.KIPayloadA
import proofs.«117302_j53961969107141_1_alg».proof.Proof.Spec
import proofs.«117302_j53961969107141_1_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Payload

variable (V : (c : Dev nD) → (b : Ref sig .tc) → Buf (Elt Ideal) ((c : Thread nD τ).loc b))

variable (X : (⟨2, ![8192, 1024]⟩ : Shape).Idx → EReal)

/-- The logits as one function of the array index. -/
def logitArr : S8192x8192.Idx → Elt Ideal .f32 :=
  fun i => Cert.Spec.logit X ⟨(i 0).val, idx2_lt0 i⟩ ⟨(i 1).val, idx2_lt1 i⟩

/-- One entry of a tile is the specification's logit: for a row block holding the unit row r at its row p and a column
    block holding the unit row c at its row q, with r = 512·i₀ + p and c = 512·i₁ + q, the tile's entry (p, q) is
    Σₖ unit[r,k]·unit[c,k] · (1/τ) − B·[r = c]. -/
theorem tile_logit (i : grid1.Coords) (xr xc : Vec Ideal S512x1024 .bf16) (p q : Fin 512) (r c : Fin 8192)
    (hr : r.val = 512 * (i 0).val + p.val) (hc : c.val = 512 * (i 1).val + q.val)
    (hxr : ∀ k : Fin 1024, xr (ix2 p k) = Cert.Spec.unit X r k) (hxc : ∀ k : Fin 1024, xc (ix2 q k) = Cert.Spec.unit X c k) :
    tile (F := Ideal) i xr xc (ix2 p q) = Cert.Spec.logit X r c := by
  unfold tile
  rw [tile_apply]
  unfold Cert.Spec.logit Cert.Spec.sim
  refine congrArg₂ (· - ·) (congrArg (· * Cert.Spec.invTau) (Finset.sum_congr rfl fun k _ => ?_)) (if_congr ?_ rfl rfl)
  · rw [hxr, hxc]
  · rw [Fin.ext_iff, hr, hc]

/-- The printed index maps over the grid: point t has row block t / 16 and column tile t % 16; the row window reads
    block (t / 16, 0), the column window block (t % 16, 0), the logits window writes block (t / 16, t % 16). -/
theorem idx_facts : ∀ t : Fin cfg1.N,
    win1_0.index t (0 : Fin 2) = t.val / 16 ∧ win1_0.index t (1 : Fin 2) = 0
    ∧ win1_1.index t (0 : Fin 2) = t.val % 16 ∧ win1_1.index t (1 : Fin 2) = 0
    ∧ win1_2.index t (0 : Fin 2) = t.val / 16 ∧ win1_2.index t (1 : Fin 2) = t.val % 16
    ∧ (grid1.coords t 0).val = t.val / 16 ∧ (grid1.coords t 1).val = t.val % 16 :=
  (by decide +kernel : ∀ t : Fin grid1.N, _)

/-- What point t writes back to the logits array is block t of the logits. -/
theorem flushed1_2_eq (c : Dev nD) (hN : ∀ (r : Fin 8192) (k : Fin 1024), V c main_v1 (ix2 r k) = Cert.Spec.unit X r k)
    (t : Fin cfg1.N) :
    (dat1 V c).flushed 2 t = ((cfg1.win 2).blk t).view.read (Elt Ideal) (logitArr X) := by
  show (cfg1.win 2).cut (grid1.coords t) ((dat1 V c).after 2 t) = _
  rw [after1_2]
  obtain ⟨e00, e01, e10, e11, e20, e21, g0, g1⟩ := idx_facts t
  have ht : t.val < 256 := lt_of_lt_of_eq t.isLt N_1
  funext y
  obtain ⟨p, q, rfl⟩ : ∃ (p : Fin 512) (q : Fin 512), y = ix2 p q := ⟨y 0, y 1, eq_ix2 y⟩
  show tile (grid1.coords t) (iblk1 V c 0 t) (iblk1 V c 1 t) (ix2 p q) = logitArr X (((cfg1.win 2).blk t).view.emb (ix2 p q))
  refine tile_logit X (grid1.coords t) _ _ p q _ _ ?_ ?_ (fun k => ?_) (fun k => ?_)
  · show win1_2.index t (0 : Fin 2) * 512 + 1 * p.val = 512 * (grid1.coords t 0).val + p.val
    omega
  · show win1_2.index t (1 : Fin 2) * 512 + 1 * q.val = 512 * (grid1.coords t 1).val + q.val
    omega
  · show V c main_v1 (((cfg1.win 0).blk t).view.emb (ix2 p k)) = _
    refine Eq.trans (congrArg (V c main_v1) ?_) (hN ⟨win1_2.index t (0 : Fin 2) * 512 + 1 * p.val, by have := p.isLt; omega⟩ k)
    funext a; apply Fin.ext
    match a with
    | ⟨0, _⟩ => show win1_0.index t (0 : Fin 2) * 512 + 1 * p.val = win1_2.index t (0 : Fin 2) * 512 + 1 * p.val; omega
    | ⟨1, _⟩ => show win1_0.index t (1 : Fin 2) * 1024 + 1 * k.val = k.val; omega
  · show V c main_v1 (((cfg1.win 1).blk t).view.emb (ix2 q k)) = _
    refine Eq.trans (congrArg (V c main_v1) ?_) (hN ⟨win1_2.index t (1 : Fin 2) * 512 + 1 * q.val, by have := q.isLt; omega⟩ k)
    funext a; apply Fin.ext
    match a with
    | ⟨0, _⟩ => show win1_1.index t (0 : Fin 2) * 512 + 1 * q.val = win1_2.index t (1 : Fin 2) * 512 + 1 * q.val; omega
    | ⟨1, _⟩ => show win1_1.index t (1 : Fin 2) * 1024 + 1 * k.val = k.val; omega

/-- An index of the logits array is in point t's block iff each coordinate is in the block's range on its axis. -/
theorem mem_blk1_2 (t : Fin cfg1.N) (i : S8192x8192.Idx) :
    i ∈ ((cfg1.win 2).blk t).view.set ↔ ∀ a : Fin 2, win1_2.index t a * S512x512.size a ≤ (i a).val ∧ (i a).val < win1_2.index t a * S512x512.size a + S512x512.size a := by
  show i ∈ ((View.whole main_v2_0).slice (win1_2.rect t)).set ↔ _
  rw [View.set_slice_whole, Rect.mem_set_unit]
  exact Iff.rfl

/-- Every index (r, q) of the logits array is in the block of the point 16·(r / 512) + q / 512. -/
theorem cover1_2 (i : S8192x8192.Idx) : ∃ t : Fin cfg1.N, (cfg1.win 2).flush t = true ∧ i ∈ ((cfg1.win 2).blk t).view.set := by
  have hi0 : (i 0).val < 8192 := idx2_lt0 i
  have hi1 : (i 1).val < 8192 := idx2_lt1 i
  have hlt : 16 * ((i 0).val / 512) + (i 1).val / 512 < cfg1.N := by rw [show cfg1.N = 256 from N_1]; omega
  refine ⟨⟨16 * ((i 0).val / 512) + (i 1).val / 512, hlt⟩, flush1_2 _, ?_⟩
  obtain ⟨-, -, -, -, e20, e21, -, -⟩ := idx_facts ⟨16 * ((i 0).val / 512) + (i 1).val / 512, hlt⟩
  rw [mem_blk1_2]
  intro a
  match a with
  | ⟨0, _⟩ =>
    show win1_2.index _ (0 : Fin 2) * 512 ≤ (i 0).val ∧ (i 0).val < win1_2.index _ (0 : Fin 2) * 512 + 512
    rw [e20]; show (16 * ((i 0).val / 512) + (i 1).val / 512) / 16 * 512 ≤ (i 0).val ∧ (i 0).val < (16 * ((i 0).val / 512) + (i 1).val / 512) / 16 * 512 + 512
    omega
  | ⟨1, _⟩ =>
    show win1_2.index _ (1 : Fin 2) * 512 ≤ (i 1).val ∧ (i 1).val < win1_2.index _ (1 : Fin 2) * 512 + 512
    rw [e21]; show (16 * ((i 0).val / 512) + (i 1).val / 512) % 16 * 512 ≤ (i 1).val ∧ (i 1).val < (16 * ((i 0).val / 512) + (i 1).val / 512) % 16 * 512 + 512
    omega

/-- After all 256 points, the logits array holds the specification's logits. -/
theorem arrAt1_2_apply (c : Dev nD) (hN : ∀ (r : Fin 8192) (k : Fin 1024), V c main_v1 (ix2 r k) = Cert.Spec.unit X r k)
    (r q : Fin 8192) :
    (dat1 V c).arrAt 2 cfg1.N (ix2 r q) = Cert.Spec.logit X r q := by
  rw [(dat1 V c).arrAt_eq_of_cover 2 (logitArr X) (fun t _ => flushed1_2_eq V X c hN t) cover1_2]
  rfl

end Cert.KernelIdeal.HandValue

end
-- ==== Proof.LibOnlineSoftmax.lean ====
/-
  The streaming ("online") soft-max of one row, against the two-pass one, on the extended reals.

  A row of 8192 real logits is read in 16 tiles of 512. The streaming form keeps a running maximum `m`, a running
  sum `l` of exponentials taken relative to the running maximum (rescaled by exp (m_old - m_new) whenever the
  maximum moves), and a running pick `t` of the logit at one chosen column `y`. The two-pass form subtracts the
  row maximum, exponentiates, sums, takes the logarithm. For real (finite) logits the two agree:
  (m + log l) - t = -((x y - R) - log (0 + Σ exp (x c - R))), with R the row maximum. The proof is the telescoping
  identity exp (x - m) · exp (m - m') = exp (x - m') on the reals; at the first tile the running maximum is -∞,
  exp (-∞) = 0 and the empty running sum is 0.
-/
import Idealize.ShloMosaic.PureOps.Ideal

noncomputable section

namespace Cert.Lib.OnlineSoftmax

open Idealize.ShloMosaic

/-- One tile of the streaming update, from the state `(m, l, t)`: `xj` the tile's 512 logits, `sj` marks the
    chosen column if it lies in this tile. -/
def tileStep (s : EReal × EReal × EReal) (xj : Fin 512 → EReal) (sj : Fin 512 → Bool) : EReal × EReal × EReal :=
  (max s.1 ((Finset.univ : Finset (Fin 512)).fold max ⊥ xj),
   s.2.1 * Ideal.exp (s.1 - max s.1 ((Finset.univ : Finset (Fin 512)).fold max ⊥ xj))
     + ∑ c : Fin 512, Ideal.exp (xj c - max s.1 ((Finset.univ : Finset (Fin 512)).fold max ⊥ xj)),
   s.2.2 + ∑ c : Fin 512, if sj c then xj c else 0)

/-- The state after the first `j` tiles, from `(-∞, 0, 0)`. -/
def stateAfter (X : Fin 16 → Fin 512 → EReal) (S : Fin 16 → Fin 512 → Bool) : ℕ → EReal × EReal × EReal
  | 0 => (⊥, 0, 0)
  | j + 1 => if h : j < 16 then tileStep (stateAfter X S j) (X ⟨j, h⟩) (S ⟨j, h⟩) else stateAfter X S j

/-- Column `512 j + c` of the row. -/
def col (j : Fin 16) (c : Fin 512) : Fin 8192 := ⟨512 * j.val + c.val, by have := j.isLt; have := c.isLt; omega⟩

/-- The coercion of a finite sum of reals is the sum of the coercions. -/
theorem coe_sum {ι : Type*} (s : Finset ι) (g : ι → ℝ) :
    ((∑ c ∈ s, g c : ℝ) : EReal) = ∑ c ∈ s, (g c : EReal) := by
  classical
  induction s using Finset.induction_on with
  | empty => simp
  | insert a s ha ih => rw [Finset.sum_insert ha, Finset.sum_insert ha, EReal.coe_add, ih]

/-- On real arguments the extended exponential of a difference is the real exponential of the difference. -/
theorem exp_coe_sub (a M : ℝ) :
    Ideal.exp ((a : EReal) - (M : EReal)) = ((Real.exp (a - M) : ℝ) : EReal) := by
  rw [← EReal.coe_sub, Ideal.exp_coe]

/-- Rescaling: a sum of exponentials taken relative to `M`, times exp (M - M'), is the sum taken relative to `M'`.
    Termwise this is exp (a - M) · exp (M - M') = exp (a - M'). -/
theorem sum_exp_rescale {ι : Type*} (s : Finset ι) (f : ι → ℝ) (M M' : ℝ) :
    (∑ c ∈ s, Ideal.exp ((f c : EReal) - (M : EReal))) * Ideal.exp ((M : EReal) - (M' : EReal))
      = ∑ c ∈ s, Ideal.exp ((f c : EReal) - (M' : EReal)) := by
  simp only [exp_coe_sub]
  rw [← coe_sum, ← coe_sum, ← EReal.coe_mul, Finset.sum_mul]
  congr 1
  refine Finset.sum_congr rfl fun c _ => ?_
  rw [← Real.exp_add]
  congr 1
  ring

/-- The supremum, in the extended reals, of finitely many reals (at least one) is one of them, hence real. -/
theorem sup_coe_eq_coe {ι : Type*} (s : Finset ι) (hs : s.Nonempty) (f : ι → ℝ) :
    ∃ R : ℝ, (s.sup fun c => (f c : EReal)) = (R : EReal) := by
  obtain ⟨i, _, hi⟩ := Finset.exists_mem_eq_sup s hs fun c => (f c : EReal)
  exact ⟨f i, hi⟩

/-- The streaming state that has read exactly the entries indexed by `P`: their supremum (`-∞` for none), the sum
    of their exponentials relative to that supremum, and the entry at `y` if `y ∈ P` (else `0`). -/
def stateOn {ι : Type*} [DecidableEq ι] (f : ι → ℝ) (y : ι) (P : Finset ι) : EReal × EReal × EReal :=
  (P.sup fun c => (f c : EReal),
   ∑ c ∈ P, Ideal.exp ((f c : EReal) - P.sup fun c => (f c : EReal)),
   ∑ c ∈ P, if c = y then (f c : EReal) else 0)

/-- One tile step carries the state on `P` to the state on `P` together with the tile's 512 new indices. -/
theorem tileStep_stateOn {ι : Type*} [DecidableEq ι] (f : ι → ℝ) (y : ι) (P : Finset ι)
    (e : Fin 512 → ι) (he : Function.Injective e) (hd : Disjoint P (Finset.univ.image e)) :
    tileStep (stateOn f y P) (fun c => (f (e c) : EReal)) (fun c => decide (e c = y))
      = stateOn f y (P ∪ Finset.univ.image e) := by
  have hfold : (Finset.univ : Finset (Fin 512)).fold max ⊥ (fun c => (f (e c) : EReal))
      = (Finset.univ.image e).sup fun c => (f c : EReal) := by
    rw [Finset.sup_image]; rfl
  have hm : max (P.sup fun c => (f c : EReal)) ((Finset.univ.image e).sup fun c => (f c : EReal))
      = (P ∪ Finset.univ.image e).sup fun c => (f c : EReal) := Finset.sup_union.symm
  unfold tileStep stateOn
  simp only [hfold, hm]
  refine Prod.ext rfl (Prod.ext ?_ ?_)
  · simp only
    rw [Finset.sum_union hd, Finset.sum_image (fun a _ b _ h => he h)]
    congr 1
    rcases P.eq_empty_or_nonempty with hP | hP
    · subst hP
      rw [Finset.sum_empty, Finset.sum_empty, zero_mul]
    · obtain ⟨M, hM⟩ := sup_coe_eq_coe P hP f
      obtain ⟨M', hM'⟩ := sup_coe_eq_coe (P ∪ Finset.univ.image e) (hP.mono Finset.subset_union_left) f
      rw [hM, hM']
      exact sum_exp_rescale P f M M'
  · simp only
    rw [Finset.sum_union hd, Finset.sum_image (fun a _ b _ h => he h)]
    simp only [decide_eq_true_eq]

/-- Within one tile, distinct lanes are distinct columns. -/
theorem col_injective (j : Fin 16) : Function.Injective (col j) := by
  intro a b h
  have hv := congrArg Fin.val h
  simp only [col] at hv
  exact Fin.ext (by omega)

/-- The columns below `512 (j + 1)` are those below `512 j` together with the columns of tile `j`. -/
theorem prefix_succ (j : ℕ) (h : j < 16) :
    (Finset.univ.filter fun c : Fin 8192 => c.val < 512 * (j + 1))
      = (Finset.univ.filter fun c : Fin 8192 => c.val < 512 * j) ∪ Finset.univ.image (col ⟨j, h⟩) := by
  ext c
  simp only [Finset.mem_filter, Finset.mem_univ, true_and, Finset.mem_union, Finset.mem_image]
  constructor
  · intro hc
    by_cases h1 : c.val < 512 * j
    · exact Or.inl h1
    · refine Or.inr ⟨⟨c.val - 512 * j, by omega⟩, Fin.ext ?_⟩
      simp only [col]
      omega
  · rintro (h1 | ⟨a, ha⟩)
    · omega
    · have hv := congrArg Fin.val ha
      simp only [col] at hv
      have := a.isLt
      omega

/-- The columns of tile `j` lie at or above `512 j`: none of them is among the columns below `512 j`. -/
theorem prefix_disjoint (j : ℕ) (h : j < 16) :
    Disjoint (Finset.univ.filter fun c : Fin 8192 => c.val < 512 * j) (Finset.univ.image (col ⟨j, h⟩)) := by
  rw [Finset.disjoint_left]
  intro c hc hc'
  simp only [Finset.mem_filter, Finset.mem_univ, true_and] at hc
  obtain ⟨a, _, ha⟩ := Finset.mem_image.mp hc'
  have hv := congrArg Fin.val ha
  simp only [col] at hv
  omega

/-- THE INVARIANT: after `j ≤ 16` tiles the streaming state is the state on the columns below `512 j`. At `j = 0`
    that set is empty: supremum `-∞`, both sums `0`. -/
theorem stateAfter_eq (x : Fin 8192 → ℝ) (y : Fin 8192) (j : ℕ) (hj : j ≤ 16) :
    stateAfter (fun j c => ((x (col j c) : ℝ) : EReal)) (fun j c => decide (col j c = y)) j
      = stateOn x y (Finset.univ.filter fun c : Fin 8192 => c.val < 512 * j) := by
  induction j with
  | zero =>
    have h0 : (Finset.univ.filter fun c : Fin 8192 => c.val < 512 * 0) = ∅ :=
      Finset.filter_eq_empty_iff.mpr fun c _ => by omega
    rw [h0]
    rfl
  | succ j ih =>
    have h : j < 16 := hj
    rw [stateAfter, dif_pos h, ih (le_of_lt h), prefix_succ j h]
    exact tileStep_stateOn x y _ (col ⟨j, h⟩) (col_injective _) (prefix_disjoint j h)

/-- THE IDENTITY: after all 16 tiles, the streaming form's (m + log l) - t is the two-pass form's negated
    log-soft-max at the chosen column `y`. -/
theorem online_eq_twopass (x : Fin 8192 → ℝ) (y : Fin 8192) :
    (stateAfter (fun j c => ((x (col j c) : ℝ) : EReal)) (fun j c => decide (col j c = y)) 16).1
        + Ideal.log (stateAfter (fun j c => ((x (col j c) : ℝ) : EReal)) (fun j c => decide (col j c = y)) 16).2.1
        - (stateAfter (fun j c => ((x (col j c) : ℝ) : EReal)) (fun j c => decide (col j c = y)) 16).2.2
      = -((((x y : ℝ) : EReal) - max ⊥ ((Finset.univ : Finset (Fin 8192)).fold max ⊥ fun c => ((x c : ℝ) : EReal)))
          - Ideal.log (0 + ∑ c : Fin 8192, Ideal.exp (((x c : ℝ) : EReal)
              - max ⊥ ((Finset.univ : Finset (Fin 8192)).fold max ⊥ fun c => ((x c : ℝ) : EReal))))) := by
  have hP : (Finset.univ.filter fun c : Fin 8192 => c.val < 512 * 16) = Finset.univ :=
    Finset.filter_true_of_mem fun c _ => c.isLt
  rw [stateAfter_eq x y 16 le_rfl, hP]
  -- the row maximum is a real number R; both forms subtract the same R
  obtain ⟨R, hR⟩ := sup_coe_eq_coe Finset.univ Finset.univ_nonempty x
  have hfold : (Finset.univ : Finset (Fin 8192)).fold max ⊥ (fun c => ((x c : ℝ) : EReal)) = (R : EReal) := hR
  simp only [stateOn]
  rw [hfold, hR, max_bot_left, zero_add, Finset.sum_ite_eq', if_pos (Finset.mem_univ y)]
  -- the sum of exponentials is a positive real L, so its logarithm is the real logarithm
  simp only [exp_coe_sub]
  rw [← coe_sum]
  have hL : 0 < ∑ c : Fin 8192, Real.exp (x c - R) :=
    Finset.sum_pos (fun c _ => Real.exp_pos _) Finset.univ_nonempty
  rw [Ideal.log_coe, if_neg (not_le.mpr hL)]
  -- what remains is R + log L - x y = -((x y - R) - log L) on the reals
  rw [← EReal.coe_add, ← EReal.coe_sub, ← EReal.coe_sub, ← EReal.coe_sub, ← EReal.coe_neg]
  exact congrArg Real.toEReal (by ring)

end Cert.Lib.OnlineSoftmax

end
-- ==== Proof.KIPayloadB.lean ====
/-
  The kernel bodies' arithmetic read at an index on the extended reals (2): one tile's update of a row's
  streaming soft-max state (maximum, sum of exponentials, target pick), its reset, and the loss entry.
-/
import proofs.«117302_j53961969107141_1_alg».proof.Proof.Gen.KernelIdeal.Skeleton
import proofs.«117302_j53961969107141_1_alg».proof.Proof.Spec
import proofs.«117302_j53961969107141_1_alg».proof.Proof.LibColumn
import proofs.«117302_j53961969107141_1_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

set_option maxRecDepth 16384

noncomputable section

namespace Cert.KernelIdeal.Payload

open Cert.KernelIdeal Cert.KernelIdeal.Gen
open Idealize.ShloMosaic Idealize.ShloMosaic.ValueIdx
open Cert.Lib.OnlineSoftmax

/-- A row's entry of the three state columns. -/
def rowState (s : FVec Ideal S512x1 .f32 × FVec Ideal S512x1 .f32 × FVec Ideal S512x1 .f32) (p : Fin 512) : EReal × EReal × EReal :=
  (s.1 (ix2 p (0 : Fin 1)), s.2.1 (ix2 p (0 : Fin 1)), s.2.2 (ix2 p (0 : Fin 1)))

/-- The f32 pattern of −∞ denotes the bottom of the extended reals. -/
theorem ofBits_ninf_f32 : Ideal.ofBits .f32 0xFF800000#32 = ⊥ := by simp [Ideal.ofBits, Ideal.ieee]

/-- A constant column under the identity cast reads the constant's value in every row. -/
theorem const_col_apply (b : BitVec 32) (h : S512x1.ShapeCasts S512x1) (i : S512x1.Idx) :
    shapeCast S512x1 (broadcast S512x1 (Scalar.ofBits (F := Ideal) .f32 b)) h i = Ideal.ofBits .f32 b := by
  rw [shapeCast_self]
  rfl

/-- A row maximum (a float `multi_reduction <maximumf>` over axis 1), read on the extended reals at row `i`: the
    fold of `max` from the accumulator's value over the row's `d` entries. -/
theorem rowMax_apply {φ : FTy} {a d : ℕ} (src : FVec Ideal ⟨2, ![a, d]⟩ φ) (acc : BitVec φ.bits)
    (h : (⟨2, ![a, d]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin d)).fold max (FloatOps.ofBits φ acc) (fun k => src (ix2 i k)) :=
  (Ideal.multiReduction_maximumf_single src acc h hφ hacc (ix1 i)).trans
    (congrArg (fun g => (Finset.univ : Finset (Fin d)).fold max (FloatOps.ofBits φ acc) g)
      (funext fun k => congrArg src (funext fun c => Fin.ext (by
        match c with
        | ⟨0, _⟩ => rfl
        | ⟨1, _⟩ => rfl))))

/-- A row sum kept as a column (`sum(…, axis=1, keepdims=True)`): at row `p` the sum of the row's entries. -/
theorem colSum_apply (src : FVec Ideal S512x512 .f32) (acc : BitVec 32) (h : S512x512.Reduces [1] S512)
    (hφ : FKind.Formats .f32) (hacc : acc = FKind.add.neutral .f32 hφ) (hc : S512.ShapeCasts S512x1) (p : Fin 512) :
    shapeCast S512x1 (multiReduction (F := Ideal) .add [1] S512 src acc h hφ hacc) hc (ix2 p (0 : Fin 1))
      = ∑ k : Fin 512, src (ix2 p k) :=
  (Cert.Lib.Column.shapeCast_a_a1_apply _ hc p 0).trans (Cert.Lib.Column.rowSum_apply src acc h hφ hacc p)

/-- The new running maximum of row `p`: the old one against the maximum of the tile's row. -/
theorem pay1_apply (v : FVec Ideal S512x512 .f32) (m : FVec Ideal S512x1 .f32) (p : Fin 512) :
    k1_pay1 (F := Ideal) v m (ix2 p (0 : Fin 1))
      = max (m (ix2 p (0 : Fin 1))) ((Finset.univ : Finset (Fin 512)).fold max ⊥ fun c => v (ix2 p c)) := by
  refine congrArg (max (m (ix2 p (0 : Fin 1)))) ?_
  refine (Cert.Lib.Column.shapeCast_a_a1_apply _ shapeCasts_S512_S512x1 p 0).trans ?_
  refine (rowMax_apply v _ reduces_S512x512_S512 _ _ p).trans ?_
  exact congrArg (fun b => (Finset.univ : Finset (Fin 512)).fold max b fun c => v (ix2 p c)) ofBits_ninf_f32

/-- `arith.select` against `0` on a one-bit condition, as a conditional on the decided bit. -/
theorem select_zero_decide (c : BitVec 1) (a : EReal) :
    Scalar.select c a 0 = if decide (c = 1#1) then a else 0 := by
  by_cases hc : c = 1#1
  · rw [hc, select_one, if_pos (decide_eq_true rfl)]
  · rw [eq_zero_of_ne_one hc, select_zero, if_neg]
    simp

/-- The reset columns are (−∞, 0, 0) in every row. -/
theorem reset_apply (p : Fin 512) :
    rowState (k1_pay6 (F := Ideal), k1_pay7 (F := Ideal), k1_pay8 (F := Ideal)) p = (⊥, 0, 0) := by
  refine Prod.ext ?_ (Prod.ext ?_ ?_)
  · exact (const_col_apply 0xFF800000#32 shapeCasts_S512x1_S512x1 (ix2 p (0 : Fin 1))).trans ofBits_ninf_f32
  · exact (const_col_apply 0x00000000#32 shapeCasts_S512x1_S512x1 (ix2 p (0 : Fin 1))).trans Ideal.ofBits_zero_f32
  · exact (const_col_apply 0x00000000#32 shapeCasts_S512x1_S512x1 (ix2 p (0 : Fin 1))).trans Ideal.ofBits_zero_f32

/-- One tile's update, row by row, is the streaming soft-max's tile step on that row of the tile `v`, the target
    mask `sel` marking the chosen column. -/
theorem step_apply (v : FVec Ideal S512x512 .f32) (sel : IVec S512x512 1)
    (s : FVec Ideal S512x1 .f32 × FVec Ideal S512x1 .f32 × FVec Ideal S512x1 .f32) (p : Fin 512) :
    rowState (k1_pay3 (F := Ideal) v s.1, k1_pay2 (F := Ideal) v s.1 s.2.1 s.1, k1_pay4 (F := Ideal) v sel (k1_pay13 (F := Ideal)) s.2.2) p
      = tileStep (rowState s p) (fun c => v (ix2 p c)) (fun c => decide (sel (ix2 p c) = 1#1)) := by
  have hP := pay1_apply v s.1 p
  refine Prod.ext ?_ (Prod.ext ?_ ?_)
  · -- the stored maximum column is the new maximum under an identity cast
    show k1_pay3 (F := Ideal) v s.1 (ix2 p (0 : Fin 1)) = _
    refine (congrFun (shapeCast_self (k1_pay1 (F := Ideal) v s.1) shapeCasts_S512x1_S512x1) (ix2 p (0 : Fin 1))).trans ?_
    exact hP
  · -- l · exp (m − m') + Σ_c exp (v_c − m'), with m' the new maximum broadcast along the row
    show k1_pay2 (F := Ideal) v s.1 s.2.1 s.1 (ix2 p (0 : Fin 1)) = _
    unfold k1_pay2
    refine (congrFun (shapeCast_self _ shapeCasts_S512x1_S512x1) (ix2 p (0 : Fin 1))).trans ?_
    refine (addf_apply _ _ _).trans ?_
    refine congrArg₂ (· + ·) ?_ ?_
    · refine (mulf_apply _ _ _).trans ?_
      refine congrArg (s.2.1 (ix2 p (0 : Fin 1)) * ·) ?_
      show Ideal.exp (s.1 (ix2 p (0 : Fin 1)) - k1_pay1 (F := Ideal) v s.1 (ix2 p (0 : Fin 1))) = _
      rw [hP]
      rfl
    · refine (colSum_apply _ _ reduces_S512x512_S512 _ _ shapeCasts_S512_S512x1 p).trans ?_
      refine Finset.sum_congr rfl fun c _ => ?_
      show Ideal.exp (v (ix2 p c) - broadcastTo S512x512 (k1_pay1 (F := Ideal) v s.1) broadcasts_S512x1_S512x512 (ix2 p c)) = _
      rw [Cert.Lib.Column.broadcastTo_a1_ab_apply _ broadcasts_S512x1_S512x512 p c, hP]
      rfl
  · -- t + Σ_c (v_c where the mask is set, else 0)
    show k1_pay4 (F := Ideal) v sel (k1_pay13 (F := Ideal)) s.2.2 (ix2 p (0 : Fin 1)) = _
    unfold k1_pay4
    refine (congrFun (shapeCast_self _ shapeCasts_S512x1_S512x1) (ix2 p (0 : Fin 1))).trans ?_
    refine (addf_apply _ _ _).trans ?_
    refine congrArg (s.2.2 (ix2 p (0 : Fin 1)) + ·) ?_
    refine (colSum_apply _ _ reduces_S512x512_S512 _ _ shapeCasts_S512_S512x1 p).trans ?_
    refine Finset.sum_congr rfl fun c _ => ?_
    refine (select_apply sel v _ (ix2 p c)).trans ?_
    have h0 : k1_pay13 (F := Ideal) (ix2 p c) = 0 := Ideal.ofBits_zero_f32
    rw [h0]
    exact select_zero_decide _ _

/-- The loss entry of row p: (m + log l) − t. -/
theorem loss_apply (s : FVec Ideal S512x1 .f32 × FVec Ideal S512x1 .f32 × FVec Ideal S512x1 .f32) (p : Fin 512) :
    k1_pay5 (F := Ideal) s.1 s.2.1 s.2.2 (ix2 p (0 : Fin 1))
      = (rowState s p).1 + Ideal.log (rowState s p).2.1 - (rowState s p).2.2 := by
  rfl

end Cert.KernelIdeal.Payload

end
-- ==== Proof.KIValue1b.lean ====
/-
  Region 1's loss column after its 256 points, on the extended reals: entry r is the specification's per-row loss,
  given that the region's input array holds the unit rows of X and that the logits are finite: the streaming
  soft-max over a row block's 16 column tiles is the two-pass one.
-/
import proofs.«117302_j53961969107141_1_alg».proof.Proof.KIRegion1
import proofs.«117302_j53961969107141_1_alg».proof.Proof.KIPayloadA
import proofs.«117302_j53961969107141_1_alg».proof.Proof.KIPayloadB
import proofs.«117302_j53961969107141_1_alg».proof.Proof.Spec
import proofs.«117302_j53961969107141_1_alg».proof.Proof.LibColumn
import proofs.«117302_j53961969107141_1_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.KernelIdeal.Payload

variable (V : (c : Dev nD) → (b : Ref sig .tc) → Buf (Elt Ideal) ((c : Thread nD τ).loc b))

open Cert.Lib.OnlineSoftmax

variable (X : (⟨2, ![8192, 1024]⟩ : Shape).Idx → EReal)

/-- Point `t` of the 16 × 16 grid, row-major: row block `t / 16`, column tile `t % 16`; the two input windows'
    block indices are (row block, 0) and (column tile, 0), the loss window's (row block, 0). -/
theorem idx_facts1 : ∀ t : Fin cfg1.N,
    (grid1.coords t 0).val = t.val / 16 ∧ (grid1.coords t 1).val = t.val % 16
    ∧ win1_0.index t (0 : Fin 2) = t.val / 16 ∧ win1_0.index t (1 : Fin 2) = 0
    ∧ win1_1.index t (0 : Fin 2) = t.val % 16 ∧ win1_1.index t (1 : Fin 2) = 0
    ∧ win1_3.index t (0 : Fin 2) = t.val / 16 ∧ win1_3.index t (1 : Fin 2) = 0 :=
  (by decide +kernel : ∀ t : Fin grid1.N, _)

/-- The row window's block at point `t` holds rows 512·(t/16) … of the array: entry (p, k) is the array's
    entry (512·(t/16) + p, k). -/
theorem iblk1_0_apply (c : Dev nD) (t : Fin cfg1.N) (p : Fin 512) (k : Fin 1024) (hr : 512 * (t.val / 16) + p.val < 8192) :
    (iblk1 V c 0 t : Vec Ideal S512x1024 .bf16) (ix2 p k) = V c main_v1 (ix2 ⟨512 * (t.val / 16) + p.val, hr⟩ k) := by
  obtain ⟨-, -, e0, e1, -⟩ := idx_facts1 t
  show V c main_v1 (((cfg1.win 0).blk t).view.emb (ix2 p k)) = _
  refine congrArg (V c main_v1) ?_
  funext a; apply Fin.ext
  match a with
  | ⟨0, _⟩ => show win1_0.index t (0 : Fin 2) * 512 + 1 * p.val = 512 * (t.val / 16) + p.val; omega
  | ⟨1, _⟩ => show win1_0.index t (1 : Fin 2) * 1024 + 1 * k.val = k.val; omega

/-- The column window's block at point `t` holds rows 512·(t%16) … of the same array. -/
theorem iblk1_1_apply (c : Dev nD) (t : Fin cfg1.N) (q : Fin 512) (k : Fin 1024) (hr : 512 * (t.val % 16) + q.val < 8192) :
    (iblk1 V c 1 t : Vec Ideal S512x1024 .bf16) (ix2 q k) = V c main_v1 (ix2 ⟨512 * (t.val % 16) + q.val, hr⟩ k) := by
  obtain ⟨-, -, -, -, e0, e1, -⟩ := idx_facts1 t
  show V c main_v1 (((cfg1.win 1).blk t).view.emb (ix2 q k)) = _
  refine congrArg (V c main_v1) ?_
  funext a; apply Fin.ext
  match a with
  | ⟨0, _⟩ => show win1_1.index t (0 : Fin 2) * 512 + 1 * q.val = 512 * (t.val % 16) + q.val; omega
  | ⟨1, _⟩ => show win1_1.index t (1 : Fin 2) * 1024 + 1 * k.val = k.val; omega

/-- The streaming state after one more tile. -/
theorem stateAfter_succ (Xf : Fin 16 → Fin 512 → EReal) (Sf : Fin 16 → Fin 512 → Bool) (j : ℕ) (h : j < 16) :
    stateAfter Xf Sf (j + 1) = tileStep (stateAfter Xf Sf j) (Xf ⟨j, h⟩) (Sf ⟨j, h⟩) := by
  rw [stateAfter, dif_pos h]

/-- The running state at a position depends on the position only. -/
theorem scAt1_congr (c : Dev nD) {n n' : ℕ} (h : n = n') (hn : n < cfg1.N) (hn' : n' < cfg1.N) :
    scAt1 V c n hn = scAt1 V c n' hn' := by
  subst h
  rfl

/-- ONE STEP AT A ROW. At grid coordinates (i, j), with the row block holding the unit rows 512·i + · and the column
    block the unit rows 512·j + ·, the update of row p is the streaming soft-max's tile step on the logits of row
    512·i + p against the columns of tile j, the partner column marked: the tile's entry (p, q) is
    sim · (1/τ) − B·[row = column], which is the logit, and the mask is set exactly at the partner. -/
theorem stepState_row (g : grid1.Coords) (xr xc : Vec Ideal S512x1024 .bf16) (s : St Ideal) (p : Fin 512)
    (i j : Fin 16) (hg0 : (g 0).val = i.val) (hg1 : (g 1).val = j.val) (hr : 512 * i.val + p.val < 8192)
    (hxr : ∀ k, xr (ix2 p k) = Cert.Spec.unit X ⟨512 * i.val + p.val, hr⟩ k)
    (hxc : ∀ (q : Fin 512) (k : Fin 1024), xc (ix2 q k) = Cert.Spec.unit X (col j q) k) :
    rowState (stepState g xr xc s) p
      = tileStep (rowState s p) (fun q => Cert.Spec.logit X ⟨512 * i.val + p.val, hr⟩ (col j q))
          (fun q => decide (col j q = Cert.Spec.partner ⟨512 * i.val + p.val, hr⟩)) := by
  have hrow : 512 * (g 0).val + p.val < 8192 := by rw [hg0]; exact hr
  have erow : (⟨512 * (g 0).val + p.val, hrow⟩ : Fin 8192) = ⟨512 * i.val + p.val, hr⟩ := Fin.ext (congrArg (fun n => 512 * n + p.val) hg0)
  refine (step_apply (tile g xr xc) (k1_pay12 g) s p).trans ?_
  refine congrArg₂ (tileStep (rowState s p)) (funext fun q => ?_) (funext fun q => ?_)
  · -- the tile's entry is the logit
    refine (tile_apply g xr xc p q).trans ?_
    unfold Cert.Spec.logit Cert.Spec.sim
    refine congrArg₂ (· - ·) (congrArg (· * Cert.Spec.invTau) (Finset.sum_congr rfl fun k _ => ?_)) (if_congr ?_ rfl rfl)
    · rw [hxr k, hxc q k]
    · rw [hg0, hg1, Fin.ext_iff]
      exact Iff.rfl
  · -- the mask is set exactly at the partner column
    refine decide_eq_decide.mpr ((sel_apply g p q hrow).trans ?_)
    rw [erow, hg1, Fin.ext_iff]
    exact Iff.rfl

/-- The same at the point 16·i + j of the grid, on the blocks the two input windows hold there. -/
theorem stepState_point (c : Dev nD) (hN : ∀ (r : Fin 8192) (k : Fin 1024), V c main_v1 (ix2 r k) = Cert.Spec.unit X r k)
    (i j : Fin 16) (p : Fin 512) (ht : 16 * i.val + j.val < cfg1.N) (hr : 512 * i.val + p.val < 8192) (s : St Ideal) :
    rowState (stepState (grid1.coords ⟨16 * i.val + j.val, ht⟩) (iblk1 V c 0 ⟨16 * i.val + j.val, ht⟩)
        (iblk1 V c 1 ⟨16 * i.val + j.val, ht⟩) s) p
      = tileStep (rowState s p) (fun q => Cert.Spec.logit X ⟨512 * i.val + p.val, hr⟩ (col j q))
          (fun q => decide (col j q = Cert.Spec.partner ⟨512 * i.val + p.val, hr⟩)) := by
  obtain ⟨g0, g1, -⟩ := idx_facts1 ⟨16 * i.val + j.val, ht⟩
  have hdiv : (16 * i.val + j.val) / 16 = i.val := by have := j.isLt; omega
  have hmod : (16 * i.val + j.val) % 16 = j.val := by have := j.isLt; omega
  refine stepState_row X _ _ _ s p i j (g0.trans hdiv) (g1.trans hmod) hr (fun k => ?_) (fun q k => ?_)
  · have hr' : 512 * ((16 * i.val + j.val) / 16) + p.val < 8192 := by rw [hdiv]; exact hr
    refine (iblk1_0_apply V c ⟨16 * i.val + j.val, ht⟩ p k hr').trans ?_
    have e : (⟨512 * ((16 * i.val + j.val) / 16) + p.val, hr'⟩ : Fin 8192) = ⟨512 * i.val + p.val, hr⟩ := Fin.ext (congrArg (fun n => 512 * n + p.val) hdiv)
    rw [e]
    exact hN _ k
  · have hq' : 512 * ((16 * i.val + j.val) % 16) + q.val < 8192 := by rw [hmod]; have := j.isLt; have := q.isLt; omega
    refine (iblk1_1_apply V c ⟨16 * i.val + j.val, ht⟩ q k hq').trans ?_
    have e : (⟨512 * ((16 * i.val + j.val) % 16) + q.val, hq'⟩ : Fin 8192) = col j q := Fin.ext (congrArg (fun n => 512 * n + q.val) hmod)
    rw [e]
    exact hN _ k

/-- THE INVARIANT along a row block, by induction on the column tile. -/
theorem scAt1_rowState_nat (c : Dev nD) (hN : ∀ (r : Fin 8192) (k : Fin 1024), V c main_v1 (ix2 r k) = Cert.Spec.unit X r k)
    (i : Fin 16) (p : Fin 512) (hr : 512 * i.val + p.val < 8192) :
    ∀ (j : ℕ) (hj : j < 16) (ht : 16 * i.val + j < cfg1.N),
      rowState (scAt1 V c (16 * i.val + j) ht) p
        = stateAfter (fun j' c' => Cert.Spec.logit X ⟨512 * i.val + p.val, hr⟩ (col j' c'))
            (fun j' c' => decide (col j' c' = Cert.Spec.partner ⟨512 * i.val + p.val, hr⟩)) (j + 1)
  | 0, hj, ht => by
    -- the first tile of the row block: one step from the reset state (−∞, 0, 0), the streaming form's start
    have h0 : (16 * i.val + 0) % 16 = 0 := by omega
    rw [stateAfter_succ _ _ 0 hj]
    refine (congrArg (fun s => rowState s p) (scAt1_reset V c ⟨16 * i.val + 0, ht⟩ h0)).trans ?_
    refine (stepState_point V X c hN i ⟨0, hj⟩ p ht hr resetState).trans ?_
    exact congrArg (fun σ => tileStep σ _ _) (reset_apply p)
  | j + 1, hj, ht => by
    -- a later tile: one step from what the tile before left
    have h0 : ¬(16 * i.val + (j + 1)) % 16 = 0 := by omega
    have ht' : 16 * i.val + j < cfg1.N := by omega
    rw [stateAfter_succ _ _ (j + 1) hj]
    refine (congrArg (fun s => rowState s p) (scAt1_step V c ⟨16 * i.val + (j + 1), ht⟩ h0)).trans ?_
    refine (stepState_point V X c hN i ⟨j + 1, hj⟩ p ht hr _).trans ?_
    refine congrArg (fun σ => tileStep σ _ _) ?_
    rw [scAt1_congr V c (show 16 * i.val + (j + 1) - 1 = 16 * i.val + j by omega) _ ht']
    exact scAt1_rowState_nat c hN i p hr j (by omega) ht'

/-- The running state of row p of row block i after column tile j (0 ≤ j ≤ 15), i.e. after point 16·i + j, is the
    streaming soft-max's state after j + 1 tiles of row 512·i + p of the logits, the partner column chosen. -/
theorem scAt1_rowState (c : Dev nD) (hN : ∀ (r : Fin 8192) (k : Fin 1024), V c main_v1 (ix2 r k) = Cert.Spec.unit X r k)
    (i : Fin 16) (j : Fin 16) (p : Fin 512) (ht : 16 * i.val + j.val < cfg1.N) (hr : 512 * i.val + p.val < 8192) :
    rowState (scAt1 V c (16 * i.val + j.val) ht) p
      = stateAfter (fun j' c' => Cert.Spec.logit X ⟨512 * i.val + p.val, hr⟩ (col j' c'))
          (fun j' c' => decide (col j' c' = Cert.Spec.partner ⟨512 * i.val + p.val, hr⟩)) (j.val + 1) := by
  exact scAt1_rowState_nat V X c hN i p hr j.val j.isLt ht

/-- FINITE LOGITS: for a row `f` of extended reals every entry of which is a real number, the streaming form's
    (m + log l) − t after all 16 tiles is the two-pass negated log-soft-max at `y`. The real representatives are
    chosen once; on them this is the streaming/two-pass identity. -/
theorem stream_eq_twopass_of_real (f : Fin 8192 → EReal) (y : Fin 8192) (hf : ∀ q, ∃ z : ℝ, f q = (z : EReal)) :
    (stateAfter (fun j c => f (col j c)) (fun j c => decide (col j c = y)) 16).1
        + Ideal.log (stateAfter (fun j c => f (col j c)) (fun j c => decide (col j c = y)) 16).2.1
        - (stateAfter (fun j c => f (col j c)) (fun j c => decide (col j c = y)) 16).2.2
      = -((f y - max ⊥ ((Finset.univ : Finset (Fin 8192)).fold max ⊥ fun c => f c))
          - Ideal.log (0 + ∑ c : Fin 8192, Ideal.exp (f c - max ⊥ ((Finset.univ : Finset (Fin 8192)).fold max ⊥ fun c => f c)))) := by
  obtain ⟨x, hx⟩ : ∃ x : Fin 8192 → ℝ, ∀ q, f q = (x q : EReal) :=
    ⟨fun q => Classical.choose (hf q), fun q => Classical.choose_spec (hf q)⟩
  obtain rfl : f = fun q => (x q : EReal) := funext hx
  exact online_eq_twopass x y

/-- The loss entry of row p after the last column tile of row block i is the specification's loss of row 512·i + p. -/
theorem loss_row (c : Dev nD) (hN : ∀ (r : Fin 8192) (k : Fin 1024), V c main_v1 (ix2 r k) = Cert.Spec.unit X r k)
    (hreal : ∀ r q : Fin 8192, ∃ z : ℝ, Cert.Spec.logit X r q = (z : EReal))
    (i : Fin 16) (p : Fin 512) (ht : 16 * i.val + 15 < cfg1.N) (hr : 512 * i.val + p.val < 8192) :
    lossOf (scAt1 V c (16 * i.val + 15) ht) (ix2 p (0 : Fin 1)) = Cert.Spec.perExample X ⟨512 * i.val + p.val, hr⟩ := by
  have h15 : rowState (scAt1 V c (16 * i.val + 15) ht) p
      = stateAfter (fun j' c' => Cert.Spec.logit X ⟨512 * i.val + p.val, hr⟩ (col j' c'))
          (fun j' c' => decide (col j' c' = Cert.Spec.partner ⟨512 * i.val + p.val, hr⟩)) 16 :=
    scAt1_rowState V X c hN i ⟨15, by omega⟩ p ht hr
  refine (loss_apply (scAt1 V c (16 * i.val + 15) ht) p).trans ?_
  rw [h15]
  unfold Cert.Spec.perExample Cert.Spec.rowMax
  exact stream_eq_twopass_of_real (Cert.Spec.logit X ⟨512 * i.val + p.val, hr⟩) (Cert.Spec.partner ⟨512 * i.val + p.val, hr⟩)
    (hreal ⟨512 * i.val + p.val, hr⟩)

/-- The loss column the specification prescribes, as a whole 8192 × 1 array. -/
def lossCol : S8192x1.Idx → EReal := fun i => Cert.Spec.perExample X ⟨(i 0).val, idx2_lt0 i⟩

/-- WHAT A WRITING-BACK POINT WRITES: at a point t ≡ 15 (mod 16) the loss window's block is block t/16 of the
    specification's loss column. -/
theorem flushed1_3_eq (c : Dev nD) (hN : ∀ (r : Fin 8192) (k : Fin 1024), V c main_v1 (ix2 r k) = Cert.Spec.unit X r k)
    (hreal : ∀ r q : Fin 8192, ∃ z : ℝ, Cert.Spec.logit X r q = (z : EReal))
    (t : Fin cfg1.N) (hf : (cfg1.win 3).flush t = true) :
    (dat1 V c).flushed 3 t = ((cfg1.win 3).blk t).view.read (Elt Ideal) (lossCol X) := by
  have h15 : t.val % 16 = 15 := (flush1_3 t).mp hf
  have hlt : t.val < 256 := lt_of_lt_of_eq t.isLt (show cfg1.N = 256 from N_1)
  obtain ⟨-, -, -, -, -, -, e0, e1⟩ := idx_facts1 t
  show (cfg1.win 3).cut (grid1.coords t) ((dat1 V c).after 3 t) = _
  rw [after1_3]
  funext y
  obtain ⟨p, u, rfl⟩ : ∃ (p : Fin 512) (u : Fin 1), y = ix2 p u := ⟨y 0, y 1, eq_ix2 y⟩
  obtain rfl : u = 0 := Subsingleton.elim _ _
  show lossOf (scAt1 V c t.val t.isLt) (ix2 p (0 : Fin 1)) = lossCol X (((cfg1.win 3).blk t).view.emb (ix2 p (0 : Fin 1)))
  have hi : t.val / 16 < 16 := by omega
  have ht' : 16 * (t.val / 16) + 15 < cfg1.N := lt_of_lt_of_eq (by omega : 16 * (t.val / 16) + 15 < 256) (show (256 : ℕ) = cfg1.N from N_1.symm)
  have hr : 512 * (t.val / 16) + p.val < 8192 := by have := p.isLt; omega
  rw [scAt1_congr V c (show t.val = 16 * (t.val / 16) + 15 by omega) t.isLt ht']
  refine (loss_row V X c hN hreal ⟨t.val / 16, hi⟩ p ht' hr).trans ?_
  unfold lossCol
  refine congrArg (Cert.Spec.perExample X) (Fin.ext ?_)
  show 512 * (t.val / 16) + p.val = win1_3.index t (0 : Fin 2) * 512 + 1 * p.val
  omega

/-- An index of the loss column is in point t's block iff each coordinate is in the block's range on its axis. -/
theorem mem_blk1_3 (t : Fin cfg1.N) (i : S8192x1.Idx) :
    i ∈ ((cfg1.win 3).blk t).view.set
      ↔ ∀ a : Fin 2, win1_3.index t a * S512x1.size a ≤ (i a).val ∧ (i a).val < win1_3.index t a * S512x1.size a + S512x1.size a := by
  show i ∈ ((View.whole main_v2_1).slice (win1_3.rect t)).set ↔ _
  rw [View.set_slice_whole, Rect.mem_set_unit]
  exact Iff.rfl

/-- After all 256 points, the loss column holds the specification's per-row loss. -/
theorem arrAt1_3_apply (c : Dev nD) (hN : ∀ (r : Fin 8192) (k : Fin 1024), V c main_v1 (ix2 r k) = Cert.Spec.unit X r k)
    (hreal : ∀ r q : Fin 8192, ∃ z : ℝ, Cert.Spec.logit X r q = (z : EReal)) (r : Fin 8192) :
    (dat1 V c).arrAt 3 cfg1.N (ix2 r (0 : Fin 1)) = Cert.Spec.perExample X r := by
  -- row r lies in row block r / 512, whose loss block is written back at the block's last point 16·(r/512) + 15
  have hrlt : r.val < 8192 := r.isLt
  have htlt : 16 * (r.val / 512) + 15 < cfg1.N :=
    lt_of_lt_of_eq (by omega : 16 * (r.val / 512) + 15 < 256) (show (256 : ℕ) = cfg1.N from N_1.symm)
  have hf : (cfg1.win 3).flush ⟨16 * (r.val / 512) + 15, htlt⟩ = true :=
    (flush1_3 ⟨16 * (r.val / 512) + 15, htlt⟩).mpr (by show (16 * (r.val / 512) + 15) % 16 = 15; omega)
  have hi : (ix2 r (0 : Fin 1) : S8192x1.Idx) ∈ ((cfg1.win 3).blk ⟨16 * (r.val / 512) + 15, htlt⟩).view.set := by
    rw [mem_blk1_3]
    obtain ⟨-, -, -, -, -, -, e0, e1⟩ := idx_facts1 ⟨16 * (r.val / 512) + 15, htlt⟩
    have e0' : win1_3.index ⟨16 * (r.val / 512) + 15, htlt⟩ (0 : Fin 2) = r.val / 512 := by
      rw [e0]; show (16 * (r.val / 512) + 15) / 16 = r.val / 512; omega
    intro a
    match a with
    | ⟨0, _⟩ =>
      show win1_3.index ⟨16 * (r.val / 512) + 15, htlt⟩ (0 : Fin 2) * 512 ≤ r.val
        ∧ r.val < win1_3.index ⟨16 * (r.val / 512) + 15, htlt⟩ (0 : Fin 2) * 512 + 512
      rw [e0']; omega
    | ⟨1, _⟩ =>
      show win1_3.index ⟨16 * (r.val / 512) + 15, htlt⟩ (1 : Fin 2) * 1 ≤ 0
        ∧ 0 < win1_3.index ⟨16 * (r.val / 512) + 15, htlt⟩ (1 : Fin 2) * 1 + 1
      rw [e1]; omega
  exact (dat1 V c).arrAt_apply_of_mem 3 (lossCol X) (fun t hft => flushed1_3_eq V X c hN hreal t hft) cfg1.N
    ⟨16 * (r.val / 512) + 15, htlt⟩ (ix2 r (0 : Fin 1)) htlt hf hi

end Cert.KernelIdeal.HandValue

end
-- ==== Proof.RefRun.lean ====
/-
  The reference program's run: every weakly fair execution of its 92 host operations terminates with each result
  buffer at its stage (the operation-by-operation functions of the arguments) and the arguments unchanged. The
  final valuation is the fold of the operations' results over the launch contents; each result buffer is read
  off that fold stage by stage.
-/
import proofs.«117302_j53961969107141_1_alg».proof.Proof.RefRunP
import proofs.«117302_j53961969107141_1_alg».proof.Proof.RefReadP
import Idealize.ShloMosaic.Lib.StableHlo.Run

noncomputable section

namespace Cert.ReferenceIdeal.RunHand

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

/-! ## The loss buffer, by stretches

The 92 operations are cut at the call boundaries into four stretches: the 37 operations up to the labels and
weights, the 15 of the log-soft-max, the 23 of the take along the columns, and the last 17. The fold over a
concatenation is the composition of the folds, so the final valuation is reached through three intermediate ones;
of each only a few buffers matter: the ones a later stretch reads. Per stretch, over ANY valuation it starts from,
one lemma reads its result buffer as the stage, given that the buffers it reads hold their stages; the buffers
that only pass through a stretch are not written by it. Each composed term is as small as its stretch. -/

/-- Running a line and then another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Contents moved to a typed reference's buffer type and back are the contents: the two transports are along an
    equation and its inverse. -/
theorem ofBuf_toBuf {T : BufTy} (x : TRef sig T) (v : T.Contents (Elt F)) : x.ofBuf (x.toBuf v) = v := by
  obtain ⟨r, h, _, _⟩ := x
  subst h
  rfl

/-- The operations up to the labels (main_v22) and the weights (main_v26): the logits among them. -/
def segP : List (HloOp τ sig (Elt F)) := (ops (F := F)).take 37
/-- The log-soft-max's. -/
def segC : List (HloOp τ sig (Elt F)) := ((ops (F := F)).drop 37).take 15
/-- The broadcast of the labels to a column and the take along the columns. -/
def segD : List (HloOp τ sig (Elt F)) := ((ops (F := F)).drop 52).take 23
/-- From the reshape of the taken column to the loss. -/
def segE : List (HloOp τ sig (Elt F)) := (ops (F := F)).drop 75

theorem ops_split : (ops (F := F)) = segP ++ (segC ++ (segD ++ segE)) := rfl

section Stretches

variable (V : Valuation τ sig (Elt F))

set_option maxRecDepth 100000 in
/-- After the first stretch the logits buffer is its stage of the two float arguments' contents. -/
theorem segP_v18 :
    after (segP (F := F)) V (Proc.devRef .tc main_v18)
      = val_main_v18 (F := F) (V (Proc.devRef .tc main_arg0)) (V (Proc.devRef .tc main_arg1)) := by
  simp only [segP, ops, List.take_succ_cons, List.take_zero]
  after_results_simp
  simp only [ofBuf_toBuf]
  rfl

set_option maxRecDepth 100000 in
/-- After the first stretch the label buffer is its stage. -/
theorem segP_v22 : after (segP (F := F)) V (Proc.devRef .tc main_v22) = val_main_v22 (F := F) := by
  simp only [segP, ops, List.take_succ_cons, List.take_zero]
  after_results_simp
  rfl

set_option maxRecDepth 100000 in
/-- After the first stretch the weight buffer is its stage of the integer argument's contents. -/
theorem segP_v26 :
    after (segP (F := F)) V (Proc.devRef .tc main_v26) = val_main_v26 (F := F) (V (Proc.devRef .tc main_arg2)) := by
  simp only [segP, ops, List.take_succ_cons, List.take_zero]
  after_results_simp
  rfl

set_option maxRecDepth 100000 in
/-- The log-soft-max stretch: from the logits' stage to the log-soft-max's. -/
theorem segC_v27 (x0 x1 : (⟨S4096x1024, .f32⟩ : BufTy).Contents (Elt F))
    (h18 : V (Proc.devRef .tc main_v18) = val_main_v18 (F := F) x0 x1) :
    after (segC (F := F)) V (Proc.devRef .tc main_v27) = val_main_v27 (F := F) x0 x1 := by
  simp only [segC, ops, List.drop_succ_cons, List.drop_zero, List.take_succ_cons, List.take_zero]
  after_results_simp
  simp only [ofBuf_toBuf]
  rw [h18]
  rfl

set_option maxRecDepth 100000 in
/-- It writes neither the labels … -/
theorem segC_v22 : after (segC (F := F)) V (Proc.devRef .tc main_v22) = V (Proc.devRef .tc main_v22) := by
  simp only [segC, ops, List.drop_succ_cons, List.drop_zero, List.take_succ_cons, List.take_zero]
  after_results_simp

set_option maxRecDepth 100000 in
/-- … nor the weights. -/
theorem segC_v26 : after (segC (F := F)) V (Proc.devRef .tc main_v26) = V (Proc.devRef .tc main_v26) := by
  simp only [segC, ops, List.drop_succ_cons, List.drop_zero, List.take_succ_cons, List.take_zero]
  after_results_simp

set_option maxRecDepth 100000 in
/-- The take stretch: from the log-soft-max's and the labels' stages to the taken column's. -/
theorem segD_v29 (x0 x1 : (⟨S4096x1024, .f32⟩ : BufTy).Contents (Elt F))
    (h27 : V (Proc.devRef .tc main_v27) = val_main_v27 (F := F) x0 x1)
    (h22 : V (Proc.devRef .tc main_v22) = val_main_v22 (F := F)) :
    after (segD (F := F)) V (Proc.devRef .tc main_v29) = val_main_v29 (F := F) x0 x1 := by
  simp only [segD, ops, List.drop_succ_cons, List.drop_zero, List.take_succ_cons, List.take_zero]
  after_results_simp
  simp only [ofBuf_toBuf]
  rw [h27, h22]
  rfl

set_option maxRecDepth 100000 in
/-- It writes neither the labels … -/
theorem segD_v22 : after (segD (F := F)) V (Proc.devRef .tc main_v22) = V (Proc.devRef .tc main_v22) := by
  simp only [segD, ops, List.drop_succ_cons, List.drop_zero, List.take_succ_cons, List.take_zero]
  after_results_simp

set_option maxRecDepth 100000 in
/-- … nor the weights. -/
theorem segD_v26 : after (segD (F := F)) V (Proc.devRef .tc main_v26) = V (Proc.devRef .tc main_v26) := by
  simp only [segD, ops, List.drop_succ_cons, List.drop_zero, List.take_succ_cons, List.take_zero]
  after_results_simp

set_option maxRecDepth 100000 in
/-- The last stretch: from the taken column's, the labels' and the weights' stages to the loss's. -/
theorem segE_v42 (x0 x1 : (⟨S4096x1024, .f32⟩ : BufTy).Contents (Elt F)) (x2 : (⟨S4096, .i32⟩ : BufTy).Contents (Elt F))
    (h29 : V (Proc.devRef .tc main_v29) = val_main_v29 (F := F) x0 x1)
    (h22 : V (Proc.devRef .tc main_v22) = val_main_v22 (F := F))
    (h26 : V (Proc.devRef .tc main_v26) = val_main_v26 (F := F) x2) :
    after (segE (F := F)) V (Proc.devRef .tc main_v42) = val_main_v42 (F := F) x0 x1 x2 := by
  simp only [segE, ops, List.drop_succ_cons, List.drop_zero]
  after_results_simp
  rw [h29, h22, h26]
  rfl

end Stretches

/-- The loss buffer after the 92 operations is its stage. -/
theorem after_v42 :
    after (ops (F := F)) (launchContents m c) (Proc.devRef .tc main_v42)
      = val_main_v42 (F := F) (m ((c.tc : Thread nD τ).loc main_arg0)) (m ((c.tc : Thread nD τ).loc main_arg1)) (m ((c.tc : Thread nD τ).loc main_arg2)) := by
  rw [ops_split, after_append, after_append, after_append]
  refine segE_v42 _ (m ((c.tc : Thread nD τ).loc main_arg0)) (m ((c.tc : Thread nD τ).loc main_arg1))
    (m ((c.tc : Thread nD τ).loc main_arg2)) ?_ ?_ ?_
  · refine segD_v29 _ _ _ ?_ ?_
    · exact segC_v27 _ _ _ (segP_v18 _)
    · rw [segC_v22]; exact segP_v22 _
  · rw [segD_v22, segC_v22]; exact segP_v22 _
  · rw [segD_v26, segC_v26]; exact segP_v26 _

/-- The logits buffer after the 92 operations is its stage. -/
theorem after_v18 :
    after (ops (F := F)) (launchContents m c) (Proc.devRef .tc main_v18)
      = val_main_v18 (F := F) (m ((c.tc : Thread nD τ).loc main_arg0)) (m ((c.tc : Thread nD τ).loc main_arg1)) := by
  -- each operation's result is read off at its own buffer and passed over at every other; what is left is the
  -- composition of the 27 operations up to the logits, which is the stage by unfolding its definition
  after_results_simp
  rfl

/-- The partner-index buffer after the 92 operations is its stage. -/
theorem after_v22 :
    after (ops (F := F)) (launchContents m c) (Proc.devRef .tc main_v22) = val_main_v22 (F := F) := by
  after_results_simp
  rfl

/-- No operation writes an argument. -/
theorem after_arg0 : after (ops (F := F)) (launchContents m c) (Proc.devRef .tc main_arg0) = m ((c.tc : Thread nD τ).loc main_arg0) := by
  -- every operation writes a buffer other than this one, so the fold leaves the launch contents there
  after_results_simp
theorem after_arg1 : after (ops (F := F)) (launchContents m c) (Proc.devRef .tc main_arg1) = m ((c.tc : Thread nD τ).loc main_arg1) := by
  after_results_simp
theorem after_arg2 : after (ops (F := F)) (launchContents m c) (Proc.devRef .tc main_arg2) = m ((c.tc : Thread nD τ).loc main_arg2) := by
  after_results_simp

/-- THE RUN, for any float values, from any memory with zero counters. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v42) = val_main_v42 (F := F) (m ((c.tc : Thread nD τ).loc main_arg0)) (m ((c.tc : Thread nD τ).loc main_arg1)) (m ((c.tc : Thread nD τ).loc main_arg2))
      ∧ r.2.mem ((c.tc : Thread nD τ).loc main_v18) = val_main_v18 (F := F) (m ((c.tc : Thread nD τ).loc main_arg0)) (m ((c.tc : Thread nD τ).loc main_arg1))
      ∧ r.2.mem ((c.tc : Thread nD τ).loc main_v22) = val_main_v22 (F := F)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v42).trans (after_v42 m c), (h c main_v18).trans (after_v18 m c), (h c main_v22).trans (after_v22 m c),
      (h c main_arg0).trans (after_arg0 m c), (h c main_arg1).trans (after_arg1 m c), (h c main_arg2).trans (after_arg2 m c)⟩)
    (run_seq scopedRefs_eq scopedSems_eq defs main (fun _ => ops) main_eq (fun _ => ops_sub) m ρ)

end Cert.ReferenceIdeal.RunHand

end
-- ==== Proof.RefValue.lean ====
/-
  The reference program's results, read on the extended reals, are the specification's functions of the
  concatenated feature array: its logits array is `Spec.logit`, and its per-row loss (the negated gather of
  the log-soft-max at the partner column) is `Spec.perExample`.
-/
import proofs.«117302_j53961969107141_1_alg».proof.Proof.RefRunP
import proofs.«117302_j53961969107141_1_alg».proof.Proof.RefReadP
import proofs.«117302_j53961969107141_1_alg».proof.Proof.Spec
import proofs.«117302_j53961969107141_1_alg».proof.Proof.LibColumn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.ReadP
open Idealize.ShloMosaic Idealize.ShloMosaic.ValueIdx

variable (x0 x1 : (⟨S4096x1024, .f32⟩ : BufTy).Contents (Elt Ideal))

/-! ## Words and constants -/

/-- The temperature's word 0x3D4CCCCD denotes the rational 13421773 / 2^28 (the float nearest 0.05). -/
theorem tau_word : Ideal.ofBits .f32 0x3D4CCCCD#32 = ((13421773 / 268435456 : ℝ) : EReal) := by
  simp [Ideal.ofBits, Ideal.ieee, -EReal.coe_mul]; norm_num

/-- The word 0xFF800000 denotes −∞, the bottom of the extended reals. -/
theorem neg_inf_word : Ideal.ofBits .f32 0xFF800000#32 = ⊥ := by
  simp [Ideal.ofBits, Ideal.ieee]

/-- Dividing by the temperature is multiplying by its exact reciprocal 2^28 / 13421773, at the infinities too:
    the divisor is a nonzero real. -/
theorem div_tau (s : EReal) : Ideal.div s (Ideal.ofBits .f32 0x3D4CCCCD#32) = s * Cert.Spec.invTau := by
  rw [tau_word, Ideal.div_coe (by norm_num)]
  unfold Cert.Spec.invTau
  congr 2
  norm_num

/-- The diagonal indicator times B. Row and column numbers are below 2^32, so their 32-bit words are equal exactly
    when the numbers are; the one-bit answer read unsigned is 1 or 0, and 1 · B = B, 0 · B = 0 on the extended reals. -/
theorem eye_word (r c : Fin 8192) (B : EReal) :
    FloatOps.uitofp (F := Ideal) .f32
        (IntOp.cmpi .eq (IntOp.addi (BitVec.ofNat 32 r.val) 0#32) (BitVec.ofNat 32 c.val)) * B
      = if r = c then B else 0 := by
  have h0 : IntOp.addi (BitVec.ofNat 32 r.val) 0#32 = BitVec.ofNat 32 r.val := by
    show BitVec.ofNat 32 r.val + 0#32 = _
    simp
  rw [h0]
  by_cases hrc : r = c
  · subst hrc
    rw [if_pos rfl, StableHlo.Predicate.cmpi_eq_iff.mpr rfl]
    show (((1#1 : BitVec 1).toNat : ℝ) : EReal) * B = B
    simp
  · rw [if_neg hrc]
    have hne : IntOp.cmpi .eq (BitVec.ofNat 32 r.val) (BitVec.ofNat 32 c.val) = 0#1 := by
      apply eq_zero_of_ne_one
      rw [StableHlo.Predicate.cmpi_eq_iff]
      intro h
      apply hrc
      have hv := congrArg BitVec.toNat h
      simp only [BitVec.toNat_ofNat] at hv
      rw [Nat.mod_eq_of_lt (by have := r.isLt; omega), Nat.mod_eq_of_lt (by have := c.isLt; omega)] at hv
      exact Fin.ext hv
    rw [hne]
    show (((0#1 : BitVec 1).toNat : ℝ) : EReal) * B = 0
    simp

/-- A small natural's 32-bit word has that natural as its value. -/
theorem word_toNat (p : ℕ) (hp : p < 8192) : (BitVec.ofNat 32 p).toNat = p := by
  rw [BitVec.toNat_ofNat]; exact Nat.mod_eq_of_lt (by omega)

/-- It is not negative … -/
theorem word_not_neg (p : ℕ) (hp : p < 8192) : IntOp.cmpi .slt (BitVec.ofNat 32 p) 0#32 = 0#1 := by
  apply eq_zero_of_ne_one
  rw [StableHlo.Predicate.slt_iff_toNat (by rw [word_toNat p hp]; omega) (by decide)]
  exact Nat.not_lt_zero _

/-- … it is at least zero … -/
theorem word_ge_zero (p : ℕ) (hp : p < 8192) : IntOp.cmpi .sge (BitVec.ofNat 32 p) 0#32 = 1#1 := by
  rw [StableHlo.Predicate.sge_iff_toNat (by rw [word_toNat p hp]; omega) (by decide)]
  exact Nat.zero_le _

/-- … and at most the last column 8191 … -/
theorem word_le_last (p : ℕ) (hp : p < 8192) : IntOp.cmpi .sle (BitVec.ofNat 32 p) 8191#32 = 1#1 := by
  rw [StableHlo.Predicate.sle_iff_toNat (by rw [word_toNat p hp]; omega) (by decide), word_toNat p hp]
  show p ≤ 8191
  omega

/-- … so reading it signed and clamping it into [0, 8191] returns it. -/
theorem word_clamp (p : ℕ) (hp : p < 8192) : min (BitVec.ofNat 32 p).toInt.toNat 8191 = p := by
  rw [StableHlo.Predicate.toInt_ofNat_small p (by omega), Int.toNat_natCast]
  omega

/-! ## Layout operations at coordinates -/

/-- Two halves of 4096 joined along the one axis: a position below 4096 reads the first half there, a position from
    4096 on reads the second half 4096 earlier. -/
theorem concat_halves_apply {α : Type} (a b : S4096.Idx → α) (r : Fin 8192) :
    concatenate S8192 0 [⟨S4096, a⟩, ⟨S4096, b⟩] concatenates_S4096_S4096_S8192_d0 (ix1 r)
      = if h : r.val < 4096 then a (ix1 ⟨r.val, h⟩) else b (ix1 ⟨r.val - 4096, by have := r.isLt; omega⟩) := by
  by_cases h : r.val < 4096
  · rw [dif_pos h]
    exact concatenate_pair_apply_left (0 : Fin S8192.rank) a b concatenates_S4096_S4096_S8192_d0 (ix1 r) rfl
      (ix1 ⟨r.val, h⟩) (fun c => by match c with | ⟨0, _⟩ => rfl)
  · rw [dif_neg h]
    exact concatenate_pair_apply_right (0 : Fin S8192.rank) a b concatenates_S4096_S4096_S8192_d0 (ix1 r) rfl rfl
      (ix1 ⟨r.val - 4096, by have := r.isLt; omega⟩)
      (fun c hc => by match c with | ⟨0, _⟩ => exact absurd rfl hc)
      (by show r.val - 4096 + 4096 = r.val; omega)

/-- A maximum-reduce along the columns read at row r: max is commutative and associative, so the reduce is the fold
    of max, from the initial value, over the row's entries. -/
theorem rowmax_fold (x : S8192x8192.Idx → EReal) (init : S_.Idx → EReal) (r : Fin 8192) :
    Host.reduce (FloatOps.maximumf (F := Ideal) (φ := .f32)) x init reducesTo_S8192x8192_S8192_d1 h_S_ (ix1 r)
      = (Finset.univ : Finset (Fin 8192)).fold max (init (Shape.Idx.first h_S_)) (fun c => x (ix2 r c)) := by
  have h : S8192x8192.Reduces [1] S8192 := by decide
  rw [Host.reduce_eq_fold_single (FloatOps.maximumf (F := Ideal) (φ := .f32)) x init reducesTo_S8192x8192_S8192_d1 h h_S_ (ix1 r)]
  have hl : (x ∘ h.lift (ix1 r)) = fun c : Fin 8192 => x (ix2 r c) :=
    funext fun c => congrArg x (funext fun a => Fin.ext (by match a with | ⟨0, _⟩ => rfl | ⟨1, _⟩ => rfl))
  rw [hl]
  rfl

/-- A fold over the one-element index set is one application of the operation. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]
  rfl

/-- An and-reduce over a trailing axis of extent one, read at (r, 0): the one entry there, and the initial bit. -/
theorem and_reduce_one (x : IVec S8192x1x1 1) (init : IVec S_ 1) (r : Fin 8192) :
    Host.reduce IntOp.andi x init reducesTo_S8192x1x1_S8192x1_d2 h_S_ (ix2 r (0 : Fin 1))
      = IntOp.andi (x (ix3 r (0 : Fin 1) (0 : Fin 1))) (init (Shape.Idx.first h_S_)) := by
  have h : S8192x1x1.Reduces [2] S8192x1 := by decide
  rw [Host.reduce_eq_fold_single IntOp.andi x init reducesTo_S8192x1x1_S8192x1_d2 h h_S_ (ix2 r (0 : Fin 1))]
  refine (fold_fin_one IntOp.andi (init (Shape.Idx.first h_S_)) (x ∘ h.lift (ix2 r (0 : Fin 1)))).trans ?_
  exact congrArg (fun i => IntOp.andi (x i) (init (Shape.Idx.first h_S_)))
    (funext fun a => Fin.ext (by match a with | ⟨0, _⟩ => rfl | ⟨1, _⟩ => rfl | ⟨2, _⟩ => rfl))

/-- The batched take along the columns. The operand's row axis is a batching axis paired with the start indices' row
    axis, its column axis is collapsed and addressed by the one-component start index: result entry (r, 0) is the
    operand's row r at the column that start index names, read signed and clamped into [0, 8191]. -/
theorem gather_row_apply {α : Type} {w : Nat} (x : S8192x8192.Idx → α) (idx : IVec S8192x1x1 w) (r : Fin 8192) :
    Host.gather gather_S8192x8192_S8192x1x1_S8192x1_n_1_0_0_1_2_11 x idx (ix2 r (0 : Fin 1))
      = x (ix2 r ⟨min (idx (ix3 r (0 : Fin 1) (0 : Fin 1))).toInt.toNat 8191, by omega⟩) := by
  have hb : (0 : Fin 2) ∈ gather_S8192x8192_S8192x1x1_S8192x1_n_1_0_0_1_2_11.operandBatchingDims :=
    List.mem_singleton.mpr rfl
  have hnb : (1 : Fin 2) ∉ gather_S8192x8192_S8192x1x1_S8192x1_n_1_0_0_1_2_11.operandBatchingDims :=
    fun h => absurd (List.mem_singleton.mp h) (by decide)
  have hc : (1 : Fin 2) ∈ gather_S8192x8192_S8192x1x1_S8192x1_n_1_0_0_1_2_11.collapsedSliceDims :=
    List.mem_singleton.mpr rfl
  have hm : (1 : Fin 2) ∈ gather_S8192x8192_S8192x1x1_S8192x1_n_1_0_0_1_2_11.startIndexMap :=
    List.mem_singleton.mpr rfl
  -- the row axis, a batching axis: no start, no offset, the result's own row
  have e0 : gather_S8192x8192_S8192x1x1_S8192x1_n_1_0_0_1_2_11.start (ix2 r (0 : Fin 1)) idx 0
      + gather_S8192x8192_S8192x1x1_S8192x1_n_1_0_0_1_2_11.batchCoord (ix2 r (0 : Fin 1)) 0
      + gather_S8192x8192_S8192x1x1_S8192x1_n_1_0_0_1_2_11.offCoord (ix2 r (0 : Fin 1)) 0 = r.val := by
    rw [GatherDims.start_batching _ _ _ _ hb,
      GatherDims.offCoord_eq_zero _ _ _ (fun h => ((GatherDims.mem_sKept _ _).mp h).2 hb), Nat.zero_add, Nat.add_zero]
    unfold GatherDims.batchCoord
    rw [dif_pos hb]
    rfl
  -- the column axis, collapsed: the clamped start index, no batch coordinate, no offset
  have e1 : gather_S8192x8192_S8192x1x1_S8192x1_n_1_0_0_1_2_11.start (ix2 r (0 : Fin 1)) idx 1
      + gather_S8192x8192_S8192x1x1_S8192x1_n_1_0_0_1_2_11.batchCoord (ix2 r (0 : Fin 1)) 1
      + gather_S8192x8192_S8192x1x1_S8192x1_n_1_0_0_1_2_11.offCoord (ix2 r (0 : Fin 1)) 1
      = min (idx (ix3 r (0 : Fin 1) (0 : Fin 1))).toInt.toNat 8191 := by
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : gather_S8192x8192_S8192x1x1_S8192x1_n_1_0_0_1_2_11.siIdx (ix2 r (0 : Fin 1))
        ⟨List.idxOf (1 : Fin 2) gather_S8192x8192_S8192x1x1_S8192x1_n_1_0_0_1_2_11.startIndexMap,
          List.idxOf_lt_length_iff.2 hm⟩ = ix3 r (0 : Fin 1) (0 : Fin 1) := by
      funext b; refine Fin.ext ?_
      match b with
      | ⟨0, _⟩ => rfl
      | ⟨1, _⟩ => rfl
      | ⟨2, _⟩ => rfl
    rw [hsi]
    rfl
  unfold Host.gather
  congr 1
  funext a
  refine Fin.ext ?_
  match a with
  | ⟨0, _⟩ => exact e0
  | ⟨1, _⟩ => exact e1

/-! ## The row norms: max(√(Σₖ X[r,k]²), ε) -/

/-- The clamped norm column at (r, 0): the sum of squares starts from the word of 0, which is 0. -/
theorem norm_eq (r : Fin 8192) :
    val_main_v3 (F := Ideal) x0 x1 (ix2 r (0 : Fin 1)) = Cert.Spec.rowNorm (val_main_v0 (F := Ideal) x0 x1) r := by
  have hi : idx_main_call0_v2 (ix2 r (0 : Fin 1)) = ix1 r :=
    funext fun a => Fin.ext (by match a with | ⟨0, _⟩ => rfl)
  have hk : ∀ k : Fin 1024, idx_main_call0_v1 (ix1 r) k = ix2 r k :=
    fun k => funext fun a => Fin.ext (by match a with | ⟨0, _⟩ => rfl | ⟨1, _⟩ => rfl)
  rw [val_main_v3_apply, val_main_v1_apply, val_main_call0_v2_apply, hi, val_main_call0_v1_apply,
    val_main_v2_apply, val_main_cst_apply, val_main_call0_cst_apply]
  simp only [hk, val_main_call0_v0_apply, Ideal.maximumf_def, Ideal.hostUnary_sqrt_def, Ideal.mulf_def,
    Ideal.ofBits_def, Ideal.ofBits_zero_f32, zero_add]
  rfl

/-! ## The unit rows: X[r,k] / rowNorm r -/

/-- The normalised features at (r, k): the norm column is broadcast along the row. -/
theorem unit_eq (r : Fin 8192) (k : Fin 1024) :
    val_main_v5 (F := Ideal) x0 x1 (ix2 r k) = Cert.Spec.unit (val_main_v0 (F := Ideal) x0 x1) r k := by
  have hi : idx_main_v4 (ix2 r k) = ix2 r (0 : Fin 1) :=
    funext fun a => Fin.ext (by match a with | ⟨0, _⟩ => rfl | ⟨1, _⟩ => rfl)
  rw [val_main_v5_apply, val_main_v4_apply, hi, norm_eq]
  rfl

/-! ## The similarities: Σₖ unit[r,k] · unit[c,k] -/

/-- The product of the unit rows with their transpose at (r, c): the left factor is row r at k, the right factor the
    transpose at (k, c), which is row c at k. -/
theorem sim_eq (r c : Fin 8192) :
    val_main_v7 (F := Ideal) x0 x1 (ix2 r c) = Cert.Spec.sim (val_main_v0 (F := Ideal) x0 x1) r c := by
  have hl : ∀ k : Fin 1024, lidx_main_v7 (ix2 r c) k = ix2 r k :=
    fun k => funext fun a => Fin.ext (by match a with | ⟨0, _⟩ => rfl | ⟨1, _⟩ => rfl)
  have hr : ∀ k : Fin 1024, idx_main_v6 (ridx_main_v7 (ix2 r c) k) = ix2 c k :=
    fun k => funext fun a => Fin.ext (by match a with | ⟨0, _⟩ => rfl | ⟨1, _⟩ => rfl)
  rw [val_main_v7_apply]
  simp only [val_main_v6_apply, hl, hr, unit_eq]
  rfl

/-! ## The logits: sim · (1/τ) − B·[r = c] -/

/-- The reference's logits array at (r, c) is the specification's logit of the concatenated features. -/
theorem logits_eq (r c : Fin 8192) :
    val_main_v18 (F := Ideal) x0 x1 (ix2 r c) = Cert.Spec.logit (val_main_v0 (F := Ideal) x0 x1) r c := by
  rw [val_main_v18_apply, val_main_v15_apply, val_main_v14_apply, val_main_cst_0_apply, val_main_v17_apply,
    val_main_v13_apply, val_main_v12_apply, val_main_v11_apply, val_main_v8_apply, val_main_v9_apply,
    val_main_v10_apply, val_main_c_apply, val_main_v16_apply, val_main_cst_1_apply, sim_eq]
  show Ideal.div (Cert.Spec.sim (val_main_v0 (F := Ideal) x0 x1) r c) (Ideal.ofBits .f32 0x3D4CCCCD#32)
      - FloatOps.uitofp (F := Ideal) .f32
          (IntOp.cmpi .eq (IntOp.addi (BitVec.ofNat 32 r.val) 0#32) (BitVec.ofNat 32 c.val))
        * Ideal.ofBits .f32 0x501502F9#32
    = Cert.Spec.sim (val_main_v0 (F := Ideal) x0 x1) r c * Cert.Spec.invTau - (if r = c then Cert.Spec.big else 0)
  rw [div_tau, eye_word]
  rfl

/-! ## The row maximum of the logits, from −∞ -/

/-- The running maximum the log-soft-max subtracts, at row r: −∞ against the maximum-reduce of the logits row, itself
    started from −∞. -/
theorem rowmax_eq (r : Fin 8192) :
    val_main_call1_v2 (F := Ideal) x0 x1 (ix1 r) = Cert.Spec.rowMax (val_main_v0 (F := Ideal) x0 x1) r := by
  rw [val_main_call1_v2_apply, val_main_call1_v1_apply, val_main_call1_cst_0_apply]
  unfold val_main_call1_v0
  rw [rowmax_fold, val_main_call1_cst_apply]
  simp only [logits_eq]
  show max (Ideal.ofBits .f32 0xFF800000#32)
      ((Finset.univ : Finset (Fin 8192)).fold max (Ideal.ofBits .f32 0xFF800000#32)
        fun c => Cert.Spec.logit (val_main_v0 (F := Ideal) x0 x1) r c) = _
  rw [neg_inf_word]
  rfl

/-- The shifted logits at (r, c): logit − row maximum, the maximum broadcast along the row. -/
theorem shifted_eq (r c : Fin 8192) :
    val_main_call1_v5 (F := Ideal) x0 x1 (ix2 r c)
      = Cert.Spec.logit (val_main_v0 (F := Ideal) x0 x1) r c - Cert.Spec.rowMax (val_main_v0 (F := Ideal) x0 x1) r := by
  have h4 : idx_main_call1_v4 (ix2 r c) = ix2 r (0 : Fin 1) :=
    funext fun a => Fin.ext (by match a with | ⟨0, _⟩ => rfl | ⟨1, _⟩ => rfl)
  have h3 : idx_main_call1_v3 (ix2 r (0 : Fin 1)) = ix1 r :=
    funext fun a => Fin.ext (by match a with | ⟨0, _⟩ => rfl)
  rw [val_main_call1_v5_apply, val_main_call1_v4_apply, h4, val_main_call1_v3_apply, h3, rowmax_eq, logits_eq]
  rfl

/-! ## The log-soft-max: (logit − M) − log (0 + Σ_c exp (logit − M)) -/

/-- The log-soft-max at (r, c). The sum of exponentials keeps its initial value, the word of 0, in front. -/
theorem logsoftmax_eq (r c : Fin 8192) :
    val_main_v27 (F := Ideal) x0 x1 (ix2 r c)
      = (Cert.Spec.logit (val_main_v0 (F := Ideal) x0 x1) r c - Cert.Spec.rowMax (val_main_v0 (F := Ideal) x0 x1) r)
        - Ideal.log (0 + ∑ c' : Fin 8192,
            Ideal.exp (Cert.Spec.logit (val_main_v0 (F := Ideal) x0 x1) r c'
              - Cert.Spec.rowMax (val_main_v0 (F := Ideal) x0 x1) r)) := by
  have h10 : idx_main_call1_v10 (ix2 r c) = ix2 r (0 : Fin 1) :=
    funext fun a => Fin.ext (by match a with | ⟨0, _⟩ => rfl | ⟨1, _⟩ => rfl)
  have h8 : idx_main_call1_v8 (ix2 r (0 : Fin 1)) = ix1 r :=
    funext fun a => Fin.ext (by match a with | ⟨0, _⟩ => rfl)
  have h7 : ∀ k : Fin 8192, idx_main_call1_v7 (ix1 r) k = ix2 r k :=
    fun k => funext fun a => Fin.ext (by match a with | ⟨0, _⟩ => rfl | ⟨1, _⟩ => rfl)
  rw [val_main_v27_apply, shifted_eq, val_main_call1_v10_apply, h10, val_main_call1_v9_apply, val_main_call1_v8_apply, h8,
    val_main_call1_v7_apply, val_main_call1_cst_1_apply]
  simp only [h7, val_main_call1_v6_apply, shifted_eq, Ideal.subf_def, Ideal.hostUnary_log_def, Ideal.hostUnary_exp_def,
    Ideal.ofBits_def, Ideal.ofBits_zero_f32]

/-! ## The partner column and the take along the columns -/

/-- The label array at row r is the partner column's word: the first half holds iota + 4096, the second half iota. -/
theorem label_eq (r : Fin 8192) :
    val_main_v22 (F := Ideal) (ix1 r) = BitVec.ofNat 32 (Cert.Spec.partner r).val := by
  unfold val_main_v22
  rw [concat_halves_apply]
  unfold Cert.Spec.partner
  by_cases h : r.val < 4096
  · rw [dif_pos h, dif_pos h, val_main_v21_apply, val_main_v19_apply, val_main_v20_apply, val_main_c_2_apply]
    show BitVec.ofNat 32 r.val + BitVec.ofNat 32 4096 = BitVec.ofNat 32 (r.val + 4096)
    exact (BitVec.ofNat_add r.val 4096).symm
  · rw [dif_neg h, dif_neg h, val_main_v19_apply]

/-- The start-index array of the take at (r, 0, 0) is the partner column's word: the label is not negative, so the
    wrap-around select keeps it, and the reshape and broadcast move nothing. -/
theorem start_eq (r : Fin 8192) :
    val_main_call2_v5 (F := Ideal) (ix3 r (0 : Fin 1) (0 : Fin 1)) = BitVec.ofNat 32 (Cert.Spec.partner r).val := by
  have h5 : idx_main_call2_v5 (ix3 r (0 : Fin 1) (0 : Fin 1)) = ix2 r (0 : Fin 1) :=
    funext fun a => Fin.ext (by
      match a with
      | ⟨0, _⟩ => show ((r.val * 1 + 0) * 1 + 0) / 1 = r.val; omega
      | ⟨1, _⟩ => rfl)
  have h28 : idx_main_v28 (ix2 r (0 : Fin 1)) = ix1 r :=
    funext fun a => Fin.ext (by match a with | ⟨0, _⟩ => rfl)
  have hv28 : val_main_v28 (F := Ideal) (ix2 r (0 : Fin 1)) = BitVec.ofNat 32 (Cert.Spec.partner r).val := by
    rw [val_main_v28_apply, h28, label_eq]
  rw [val_main_call2_v5_apply, h5, val_main_call2_v4_apply, val_main_call2_v1_apply, hv28, val_main_call2_v0_apply,
    val_main_call2_c_apply, word_not_neg _ (Cert.Spec.partner r).isLt, select_zero]

/-- The bounds mask of the take at (r, 0) is set: the start index lies in [0, 8191]. -/
theorem mask_eq (r : Fin 8192) : val_main_call2_v12 (F := Ideal) (ix2 r (0 : Fin 1)) = 1#1 := by
  unfold val_main_call2_v12
  rw [and_reduce_one, val_main_call2_v11_apply, val_main_call2_v7_apply, val_main_call2_v10_apply, start_eq,
    val_main_call2_v6_apply, val_main_call2_c_2_apply, val_main_call2_v9_apply, val_main_call2_v8_apply,
    val_main_call2_c_1_apply, val_main_call2_c_3_apply, word_ge_zero _ (Cert.Spec.partner r).isLt,
    word_le_last _ (Cert.Spec.partner r).isLt]
  rfl

/-- The take at (r, 0) is the log-soft-max of row r at its partner column. -/
theorem take_eq (r : Fin 8192) :
    val_main_call2_v13 (F := Ideal) x0 x1 (ix2 r (0 : Fin 1))
      = val_main_v27 (F := Ideal) x0 x1 (ix2 r (Cert.Spec.partner r)) := by
  unfold val_main_call2_v13
  rw [gather_row_apply]
  refine congrArg (val_main_v27 (F := Ideal) x0 x1) (congrArg (ix2 r) (Fin.ext ?_))
  show min (val_main_call2_v5 (F := Ideal) (ix3 r (0 : Fin 1) (0 : Fin 1))).toInt.toNat 8191 = (Cert.Spec.partner r).val
  rw [start_eq, word_clamp _ (Cert.Spec.partner r).isLt]

/-! ## The per-row loss -/

/-- The reference's per-row loss at row r (the negated entry of the log-soft-max at the partner column) is the
    specification's. -/
theorem perExample_eq (r : Fin 8192) :
    val_main_v31 (F := Ideal) x0 x1 (ix1 r) = Cert.Spec.perExample (val_main_v0 (F := Ideal) x0 x1) r := by
  have h30 : idx_main_v30 (ix1 r) = ix2 r (0 : Fin 1) :=
    funext fun a => Fin.ext (by
      match a with
      | ⟨0, _⟩ => show r.val / 1 = r.val; omega
      | ⟨1, _⟩ => rfl)
  rw [val_main_v31_apply, val_main_v30_apply, h30, val_main_v29_apply, mask_eq, select_one, take_eq, logsoftmax_eq]
  rfl

end Cert.ReferenceIdeal.RefValue

end
-- ==== Proof.Finite.lean ====
/-
  Finiteness: under the precondition every entry of the two float inputs is a real number; so is every entry of
  their concatenation; and so is every logit of the specification (the row norm is at least ε > 0, so the unit
  rows, their products and sums are real).
-/
import proofs.«117302_j53961969107141_1_alg».proof.Pre_finite_inputs
import proofs.«117302_j53961969107141_1_alg».proof.Proof.Gen.Pre_finite_inputs
import proofs.«117302_j53961969107141_1_alg».proof.Proof.Spec
import Idealize.ShloMosaic.Lib.ValueIdx
import Idealize.ShloMosaic.Lib.ValueLayout
import Idealize.ShloMosaic.Lib.Pipeline.Value
import Idealize.ShloMosaic.Lib.ReduceAll
import Idealize.ShloMosaic.PureOps.Ideal.Laws

noncomputable section

namespace Cert.Finite

open Idealize.ShloMosaic Idealize.ShloMosaic.ValueIdx

/-! ## The precondition read back -/

/-- The word 0x7F800000 denotes +∞, the top of the extended reals. -/
theorem pos_inf_word : Ideal.ofBits .f32 0x7F800000#32 = ⊤ := by
  simp [Ideal.ofBits, Ideal.ieee]

/-- An extended real whose absolute value max(x, −x) is strictly below +∞ is a real number: at −∞ the negation is
    +∞, at +∞ the value itself is. -/
theorem real_of_abs_lt_top (x : EReal)
    (hx : Ideal.cmp .olt (max x (-x)) (Ideal.ofBits .f32 0x7F800000#32) = 1#1) : ∃ r : ℝ, x = (r : EReal) := by
  rw [pos_inf_word] at hx
  have hlt : max x (-x) < ⊤ := by
    by_contra hn
    have h0 : Ideal.cmp .olt (max x (-x)) ⊤ = 0#1 := by
      show BitVec.ofBool (decide (max x (-x) < ⊤)) = 0#1
      rw [decide_eq_false hn]
      rfl
    rw [h0] at hx
    exact absurd hx (by decide)
  induction x using EReal.rec with
  | bot => exact absurd hlt (by simp)
  | top => exact absurd hlt (by simp)
  | coe r => exact ⟨r, rfl⟩

/-- The result shape of a reduction over every axis has one index. -/
instance : Subsingleton Cert.Pre_finite_inputs.S_.Idx := ⟨fun a b => funext fun d => d.elim0⟩

/-- Under the precondition both float inputs are real-valued. -/
theorem args_real (a0 a1 : FVec Ideal Cert.Pre_finite_inputs.S4096x1024 .f32) (a2 : IVec Cert.Pre_finite_inputs.S4096 32)
    (h : Cert.Pre_finite_inputs.fn (F := Ideal) a0 a1 a2 = fun _ => 1#1) :
    (∀ i, ∃ x : ℝ, a0 i = (x : EReal)) ∧ (∀ i, ∃ x : ℝ, a1 i = (x : EReal)) := by
  have h1 := congrFun h ix0
  unfold Cert.Pre_finite_inputs.fn at h1
  dsimp only at h1
  obtain ⟨hA, hB⟩ := IntOp.andi_eq_one.1 h1
  have eA := Host.reduce_andi_all _ _ _ _ _ hA
  have eB := Host.reduce_andi_all _ _ _ _ _ hB
  exact ⟨fun i => real_of_abs_lt_top (a0 i) (eA i), fun i => real_of_abs_lt_top (a1 i) (eB i)⟩

/-- The concatenation (along the rows) of two real-valued arrays is real-valued. -/
theorem concat_real (a0 a1 : FVec Ideal ⟨2, ![4096, 1024]⟩ .f32)
    (hc : Shape.Concatenates [(⟨2, ![4096, 1024]⟩ : Shape), ⟨2, ![4096, 1024]⟩] ⟨2, ![8192, 1024]⟩ 0)
    (h0 : ∀ i, ∃ x : ℝ, a0 i = (x : EReal)) (h1 : ∀ i, ∃ x : ℝ, a1 i = (x : EReal)) (i : (⟨2, ![8192, 1024]⟩ : Shape).Idx) :
    ∃ x : ℝ, concatenate (α := EReal) ⟨2, ![8192, 1024]⟩ 0 [⟨⟨2, ![4096, 1024]⟩, a0⟩, ⟨⟨2, ![4096, 1024]⟩, a1⟩] hc i = (x : EReal) := by
  -- a row below 4096 is a row of the first array, a row from 4096 on is the row 4096 earlier of the second
  by_cases hlt : (i 0).val < 4096
  · obtain ⟨x, hx⟩ := h0 (ix2 ⟨(i 0).val, hlt⟩ ⟨(i 1).val, idx2_lt1 i⟩)
    refine ⟨x, ?_⟩
    rw [← hx]
    exact concatenate_pair_apply_left (0 : Fin 2) a0 a1 hc i rfl (ix2 ⟨(i 0).val, hlt⟩ ⟨(i 1).val, idx2_lt1 i⟩)
      (fun b => by match b with | ⟨0, _⟩ => rfl | ⟨1, _⟩ => rfl)
  · have hi0 := idx2_lt0 i
    obtain ⟨x, hx⟩ := h1 (ix2 ⟨(i 0).val - 4096, by omega⟩ ⟨(i 1).val, idx2_lt1 i⟩)
    refine ⟨x, ?_⟩
    rw [← hx]
    exact concatenate_pair_apply_right (0 : Fin 2) a0 a1 hc i rfl rfl
      (ix2 ⟨(i 0).val - 4096, by omega⟩ ⟨(i 1).val, idx2_lt1 i⟩)
      (fun b hb => by match b with | ⟨0, _⟩ => exact absurd rfl hb | ⟨1, _⟩ => rfl)
      (by show (i 0).val - 4096 + 4096 = (i 0).val; omega)

/-! ## The specification's logits are real -/

/-- The coercion of a finite sum of reals is the sum of the coercions. -/
theorem coe_sum {ι : Type} (s : Finset ι) (g : ι → ℝ) : ((∑ k ∈ s, g k : ℝ) : EReal) = ∑ k ∈ s, (g k : EReal) := by
  induction s using Finset.cons_induction with
  | empty => rfl
  | cons a s ha ih => rw [Finset.sum_cons, Finset.sum_cons, EReal.coe_add, ih]

/-- The clamp ε is a positive real: its word denotes 11258999 / 2^50 (the float nearest 1e-8). -/
theorem eps_real : ∃ e : ℝ, 0 < e ∧ Cert.Spec.eps = (e : EReal) := by
  refine ⟨11258999 / 1125899906842624, by norm_num, ?_⟩
  simp [Cert.Spec.eps, Ideal.ofBits, Ideal.ieee, -EReal.coe_mul]; norm_num

/-- The diagonal penalty B is a real: its word denotes 10^10 exactly. -/
theorem big_real : ∃ B : ℝ, Cert.Spec.big = (B : EReal) := by
  refine ⟨10000000000, ?_⟩
  simp [Cert.Spec.big, Ideal.ofBits, Ideal.ieee, -EReal.coe_mul]; norm_num

/-- The clamped norm of a row of reals is a positive real: the sum of squares is a real ≥ 0, its root a real, and the
    maximum with ε > 0 is positive. -/
theorem rowNorm_real (X : (⟨2, ![8192, 1024]⟩ : Shape).Idx → EReal) (f : (⟨2, ![8192, 1024]⟩ : Shape).Idx → ℝ)
    (hf : ∀ i, X i = (f i : EReal)) (r : Fin 8192) : ∃ n : ℝ, 0 < n ∧ Cert.Spec.rowNorm X r = (n : EReal) := by
  obtain ⟨e, he, hE⟩ := eps_real
  have hs : (∑ k : Fin 1024, X (ix2 r k) * X (ix2 r k))
      = ((∑ k : Fin 1024, f (ix2 r k) * f (ix2 r k) : ℝ) : EReal) := by
    rw [coe_sum]
    exact Finset.sum_congr rfl fun k _ => by rw [hf, EReal.coe_mul]
  have hnn : 0 ≤ ∑ k : Fin 1024, f (ix2 r k) * f (ix2 r k) := Finset.sum_nonneg fun k _ => mul_self_nonneg _
  refine ⟨max (Real.sqrt (∑ k : Fin 1024, f (ix2 r k) * f (ix2 r k))) e, lt_max_of_lt_right he, ?_⟩
  unfold Cert.Spec.rowNorm
  rw [hs, Ideal.sqrt_coe, if_neg (not_lt.mpr hnn), hE]
  exact (EReal.coe_strictMono.monotone.map_max).symm

/-- A unit-row entry of a real array is real: a real divided by a nonzero real. -/
theorem unit_real (X : (⟨2, ![8192, 1024]⟩ : Shape).Idx → EReal) (f : (⟨2, ![8192, 1024]⟩ : Shape).Idx → ℝ)
    (hf : ∀ i, X i = (f i : EReal)) (r : Fin 8192) : ∃ u : Fin 1024 → ℝ, ∀ k, Cert.Spec.unit X r k = (u k : EReal) := by
  obtain ⟨n, hn, hN⟩ := rowNorm_real X f hf r
  refine ⟨fun k => f (ix2 r k) * (1 / n), fun k => ?_⟩
  unfold Cert.Spec.unit
  rw [hN, hf, Ideal.div_coe hn.ne', EReal.coe_mul]

/-- Every logit of a real-valued feature array is a real number. -/
theorem logit_real (X : (⟨2, ![8192, 1024]⟩ : Shape).Idx → EReal) (hX : ∀ i, ∃ x : ℝ, X i = (x : EReal)) (r q : Fin 8192) :
    ∃ z : ℝ, Cert.Spec.logit X r q = (z : EReal) := by
  choose f hf using hX
  obtain ⟨u, hu⟩ := unit_real X f hf r
  obtain ⟨v, hv⟩ := unit_real X f hf q
  obtain ⟨B, hB⟩ := big_real
  -- the similarity is a finite sum of products of reals
  have hsim : Cert.Spec.sim X r q = ((∑ k : Fin 1024, u k * v k : ℝ) : EReal) := by
    unfold Cert.Spec.sim
    rw [coe_sum]
    exact Finset.sum_congr rfl fun k _ => by rw [hu, hv, EReal.coe_mul]
  -- the subtracted diagonal term is B or 0, a real either way
  have hdiag : (if r = q then Cert.Spec.big else (0 : EReal)) = (((if r = q then B else 0 : ℝ)) : EReal) := by
    by_cases hrq : r = q
    · rw [if_pos hrq, if_pos hrq, hB]
    · rw [if_neg hrq, if_neg hrq, EReal.coe_zero]
  refine ⟨(∑ k : Fin 1024, u k * v k) * (268435456 / 13421773) - (if r = q then B else 0), ?_⟩
  unfold Cert.Spec.logit Cert.Spec.invTau
  rw [hsim, hdiag, EReal.coe_sub, EReal.coe_mul]

end Cert.Finite

end
-- ==== Proof.Bridge.lean ====
/-
  The two idealized programs end with equal results. The kernel's run leaves the logits array at what region 1
  wrote, the partner indices at an iota term, and the loss at the weighted mean of region 1's loss column; the
  reference's run leaves its three results at its stages. Both logits arrays are the specification's logits of the
  concatenated features; both per-row losses are its per-row loss (for the kernel: the streaming soft-max over 16
  column tiles is the two-pass one, the logits being finite under the precondition); the weights, the weighted
  mean and the partner indices are the same host operations on both sides.
-/
import proofs.«117302_j53961969107141_1_alg».proof.Defs
import proofs.«117302_j53961969107141_1_alg».proof.Proof.KILaunch
import proofs.«117302_j53961969107141_1_alg».proof.Proof.KITail
import proofs.«117302_j53961969107141_1_alg».proof.Proof.KIValue0
import proofs.«117302_j53961969107141_1_alg».proof.Proof.KIValue1a
import proofs.«117302_j53961969107141_1_alg».proof.Proof.KIValue1b
import proofs.«117302_j53961969107141_1_alg».proof.Proof.RefRun
import proofs.«117302_j53961969107141_1_alg».proof.Proof.RefValue
import proofs.«117302_j53961969107141_1_alg».proof.Proof.Finite
import proofs.«117302_j53961969107141_1_alg».proof.Proof.Gen.Pre_finite_inputs

set_option maxRecDepth 16384

noncomputable section

namespace Cert.Bridge

open Idealize.ShloMosaic Idealize.ShloMosaic.TcCoe Idealize.ShloMosaic.ValueIdx Idealize.SL.Sem
open Cert.KernelIdeal.Hand Cert.KernelIdeal.HandValue

variable (m : (ℓ : Loc Cert.KernelIdeal.nD Cert.KernelIdeal.τ Cert.KernelIdeal.sig) → Buf (Elt Ideal) ℓ)
variable (c : Dev Cert.KernelIdeal.nD)

/-- The concatenated features, as the kernel program's first host operation leaves them. -/
abbrev X : (⟨2, ![8192, 1024]⟩ : Shape).Idx → EReal := Cert.KernelIdeal.Gen.V1 m c Cert.KernelIdeal.main_v0

/-- Region 1 finds the unit rows of X in its input array. -/
theorem unitRows (r : Fin 8192) (k : Fin 1024) : VR2 m c Cert.KernelIdeal.main_v1 (ix2 r k) = Cert.Spec.unit (X m c) r k := by
  have h : VR2 m c Cert.KernelIdeal.main_v1 = arr1 m c := by
    show Function.update (Cert.KernelIdeal.Gen.V1 m c) Cert.KernelIdeal.main_v1 (arr1 m c) Cert.KernelIdeal.main_v1 = arr1 m c
    rw [Function.update_self]
  rw [h]
  exact arrAt0_1_apply (VR1 m) c r k

/-- The kernel's logits array is the specification's. -/
theorem logitsK (r q : Fin 8192) : arr2 m c (ix2 r q) = Cert.Spec.logit (X m c) r q :=
  arrAt1_2_apply (VR2 m) (X m c) c (unitRows m c) r q

/-- The kernel's loss column is the specification's per-row loss, the logits being finite. -/
theorem lossK (hX : ∀ i, ∃ x : ℝ, X m c i = (x : EReal)) (r : Fin 8192) :
    arr3 m c (ix2 r (0 : Fin 1)) = Cert.Spec.perExample (X m c) r :=
  arrAt1_3_apply (VR2 m) (X m c) c (unitRows m c) (fun r q => Cert.Finite.logit_real (X m c) hX r q) r

end Cert.Bridge

end
-- ==== Proof.lean ====
/-
  The certificate's claims.
  * The frames of the two kernel programs: @main is a host concatenation, two kernel regions and a host tail; each
    region's body is run point by point against proof data naming what every staging buffer and scratch column
    holds after each point, and the launch threads the regions' records over the valuations between the items.
  * The reference's frame is its run with the results dropped.
  * The one idealization step names the kernel's scale 20.0 as 1/τ = 2^28/13421773, the exact reciprocal of the
    rational that the reference's temperature word denotes.
  * On the extended reals the two programs' results agree: both logits arrays are sim·(1/τ) − B·[r = c] of the unit
    rows (the reference's division by τ is the product with 1/τ); the kernel's streaming soft-max over 16 column
    tiles of a row block (running maximum, rescaled running sum, target pick) equals the reference's two-pass
    log-soft-max at the partner column, the logits being finite because the row norms are clamped at ε > 0 and the
    inputs are finite; the partner indices and the weighted mean are the same host operations on both sides.
-/
import proofs.«117302_j53961969107141_1_alg».proof.Defs
import proofs.«117302_j53961969107141_1_alg».proof.Proof.Gen.Kernel
import proofs.«117302_j53961969107141_1_alg».proof.Proof.Gen.KernelIdeal
import proofs.«117302_j53961969107141_1_alg».proof.Proof.Gen.ReferenceIdeal
import proofs.«117302_j53961969107141_1_alg».proof.Proof.Gen.Pre_finite_inputs
import proofs.«117302_j53961969107141_1_alg».proof.Proof.KLaunch
import proofs.«117302_j53961969107141_1_alg».proof.Proof.Bridge
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem
open Cert.KernelIdeal.Hand Cert.KernelIdeal.HandValue Cert.Bridge

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => ⟨(h c).2.2.2.1, (h c).2.2.2.2.1, (h c).2.2.2.2.2⟩)
    (Cert.ReferenceIdeal.RunHand.run (F := Ideal) m ρ)

/-- The ledger's one entry: the table gives "inv_tau" the value 2^28/13421773, and the printed constant is that value on
    the extended reals. -/
theorem preserves : Cert.preserves_Kernel_KernelIdeal :=
  IdealRules.named_const.statement Cert.KernelIdeal.κ "inv_tau" .f32 0x41A00000#32 ((268435456 / 13421773 : ℝ) : EReal) rfl

/-- An [8192, 1] column reshaped to a vector reads, at r, the column's entry in row r. -/
theorem col_reshape (L : (⟨2, ![8192, 1]⟩ : Shape).Idx → EReal) (h : (⟨2, ![8192, 1]⟩ : Shape).ShapeCasts ⟨1, ![8192]⟩) (r : Fin 8192) :
    shapeCast ⟨1, ![8192]⟩ L h (ix1 r) = L (ix2 r (0 : Fin 1)) :=
  shapeCast_apply L h _ _ (by
    rw [Shape.rowMajor_val_one, Shape.rowMajor_val_two]
    show r.val * 1 + 0 = r.val
    omega)

theorem algebraic : Cert.algebraic_KernelIdeal_ReferenceIdeal := by
  intro m ρ m' ρ' hpre hagree
  -- the concatenated features are the same array on both sides, and real-valued
  have hXeq : ∀ c : Dev Cert.KernelIdeal.nD, Cert.ReferenceIdeal.ReadP.val_main_v0 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)) = X m c := fun c => by
    rw [(hagree c).1, (hagree c).2.1]
    exact (V1_main_v0 m c).symm
  have hXreal : ∀ (c : Dev Cert.KernelIdeal.nD) i, ∃ x : ℝ, X m c i = (x : EReal) := fun c i => by
    obtain ⟨h0, h1⟩ := Cert.Finite.args_real _ _ _ (hpre c)
    have := Cert.Finite.concat_real _ _ Cert.KernelIdeal.Gen.concatenates_S4096x1024_S4096x1024_S8192x1024_d0 h0 h1 i
    rw [show X m c = _ from V1_main_v0 m c]
    exact this
  refine ⟨fun c => tailK (F := Ideal) (shapeCast Cert.KernelIdeal.S8192 (arr3 m c) Cert.KernelIdeal.Gen.shapeCasts_S8192x1_S8192) (m ((c : Thread Cert.KernelIdeal.nD Cert.KernelIdeal.τ).loc Cert.KernelIdeal.main_arg2)),
    fun c => arr2 m c, fun c => partnersK, ?_, ?_⟩
  · -- the kernel's run, every result read off the last valuation
    refine (θ_run Cert.KernelIdeal.defs _ _).mono (fun r h c => ?_) (run_all (F := Ideal) m ρ)
    exact ⟨(h c _ (mem_uc Cert.KernelIdeal.main_v22 (by decide))).trans (tail_v22 m c),
      (h c _ (mem_uc Cert.KernelIdeal.main_v2_0 (by decide))).trans (tail_v2_0 m c),
      (h c _ (mem_uc Cert.KernelIdeal.main_v7 (by decide))).trans (tail_v7 m c),
      (h c _ (mem_uc Cert.KernelIdeal.main_arg0 (by decide))).trans (tail_arg0 m c),
      (h c _ (mem_uc Cert.KernelIdeal.main_arg1 (by decide))).trans (tail_arg1 m c),
      (h c _ (mem_uc Cert.KernelIdeal.main_arg2 (by decide))).trans (tail_arg2 m c)⟩
  · -- the reference's run, each stage identified with the kernel's value
    refine (θ_run Cert.ReferenceIdeal.defs _ _).mono (fun r h c => ?_) (Cert.ReferenceIdeal.RunHand.run (F := Ideal) m' ρ')
    have hpe : Cert.ReferenceIdeal.ReadP.val_main_v31 (F := Ideal)
          (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
        = shapeCast Cert.KernelIdeal.S8192 (arr3 m c) Cert.KernelIdeal.Gen.shapeCasts_S8192x1_S8192 := by
      funext i
      obtain ⟨r, rfl⟩ : ∃ r : Fin 8192, i = ix1 r := ⟨i 0, eq_ix1 i⟩
      rw [Cert.ReferenceIdeal.RefValue.perExample_eq, hXeq c]
      exact ((col_reshape _ _ r).trans (lossK m c (hXreal c) r)).symm
    refine ⟨(h c).1.trans ?_, (h c).2.1.trans ?_, (h c).2.2.1.trans ?_, (h c).2.2.2.1, (h c).2.2.2.2.1, (h c).2.2.2.2.2⟩
    · -- the loss: the same weighted mean of the same per-row losses
      unfold Cert.ReferenceIdeal.ReadP.val_main_v42 Cert.ReferenceIdeal.ReadP.val_main_v40 Cert.ReferenceIdeal.ReadP.val_main_v41 Cert.ReferenceIdeal.ReadP.val_main_v39
      rw [hpe, (hagree c).2.2]
      rfl
    · -- the logits
      funext i
      obtain ⟨r, q, rfl⟩ : ∃ (r q : Fin 8192), i = ix2 r q := ⟨i 0, i 1, eq_ix2 i⟩
      rw [Cert.ReferenceIdeal.RefValue.logits_eq, hXeq c]
      exact (logitsK m c r q).symm
    · -- the partner indices
      rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
